-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v37)) (v1 : (c : Dev Cert.KernelIdeal.nD) → Buf (Elt Ideal) ((c.tc : Thread Cert.KernelIdeal.nD Cert.KernelIdeal.τ).loc Cert.KernelIdeal.main_v34)) (v2 : (c : Dev Cert.KernelIdeal.nD) → Buf (Elt Ideal) ((c.tc : Thread Cert.KernelIdeal.nD Cert.KernelIdeal.τ).loc Cert.KernelIdeal.main_v26_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_v34) = v1 c
          ∧ r.2.mem ((c.tc : Thread Cert.KernelIdeal.nD Cert.KernelIdeal.τ).loc Cert.KernelIdeal.main_v26_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_v16) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x5 : Shape := ⟨2, ![50000, 5]⟩
abbrev S2x800000 : Shape := ⟨2, ![2, 800000]⟩
abbrev S800000x16 : Shape := ⟨2, ![800000, 16]⟩
abbrev S800000x3 : Shape := ⟨2, ![800000, 3]⟩
abbrev S5x64 : Shape := ⟨2, ![5, 64]⟩
abbrev S64 : Shape := ⟨1, ![64]⟩
abbrev S16x64 : Shape := ⟨2, ![16, 64]⟩
abbrev S64x64 : Shape := ⟨2, ![64, 64]⟩
abbrev S192x64 : Shape := ⟨2, ![192, 64]⟩
abbrev S128x64 : Shape := ⟨2, ![128, 64]⟩
abbrev S_ : Shape := ⟨0, ![]⟩

class Facts : Prop where
  bcast_S_S50000x5 : S_.BroadcastsInDim S50000x5 (![] : Fin 0 → Fin S50000x5.rank)
  reducesTo_S50000x5_S_d0_1 : S50000x5.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S800000x3 : S_.BroadcastsInDim S800000x3 (![] : Fin 0 → Fin S800000x3.rank)
  reducesTo_S800000x3_S_d0_1 : S800000x3.ReducesTo [0, 1] S_
  bcast_S_S5x64 : S_.BroadcastsInDim S5x64 (![] : Fin 0 → Fin S5x64.rank)
  reducesTo_S5x64_S_d0_1 : S5x64.ReducesTo [0, 1] S_
  bcast_S_S64 : S_.BroadcastsInDim S64 (![] : Fin 0 → Fin S64.rank)
  reducesTo_S64_S_d0 : S64.ReducesTo [0] S_
  bcast_S_S16x64 : S_.BroadcastsInDim S16x64 (![] : Fin 0 → Fin S16x64.rank)
  reducesTo_S16x64_S_d0_1 : S16x64.ReducesTo [0, 1] S_
  bcast_S_S64x64 : S_.BroadcastsInDim S64x64 (![] : Fin 0 → Fin S64x64.rank)
  reducesTo_S64x64_S_d0_1 : S64x64.ReducesTo [0, 1] S_
  bcast_S_S192x64 : S_.BroadcastsInDim S192x64 (![] : Fin 0 → Fin S192x64.rank)
  reducesTo_S192x64_S_d0_1 : S192x64.ReducesTo [0, 1] S_
  bcast_S_S128x64 : S_.BroadcastsInDim S128x64 (![] : Fin 0 → Fin S128x64.rank)
  reducesTo_S128x64_S_d0_1 : S128x64.ReducesTo [0, 1] S_

variable [Facts]

def fn_part6 {F : FTy → Type} [FloatOps F] (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  main_v103

def fn_part5 {F : FTy → Type} [FloatOps F] (main_arg19 : FVec F S64 .f32) (main_arg20 : FVec F S64x64 .f32) (main_arg21 : FVec F S64 .f32) (main_v83 : IVec S_ 1) (main_v84 : FVec F S192x64 .f32) (main_cst_32 : FVec F S_ .f32) : IVec S_ 1 :=
  let main_v85 : FVec F S192x64 .f32 := broadcastInDim S192x64 ![] bcast_S_S192x64 main_cst_32
  let main_v86 : IVec S192x64 1 := cmpf .olt main_v84 main_v85
  let main_c_33 : IVec S_ 1 := constantI S_ 1 1#1
  let main_v87 : IVec S_ 1 := (fun x v => Host.reduce IntOp.andi x v reducesTo_S192x64_S_d0_1 h_S_) main_v86 main_c_33
  let main_v88 : IVec S_ 1 := andi main_v83 main_v87
  let main_v89 : FVec F S64 .f32 := Host.absf main_arg19
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64x64 .f32 := Host.absf main_arg20
  let main_cst_36 : FVec F S_ .f32 := constant S_ .f32 0x7F800000#32
  let main_v95 : FVec F S64x64 .f32 := broadcastInDim S64x64 ![] bcast_S_S64x64 main_cst_36
  let main_v96 : IVec S64x64 1 := cmpf .olt main_v94 main_v95
  let main_c_37 : IVec S_ 1 := constantI S_ 1 1#1
  let main_v97 : IVec S_ 1 := (fun x v => Host.reduce IntOp.andi x v reducesTo_S64x64_S_d0_1 h_S_) main_v96 main_c_37
  let main_v98 : IVec S_ 1 := andi main_v93 main_v97
  let main_v99 : FVec F S64 .f32 := Host.absf main_arg21
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_v98 main_v101 main_c_39

def fn_part4 {F : FTy → Type} [FloatOps F] (main_arg15 : FVec F S64 .f32) (main_arg16 : FVec F S64x64 .f32) (main_arg17 : FVec F S64 .f32) (main_arg18 : FVec F S192x64 .f32) (main_arg19 : FVec F S64 .f32) (main_arg20 : FVec F S64x64 .f32) (main_arg21 : FVec F S64 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x64 .f32 := Host.absf main_arg16
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64 .f32 := Host.absf main_arg17
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S192x64 .f32 := Host.absf main_arg18
  let main_cst_32 : FVec F S_ .f32 := constant S_ .f32 0x7F800000#32
  fn_part5 (F := F) main_arg19 main_arg20 main_arg21 main_v83 main_v84 main_cst_32

def fn_part3 {F : FTy → Type} [FloatOps F] (main_arg12 : FVec F S64x64 .f32) (main_arg13 : FVec F S64 .f32) (main_arg14 : FVec F S128x64 .f32) (main_arg15 : FVec F S64 .f32) (main_arg16 : FVec F S64x64 .f32) (main_arg17 : FVec F S64 .f32) (main_arg18 : FVec F S192x64 .f32) (main_arg19 : FVec F S64 .f32) (main_arg20 : FVec F S64x64 .f32) (main_arg21 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg12
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S128x64 .f32 := Host.absf main_arg14
  let main_cst_24 : FVec F S_ .f32 := constant S_ .f32 0x7F800000#32
  let main_v65 : FVec F S128x64 .f32 := broadcastInDim S128x64 ![] bcast_S_S128x64 main_cst_24
  let main_v66 : IVec S128x64 1 := cmpf .olt main_v64 main_v65
  let main_c_25 : IVec S_ 1 := constantI S_ 1 1#1
  let main_v67 : IVec S_ 1 := (fun x v => Host.reduce IntOp.andi x v reducesTo_S128x64_S_d0_1 h_S_) main_v66 main_c_25
  fn_part4 (F := F) main_arg15 main_arg16 main_arg17 main_arg18 main_arg19 main_arg20 main_arg21 main_v63 main_v67

def fn_part2 {F : FTy → Type} [FloatOps F] (main_arg8 : FVec F S64x64 .f32) (main_arg9 : FVec F S64 .f32) (main_arg10 : FVec F S192x64 .f32) (main_arg11 : FVec F S64 .f32) (main_arg12 : FVec F S64x64 .f32) (main_arg13 : FVec F S64 .f32) (main_arg14 : FVec F S128x64 .f32) (main_arg15 : FVec F S64 .f32) (main_arg16 : FVec F S64x64 .f32) (main_arg17 : FVec F S64 .f32) (main_arg18 : FVec F S192x64 .f32) (main_arg19 : FVec F S64 .f32) (main_arg20 : FVec F S64x64 .f32) (main_arg21 : FVec F S64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S192x64 .f32 := Host.absf main_arg10
  let main_cst_16 : FVec F S_ .f32 := constant S_ .f32 0x7F800000#32
  let main_v45 : FVec F S192x64 .f32 := broadcastInDim S192x64 ![] bcast_S_S192x64 main_cst_16
  let main_v46 : IVec S192x64 1 := cmpf .olt main_v44 main_v45
  let main_c_17 : IVec S_ 1 := constantI S_ 1 1#1
  let main_v47 : IVec S_ 1 := (fun x v => Host.reduce IntOp.andi x v reducesTo_S192x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_arg14 main_arg15 main_arg16 main_arg17 main_arg18 main_arg19 main_arg20 main_arg21 main_v48 main_v49 main_v50

def fn_part1 {F : FTy → Type} [FloatOps F] (main_arg5 : FVec F S64 .f32) (main_arg6 : FVec F S16x64 .f32) (main_arg7 : FVec F S64 .f32) (main_arg8 : FVec F S64x64 .f32) (main_arg9 : FVec F S64 .f32) (main_arg10 : FVec F S192x64 .f32) (main_arg11 : FVec F S64 .f32) (main_arg12 : FVec F S64x64 .f32) (main_arg13 : FVec F S64 .f32) (main_arg14 : FVec F S128x64 .f32) (main_arg15 : FVec F S64 .f32) (main_arg16 : FVec F S64x64 .f32) (main_arg17 : FVec F S64 .f32) (main_arg18 : FVec F S192x64 .f32) (main_arg19 : FVec F S64 .f32) (main_arg20 : FVec F S64x64 .f32) (main_arg21 : FVec F S64 .f32) (main_v13 : IVec S_ 1) (main_v16 : IVec S5x64 1) : IVec S_ 1 :=
  let main_c_5 : IVec S_ 1 := constantI S_ 1 1#1
  let main_v17 : IVec S_ 1 := (fun x v => Host.reduce IntOp.andi x v reducesTo_S5x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S16x64 .f32 := Host.absf main_arg6
  let main_cst_8 : FVec F S_ .f32 := constant S_ .f32 0x7F800000#32
  let main_v25 : FVec F S16x64 .f32 := broadcastInDim S16x64 ![] bcast_S_S16x64 main_cst_8
  let main_v26 : IVec S16x64 1 := cmpf .olt main_v24 main_v25
  let main_c_9 : IVec S_ 1 := constantI S_ 1 1#1
  let main_v27 : IVec S_ 1 := (fun x v => Host.reduce IntOp.andi x v reducesTo_S16x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_v33

def fn {F : FTy → Type} [FloatOps F] (main_arg0 : FVec F S50000x5 .f32) (main_arg1 : IVec S2x800000 32) (main_arg2 : FVec F S800000x16 .f32) (main_arg3 : FVec F S800000x3 .f32) (main_arg4 : FVec F S5x64 .f32) (main_arg5 : FVec F S64 .f32) (main_arg6 : FVec F S16x64 .f32) (main_arg7 : FVec F S64 .f32) (main_arg8 : FVec F S64x64 .f32) (main_arg9 : FVec F S64 .f32) (main_arg10 : FVec F S192x64 .f32) (main_arg11 : FVec F S64 .f32) (main_arg12 : FVec F S64x64 .f32) (main_arg13 : FVec F S64 .f32) (main_arg14 : FVec F S128x64 .f32) (main_arg15 : FVec F S64 .f32) (main_arg16 : FVec F S64x64 .f32) (main_arg17 : FVec F S64 .f32) (main_arg18 : FVec F S192x64 .f32) (main_arg19 : FVec F S64 .f32) (main_arg20 : FVec F S64x64 .f32) (main_arg21 : FVec F S64 .f32) : IVec S_ 1 :=
  let main_v0 : FVec F S50000x5 .f32 := Host.absf main_arg0
  let main_cst : FVec F S_ .f32 := constant S_ .f32 0x7F800000#32
  let main_v1 : FVec F S50000x5 .f32 := broadcastInDim S50000x5 ![] bcast_S_S50000x5 main_cst
  let main_v2 : IVec S50000x5 1 := cmpf .olt main_v0 main_v1
  let main_c : IVec S_ 1 := constantI S_ 1 1#1
  let main_v3 : IVec S_ 1 := (fun x v => Host.reduce IntOp.andi x v reducesTo_S50000x5_S_d0_1 h_S_) main_v2 main_c
  let main_v4 : FVec F S800000x16 .f32 := Host.absf main_arg2
  let main_cst_0 : FVec F S_ .f32 := constant S_ .f32 0x7F800000#32
  let main_v5 : FVec F S800000x16 .f32 := broadcastInDim S800000x16 ![] bcast_S_S800000x16 main_cst_0
  let main_v6 : IVec S800000x16 1 := cmpf .olt main_v4 main_v5
  let main_c_1 : IVec S_ 1 := constantI S_ 1 1#1
  let main_v7 : IVec S_ 1 := (fun x v => Host.reduce IntOp.andi x v reducesTo_S800000x16_S_d0_1 h_S_) main_v6 main_c_1
  let main_v8 : IVec S_ 1 := andi main_v3 main_v7
  let main_v9 : FVec F S800000x3 .f32 := Host.absf main_arg3
  let main_cst_2 : FVec F S_ .f32 := constant S_ .f32 0x7F800000#32
  let main_v10 : FVec F S800000x3 .f32 := broadcastInDim S800000x3 ![] bcast_S_S800000x3 main_cst_2
  let main_v11 : IVec S800000x3 1 := cmpf .olt main_v9 main_v10
  let main_c_3 : IVec S_ 1 := constantI S_ 1 1#1
  let main_v12 : IVec S_ 1 := (fun x v => Host.reduce IntOp.andi x v reducesTo_S800000x3_S_d0_1 h_S_) main_v11 main_c_3
  let main_v13 : IVec S_ 1 := andi main_v8 main_v12
  let main_v14 : FVec F S5x64 .f32 := Host.absf main_arg4
  let main_cst_4 : FVec F S_ .f32 := constant S_ .f32 0x7F800000#32
  let main_v15 : FVec F S5x64 .f32 := broadcastInDim S5x64 ![] bcast_S_S5x64 main_cst_4
  let main_v16 : IVec S5x64 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S50000x5 : Shape := ⟨2, ![50000, 5]⟩
abbrev S2x800000 : Shape := ⟨2, ![2, 800000]⟩
abbrev S800000x16 : Shape := ⟨2, ![800000, 16]⟩
abbrev S800000x3 : Shape := ⟨2, ![800000, 3]⟩
abbrev S5x64 : Shape := ⟨2, ![5, 64]⟩
abbrev S64 : Shape := ⟨1, ![64]⟩
abbrev S16x64 : Shape := ⟨2, ![16, 64]⟩
abbrev S64x64 : Shape := ⟨2, ![64, 64]⟩
abbrev S192x64 : Shape := ⟨2, ![192, 64]⟩
abbrev S128x64 : Shape := ⟨2, ![128, 64]⟩
abbrev S1x800000 : Shape := ⟨2, ![1, 800000]⟩
abbrev S800000 : Shape := ⟨1, ![800000]⟩
abbrev S1x64 : Shape := ⟨2, ![1, 64]⟩
abbrev S50000x64 : Shape := ⟨2, ![50000, 64]⟩
abbrev S5000x5 : Shape := ⟨2, ![5000, 5]⟩
abbrev S5000x64 : Shape := ⟨2, ![5000, 64]⟩
abbrev S_ : Shape := ⟨0, ![]⟩
abbrev S800000x1 : Shape := ⟨2, ![800000, 1]⟩
abbrev S800000x64 : Shape := ⟨2, ![800000, 64]⟩
abbrev S800000x192 : Shape := ⟨2, ![800000, 192]⟩
abbrev S2000x16 : Shape := ⟨2, ![2000, 16]⟩
abbrev S2000x64 : Shape := ⟨2, ![2000, 64]⟩
abbrev S2000x3 : Shape := ⟨2, ![2000, 3]⟩
abbrev S2000x192 : Shape := ⟨2, ![2000, 192]⟩
abbrev S2000x1 : Shape := ⟨2, ![2000, 1]⟩
abbrev S800000x3x64 : Shape := ⟨3, ![800000, 3, 64]⟩
abbrev S50000x3x64 : Shape := ⟨3, ![50000, 3, 64]⟩
abbrev S50000x64x3 : Shape := ⟨3, ![50000, 64, 3]⟩
abbrev S5000x128 : Shape := ⟨2, ![5000, 128]⟩

abbrev nBuf : Space → Nat
  | .hbm => 68
  | .vmem => 42
  | .smem => 0
  | _ => 0

abbrev bufTy : (tb : Table) → Fin (tcTables nBuf tb) → BufTy
  | .hbm, ⟨0, _⟩ => ⟨S50000x5, .f32⟩
  | .hbm, ⟨1, _⟩ => ⟨S2x800000, .i32⟩
  | .hbm, ⟨2, _⟩ => ⟨S800000x16, .f32⟩
  | .hbm, ⟨3, _⟩ => ⟨S800000x3, .f32⟩
  | .hbm, ⟨4, _⟩ => ⟨S5x64, .f32⟩
  | .hbm, ⟨5, _⟩ => ⟨S64, .f32⟩
  | .hbm, ⟨6, _⟩ => ⟨S16x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S192x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S128x64, .f32⟩
  | .hbm, ⟨15, _⟩ => ⟨S64, .f32⟩
  | .hbm, ⟨16, _⟩ => ⟨S64x64, .f32⟩
  | .hbm, ⟨17, _⟩ => ⟨S64, .f32⟩
  | .hbm, ⟨18, _⟩ => ⟨S192x64, .f32⟩
  | .hbm, ⟨19, _⟩ => ⟨S64, .f32⟩
  | .hbm, ⟨20, _⟩ => ⟨S64x64, .f32⟩
  | .hbm, ⟨21, _⟩ => ⟨S64, .f32⟩
  | .hbm, ⟨22, _⟩ => ⟨S1x800000, .i32⟩
  | .hbm, ⟨23, _⟩ => ⟨S800000, .i32⟩
  | .hbm, ⟨24, _⟩ => ⟨S1x800000, .i32⟩
  | .hbm, ⟨25, _⟩ => ⟨S800000, .i32⟩
  | .hbm, ⟨26, _⟩ => ⟨S1x64, .f32⟩
  | .hbm, ⟨27, _⟩ => ⟨S50000x64, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x64, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x64, .f32⟩
  | .hbm, ⟨46, _⟩ => ⟨S1x64, .f32⟩
  | .hbm, ⟨47, _⟩ => ⟨S1x64, .f32⟩
  | .hbm, ⟨48, _⟩ => ⟨S1x64, .f32⟩
  | .hbm, ⟨49, _⟩ => ⟨S1x64, .f32⟩
  | .hbm, ⟨50, _⟩ => ⟨S1x64, .f32⟩
  | .hbm, ⟨51, _⟩ => ⟨S1x64, .f32⟩
  | .hbm, ⟨52, _⟩ => ⟨S800000x64, .f32⟩
  | .hbm, ⟨53, _⟩ => ⟨S800000x64, .f32⟩
  | .hbm, ⟨54, _⟩ => ⟨S800000x192, .f32⟩
  | .hbm, ⟨55, _⟩ => ⟨S_, .f32⟩
  | .hbm, ⟨56, _⟩ => ⟨S50000x64, .f32⟩
  | .hbm, ⟨57, _⟩ => ⟨S800000x1, .i32⟩
  | .hbm, ⟨58, _⟩ => ⟨S50000x64, .f32⟩
  | .hbm, ⟨59, _⟩ => ⟨S800000x3x64, .f32⟩
  | .hbm, ⟨60, _⟩ => ⟨S_, .f32⟩
  | .hbm, ⟨61, _⟩ => ⟨S50000x3x64, .f32⟩
  | .hbm, ⟨62, _⟩ => ⟨S800000x1, .i32⟩
  | .hbm, ⟨63, _⟩ => ⟨S50000x3x64, .f32⟩
  | .hbm, ⟨64, _⟩ => ⟨S50000x64x3, .f32⟩
  | .hbm, ⟨65, _⟩ => ⟨S1x64, .f32⟩
  | .hbm, ⟨66, _⟩ => ⟨S1x64, .f32⟩
  | .hbm, ⟨67, _⟩ => ⟨S50000x64, .f32⟩
  | .local _ .vmem, ⟨0, _⟩ => ⟨S5000x5, .f32⟩
  | .local _ .vmem, ⟨1, _⟩ => ⟨S5000x5, .f32⟩
  | .local _ .vmem, ⟨2, _⟩ => ⟨S5x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S2000x16, .f32⟩
  | .local _ .vmem, ⟨7, _⟩ => ⟨S2000x16, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x3, .f32⟩
  | .local _ .vmem, ⟨13, _⟩ => ⟨S2000x3, .f32⟩
  | .local _ .vmem, ⟨14, _⟩ => ⟨S16x64, .f32⟩
  | .local _ .vmem, ⟨15, _⟩ => ⟨S1x64, .f32⟩
  | .local _ .vmem, ⟨16, _⟩ => ⟨S64x64, .f32⟩
  | .local _ .vmem, ⟨17, _⟩ => ⟨S1x64, .f32⟩
  | .local _ .vmem, ⟨18, _⟩ => ⟨S192x64, .f32⟩
  | .local _ .vmem, ⟨19, _⟩ => ⟨S1x64, .f32⟩
  | .local _ .vmem, ⟨20, _⟩ => ⟨S64x64, .f32⟩
  | .local _ .vmem, ⟨21, _⟩ => ⟨S1x64, .f32⟩
  | .local _ .vmem, ⟨22, _⟩ => ⟨S192x64, .f32⟩
  | .local _ .vmem, ⟨23, _⟩ => ⟨S1x64, .f32⟩
  | .local _ .vmem, ⟨24, _⟩ => ⟨S64x64, .f32⟩
  | .local _ .vmem, ⟨25, _⟩ => ⟨S1x64, .f32⟩
  | .local _ .vmem, ⟨26, _⟩ => ⟨S2000x64, .f32⟩
  | .local _ .vmem, ⟨27, _⟩ => ⟨S2000x64, .f32⟩
  | .local _ .vmem, ⟨28, _⟩ => ⟨S2000x64, .f32⟩
  | .local _ .vmem, ⟨29, _⟩ => ⟨S2000x64, .f32⟩
  | .local _ .vmem, ⟨30, _⟩ => ⟨S2000x192, .f32⟩
  | .local _ .vmem, ⟨31, _⟩ => ⟨S2000x192, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S128x64, .f32⟩
  | .local _ .vmem, ⟨37, _⟩ => ⟨S1x64, .f32⟩
  | .local _ .vmem, ⟨38, _⟩ => ⟨S64x64, .f32⟩
  | .local _ .vmem, ⟨39, _⟩ => ⟨S1x64, .f32⟩
  | .local _ .vmem, ⟨40, _⟩ => ⟨S5000x64, .f32⟩
  | .local _ .vmem, ⟨41, _⟩ => ⟨S5000x64, .f32⟩
  | _, _ => ⟨S50000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c : Ref sig .tc := ⟨.hbm, 28, rfl⟩
abbrev main_v6 : Ref sig .tc := ⟨.hbm, 29, rfl⟩
abbrev main_v7 : Ref sig .tc := ⟨.hbm, 30, rfl⟩
abbrev main_c_0 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_c_1 : Ref sig .tc := ⟨.hbm, 37, rfl⟩
abbrev main_v13 : Ref sig .tc := ⟨.hbm, 38, rfl⟩
abbrev main_v14 : Ref sig .tc := ⟨.hbm, 39, rfl⟩
abbrev main_c_2 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26_0 : Ref sig .tc := ⟨.hbm, 52, rfl⟩
abbrev main_v26_1 : Ref sig .tc := ⟨.hbm, 53, rfl⟩
abbrev main_v26_2 : Ref sig .tc := ⟨.hbm, 54, rfl⟩
abbrev main_cst : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_3 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg11_0 : Ref sig .tc := ⟨.vmem, 21, rfl⟩
abbrev cc1_stg12_0 : Ref sig .tc := ⟨.vmem, 22, rfl⟩
abbrev cc1_stg13_0 : Ref sig .tc := ⟨.vmem, 23, rfl⟩
abbrev cc1_stg14_0 : Ref sig .tc := ⟨.vmem, 24, rfl⟩
abbrev cc1_stg15_0 : Ref sig .tc := ⟨.vmem, 25, rfl⟩
abbrev cc1_stg16_0 : Ref sig .tc := ⟨.vmem, 26, rfl⟩
abbrev cc1_stg16_1 : Ref sig .tc := ⟨.vmem, 27, rfl⟩
abbrev cc1_stg17_0 : Ref sig .tc := ⟨.vmem, 28, rfl⟩
abbrev cc1_stg17_1 : Ref sig .tc := ⟨.vmem, 29, rfl⟩
abbrev cc1_stg18_0 : Ref sig .tc := ⟨.vmem, 30, rfl⟩
abbrev cc1_stg18_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg3_0 : Ref sig .tc := ⟨.vmem, 37, rfl⟩
abbrev cc2_stg4_0 : Ref sig .tc := ⟨.vmem, 38, rfl⟩
abbrev cc2_stg5_0 : Ref sig .tc := ⟨.vmem, 39, rfl⟩
abbrev cc2_stg6_0 : Ref sig .tc := ⟨.vmem, 40, rfl⟩
abbrev cc2_stg6_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem11_0 : DmaSem sig := 21
abbrev cc1_sem12_0 : DmaSem sig := 22
abbrev cc1_sem13_0 : DmaSem sig := 23
abbrev cc1_sem14_0 : DmaSem sig := 24
abbrev cc1_sem15_0 : DmaSem sig := 25
abbrev cc1_sem16_0 : DmaSem sig := 26
abbrev cc1_sem16_1 : DmaSem sig := 27
abbrev cc1_sem17_0 : DmaSem sig := 28
abbrev cc1_sem17_1 : DmaSem sig := 29
abbrev cc1_sem18_0 : DmaSem sig := 30
abbrev cc1_sem18_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem3_0 : DmaSem sig := 37
abbrev cc2_sem4_0 : DmaSem sig := 38
abbrev cc2_sem5_0 : DmaSem sig := 39
abbrev cc2_sem6_0 : DmaSem sig := 40
abbrev cc2_sem6_1 : DmaSem sig := 41

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![400], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_17 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_18 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x3 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S16x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S192x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S64x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x64 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S192x64 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x64 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S64x64 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x64 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 2 → Memref sig .tc .vmem S2000x64 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

abbrev stage1_17 : Fin 2 → Memref sig .tc .vmem S2000x64 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]

abbrev stage1_18 : Fin 2 → Memref sig .tc .vmem S2000x192 .f32 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S64_S1x64 : S64.ShapeCasts S1x64
  inb_S5000x5_S5000x5_0_0 : ∀ a, (![0, 0] : Fin 2 → Nat) a + S5000x5.size a ≤ S5000x5.size a
  h_S5000x5 : 0 < S5000x5.numel
  bitsLt_bf16_f32 : FTy.bits .bf16 < FTy.bits .f32
  inb_S5x64_S5x64_0_0 : ∀ a, (![0, 0] : Fin 2 → Nat) a + S5x64.size a ≤ S5x64.size a
  h_S5x64 : 0 < S5x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S800000 : S_.BroadcastsInDim S800000 (![] : Fin 0 → Fin S800000.rank)
  bcast_S800000_S800000x1_0 : S800000.BroadcastsInDim S800000x1 (![0] : Fin 1 → Fin S800000x1.rank)
  inb_S2000x16_S2000x16_0_0 : ∀ a, (![0, 0] : Fin 2 → Nat) a + S2000x16.size a ≤ S2000x16.size a
  h_S2000x16 : 0 < S2000x16.numel
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x3_S2000x3_0_0 : ∀ a, (![0, 0] : Fin 2 → Nat) a + S2000x3.size a ≤ S2000x3.size a
  h_S2000x3 : 0 < S2000x3.numel
  inb_S16x64_S16x64_0_0 : ∀ a, (![0, 0] : Fin 2 → Nat) a + S16x64.size a ≤ S16x64.size a
  h_S16x64 : 0 < S16x64.numel
  broadcasts_S1x64_S2000x64 : S1x64.Broadcasts S2000x64
  inb_S64x64_S64x64_0_0 : ∀ a, (![0, 0] : Fin 2 → Nat) a + S64x64.size a ≤ S64x64.size a
  h_S64x64 : 0 < S64x64.numel
  concatenates_S2000x64_S2000x64_S2000x64_S2000x192_d1 : Shape.Concatenates [S2000x64, S2000x64, S2000x64] S2000x192 1
  inb_S192x64_S192x64_0_0 : ∀ a, (![0, 0] : Fin 2 → Nat) a + S192x64.size a ≤ S192x64.size a
  h_S192x64 : 0 < S192x64.numel
  slices_S2000x3_o0_0_S2000x1 : S2000x3.Slices ![0, 0] S2000x1
  broadcasts_S2000x1_S2000x64 : S2000x1.Broadcasts S2000x64
  slices_S2000x3_o0_1_S2000x1 : S2000x3.Slices ![0, 1] S2000x1
  slices_S2000x3_o0_2_S2000x1 : S2000x3.Slices ![0, 2] S2000x1
  inb_S2000x192_S2000x192_0_0 : ∀ a, (![0, 0] : Fin 2 → Nat) a + S2000x192.size a ≤ S2000x192.size a
  h_S2000x192 : 0 < S2000x192.numel
  bcast_S_S50000x64 : S_.BroadcastsInDim S50000x64 (![] : Fin 0 → Fin S50000x64.rank)
  shapeCasts_S800000x192_S800000x3x64 : S800000x192.ShapeCasts S800000x3x64
  bcast_S_S50000x3x64 : S_.BroadcastsInDim S50000x3x64 (![] : Fin 0 → Fin S50000x3x64.rank)
  transposes_S50000x3x64_S50000x64x3_0_2_1 : S50000x3x64.Transposes [0, 2, 1] S50000x64x3
  shapeCasts_S5000x64_S5000x64 : S5000x64.ShapeCasts S5000x64
  concatenates_S5000x64_S5000x64_S5000x128_d1 : Shape.Concatenates [S5000x64, S5000x64] S5000x128 1
  inb_S128x64_S128x64_0_0 : ∀ a, (![0, 0] : Fin 2 → Nat) a + S128x64.size a ≤ S128x64.size a
  h_S128x64 : 0 < S128x64.numel
  dot_S5000x5_S5x64_S5000x64_1_0_0_1_n_n_wf : DotDims.WF S5000x5 S5x64 S5000x64 [1] [0] [0] [1] [] []
  gather_S50000x64_S800000x1_S800000x64_1_0_n_n_0_1_164_wf : GatherDims.WF S50000x64 S800000x1 S800000x64 [1] [0] [] [0] [] 1 ![1, 64]
  dot_S2000x16_S16x64_S2000x64_1_0_0_1_n_n_wf : DotDims.WF S2000x16 S16x64 S2000x64 [1] [0] [0] [1] [] []
  dot_S2000x64_S64x64_S2000x64_1_0_0_1_n_n_wf : DotDims.WF S2000x64 S64x64 S2000x64 [1] [0] [0] [1] [] []
  dot_S2000x192_S192x64_S2000x64_1_0_0_1_n_n_wf : DotDims.WF S2000x192 S192x64 S2000x64 [1] [0] [0] [1] [] []
  scatter_S50000x64_S800000x1_S800000x64_1_0_0_1_wf : ScatterDims.WF S50000x64 S800000x1 S800000x64 [1] [0] [0] 1
  scatter_S50000x3x64_S800000x1_S800000x3x64_12_0_0_1_wf : ScatterDims.WF S50000x3x64 S800000x1 S800000x3x64 [1, 2] [0] [0] 1
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x5.size a ≤ S50000x5.size a
  hwx0_0 : ∀ i : grid0.Coords, EltTy.bits .f32 = 32 ∨ (Rect.block (s := S50000x5) S5000x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x64.size a ≤ S5x64.size a
  hwx0_1 : ∀ i : grid0.Coords, EltTy.bits .f32 = 32 ∨ (Rect.block (s := S5x64) S5x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S800000x16.size a
  hwx1_0 : ∀ i : grid1.Coords, EltTy.bits .f32 = 32 ∨ (Rect.block (s := S800000x16) S2000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S800000x64.size a
  hwx1_1 : ∀ i : grid1.Coords, EltTy.bits .f32 = 32 ∨ (Rect.block (s := S800000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S800000x64.size a
  hwx1_2 : ∀ i : grid1.Coords, EltTy.bits .f32 = 32 ∨ (Rect.block (s := S800000x64) S2000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x3.size a ≤ S800000x3.size a
  hwx1_3 : ∀ i : grid1.Coords, EltTy.bits .f32 = 32 ∨ (Rect.block (s := S800000x3) S2000x3.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x64.size a ≤ S16x64.size a
  hwx1_4 : ∀ i : grid1.Coords, EltTy.bits .f32 = 32 ∨ (Rect.block (s := S16x64) S16x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x64.size a ≤ S64x64.size a
  hwx1_6 : ∀ i : grid1.Coords, EltTy.bits .f32 = 32 ∨ (Rect.block (s := S64x64) S64x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S192x64.size a ≤ S192x64.size a
  hwx1_8 : ∀ i : grid1.Coords, EltTy.bits .f32 = 32 ∨ (Rect.block (s := S192x64) S192x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S64x64.size a ≤ S64x64.size a
  hwx1_10 : ∀ i : grid1.Coords, EltTy.bits .f32 = 32 ∨ (Rect.block (s := S64x64) S64x64.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x64.size a ≤ S1x64.size a
  hwx1_11 : ∀ i : grid1.Coords, EltTy.bits .f32 = 32 ∨ (Rect.block (s := S1x64) S1x64.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S192x64.size a ≤ S192x64.size a
  hwx1_12 : ∀ i : grid1.Coords, EltTy.bits .f32 = 32 ∨ (Rect.block (s := S192x64) S192x64.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x64.size a ≤ S1x64.size a
  hwx1_13 : ∀ i : grid1.Coords, EltTy.bits .f32 = 32 ∨ (Rect.block (s := S1x64) S1x64.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S64x64.size a ≤ S64x64.size a
  hwx1_14 : ∀ i : grid1.Coords, EltTy.bits .f32 = 32 ∨ (Rect.block (s := S64x64) S64x64.size (cc1_transform_14 i) (hinb1_14 i)).WholeWords (EltTy.packing .f32)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S1x64.size a ≤ S1x64.size a
  hwx1_15 : ∀ i : grid1.Coords, EltTy.bits .f32 = 32 ∨ (Rect.block (s := S1x64) S1x64.size (cc1_transform_15 i) (hinb1_15 i)).WholeWords (EltTy.packing .f32)
  hstage1_16 : ∀ j, (stage1_16 j).IsWhole
  nbuf1_16 : grid1.bufCount reads1_16 false = 2
  hreads1_16 : ∀ i i' : grid1.Coords, (∀ a, reads1_16 a = true → i a = i' a) → cc1_transform_16 i = cc1_transform_16 i'
  hinb1_16 : ∀ (i : grid1.Coords) a, (cc1_transform_16 i a + 1) * S2000x64.size a ≤ S800000x64.size a
  hwx1_16 : ∀ i : grid1.Coords, EltTy.bits .f32 = 32 ∨ (Rect.block (s := S800000x64) S2000x64.size (cc1_transform_16 i) (hinb1_16 i)).WholeWords (EltTy.packing .f32)
  hstage1_17 : ∀ j, (stage1_17 j).IsWhole
  nbuf1_17 : grid1.bufCount reads1_17 false = 2
  hreads1_17 : ∀ i i' : grid1.Coords, (∀ a, reads1_17 a = true → i a = i' a) → cc1_transform_17 i = cc1_transform_17 i'
  hinb1_17 : ∀ (i : grid1.Coords) a, (cc1_transform_17 i a + 1) * S2000x64.size a ≤ S800000x64.size a
  hwx1_17 : ∀ i : grid1.Coords, EltTy.bits .f32 = 32 ∨ (Rect.block (s := S800000x64) S2000x64.size (cc1_transform_17 i) (hinb1_17 i)).WholeWords (EltTy.packing .f32)
  hstage1_18 : ∀ j, (stage1_18 j).IsWhole
  nbuf1_18 : grid1.bufCount reads1_18 false = 2
  hreads1_18 : ∀ i i' : grid1.Coords, (∀ a, reads1_18 a = true → i a = i' a) → cc1_transform_18 i = cc1_transform_18 i'
  hinb1_18 : ∀ (i : grid1.Coords) a, (cc1_transform_18 i a + 1) * S2000x192.size a ≤ S800000x192.size a
  hwx1_18 : ∀ i : grid1.Coords, EltTy.bits .f32 = 32 ∨ (Rect.block (s := S800000x192) S2000x192.size (cc1_transform_18 i) (hinb1_18 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S50000x64.size a
  hwx2_6 : ∀ i : grid2.Coords, EltTy.bits .f32 = 32 ∨ (Rect.block (s := S50000x64) S5000x64.size (cc2_transform_6 i) (hinb2_6 i)).WholeWords (EltTy.packing .f32)

variable [Facts₀]

def dot_S5000x5_S5x64_S5000x64_1_0_0_1_n_n : DotDims S5000x5 S5x64 S5000x64 where
  lhsContracting := [1]
  rhsContracting := [0]
  lhsNonContracting := [0]
  rhsNonContracting := [1]
  lhsBatch := []
  rhsBatch := []
  wf := dot_S5000x5_S5x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S2000x16_S16x64_S2000x64_1_0_0_1_n_n : DotDims S2000x16 S16x64 S2000x64 where
  lhsContracting := [1]
  rhsContracting := [0]
  lhsNonContracting := [0]
  rhsNonContracting := [1]
  lhsBatch := []
  rhsBatch := []
  wf := dot_S2000x16_S16x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x192_S192x64_S2000x64_1_0_0_1_n_n : DotDims S2000x192 S192x64 S2000x64 where
  lhsContracting := [1]
  rhsContracting := [0]
  lhsNonContracting := [0]
  rhsNonContracting := [1]
  lhsBatch := []
  rhsBatch := []
  wf := dot_S2000x192_S192x64_S2000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000x3x64_S800000x1_S800000x3x64_12_0_0_1 : ScatterDims S50000x3x64 S800000x1 S800000x3x64 where
  updateWindowDims := [1, 2]
  insertedWindowDims := [0]
  scatterDimsToOperandDims := [0]
  indexVectorDim := 1
  wf := scatter_S50000x3x64_S800000x1_S800000x3x64_12_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S5x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S2000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S2000x3.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S16x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v20) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S64x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v21) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg10) S192x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v22) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg12) S64x64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v23) S1x64.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_arg18) S192x64.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v24) S1x64.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_arg20) S64x64.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v25) S1x64.size cc1_transform_15 reads1_15 false true 1 stage1_15 sem1_15
    hrank1 hreads1_15 hinb1_15 nbuf1_15 (Memref.isWhole_whole _) hwx1_15 hstage1_15

abbrev win1_16 : Pipeline.Window sig grid1 :=
  Pipeline.Window.ofSpec (Memref.whole main_v26_0) S2000x64.size cc1_transform_16 reads1_16 true false 2 stage1_16 sem1_16
    hrank1 hreads1_16 hinb1_16 nbuf1_16 (Memref.isWhole_whole _) hwx1_16 hstage1_16

abbrev win1_17 : Pipeline.Window sig grid1 :=
  Pipeline.Window.ofSpec (Memref.whole main_v26_1) S2000x64.size cc1_transform_17 reads1_17 true false 2 stage1_17 sem1_17
    hrank1 hreads1_17 hinb1_17 nbuf1_17 (Memref.isWhole_whole _) hwx1_17 hstage1_17

abbrev win1_18 : Pipeline.Window sig grid1 :=
  Pipeline.Window.ofSpec (Memref.whole main_v26_2) S2000x192.size cc1_transform_18 reads1_18 true false 2 stage1_18 sem1_18
    hrank1 hreads1_18 hinb1_18 nbuf1_18 (Memref.isWhole_whole _) hwx1_18 hstage1_18

abbrev win1 : Fin 19 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | 17 => win1_17 | 18 => win1_18 | ⟨_ + 19, h⟩ => absurd h (Nat.not_lt.2 (Nat.le_add_left _ _))
abbrev spec1 : Fin 19 → Pipeline.WinSpec sig grid1.rank := fun w => (win1 w).toWinSpec

abbrev win2_0 : Pipeline.Window sig grid2 :=
  Pipeline.Window.ofSpec (Memref.whole main_v5) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg14) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v35) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg16) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v36) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v37) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x5 : Shape := ⟨2, ![50000, 5]⟩
abbrev S2x800000 : Shape := ⟨2, ![2, 800000]⟩
abbrev S800000x16 : Shape := ⟨2, ![800000, 16]⟩
abbrev S800000x3 : Shape := ⟨2, ![800000, 3]⟩
abbrev S5x64 : Shape := ⟨2, ![5, 64]⟩
abbrev S64 : Shape := ⟨1, ![64]⟩
abbrev S16x64 : Shape := ⟨2, ![16, 64]⟩
abbrev S64x64 : Shape := ⟨2, ![64, 64]⟩
abbrev S192x64 : Shape := ⟨2, ![192, 64]⟩
abbrev S128x64 : Shape := ⟨2, ![128, 64]⟩
abbrev S1x800000 : Shape := ⟨2, ![1, 800000]⟩
abbrev S800000 : Shape := ⟨1, ![800000]⟩
abbrev S50000x64 : Shape := ⟨2, ![50000, 64]⟩
abbrev S1x64 : Shape := ⟨2, ![1, 64]⟩
abbrev S800000x64 : Shape := ⟨2, ![800000, 64]⟩
abbrev S_ : Shape := ⟨0, ![]⟩
abbrev S800000x1 : Shape := ⟨2, ![800000, 1]⟩
abbrev S800000x192 : Shape := ⟨2, ![800000, 192]⟩
abbrev S50000x128 : Shape := ⟨2, ![50000, 128]⟩
abbrev S800000x1x3 : Shape := ⟨3, ![800000, 1, 3]⟩
abbrev S800000x64x1 : Shape := ⟨3, ![800000, 64, 1]⟩
abbrev S800000x64x3 : Shape := ⟨3, ![800000, 64, 3]⟩
abbrev S50000x64x3 : Shape := ⟨3, ![50000, 64, 3]⟩

abbrev nBuf : Space → Nat
  | .hbm => 132
  | .vmem => 0
  | .smem => 0
  | _ => 0

abbrev hbmTy0_0 (i : Nat) : BufTy := match i % 128 with
  | 0 => ⟨S50000x5, .f32⟩
  | 1 => ⟨S2x800000, .i32⟩
  | 2 => ⟨S800000x16, .f32⟩
  | 3 => ⟨S800000x3, .f32⟩
  | 4 => ⟨S5x64, .f32⟩
  | 5 => ⟨S64, .f32⟩
  | 6 => ⟨S16x64, .f32⟩
  | 7 => ⟨S64, .f32⟩
  | 8 => ⟨S64x64, .f32⟩
  | 9 => ⟨S64, .f32⟩
  | 10 => ⟨S192x64, .f32⟩
  | 11 => ⟨S64, .f32⟩
  | 12 => ⟨S64x64, .f32⟩
  | 13 => ⟨S64, .f32⟩
  | 14 => ⟨S128x64, .f32⟩
  | 15 => ⟨S64, .f32⟩
  | 16 => ⟨S64x64, .f32⟩
  | 17 => ⟨S64, .f32⟩
  | 18 => ⟨S192x64, .f32⟩
  | 19 => ⟨S64, .f32⟩
  | 20 => ⟨S64x64, .f32⟩
  | 21 => ⟨S64, .f32⟩
  | 22 => ⟨S1x800000, .i32⟩
  | 23 => ⟨S800000, .i32⟩
  | 24 => ⟨S1x800000, .i32⟩
  | 25 => ⟨S800000, .i32⟩
  | 26 => ⟨S50000x64, .f32⟩
  | 27 => ⟨S1x64, .f32⟩
  | 28 => ⟨S50000x64, .f32⟩
  | 29 => ⟨S50000x64, .f32⟩
  | 30 => ⟨S800000x64, .f32⟩
  | 31 => ⟨S1x64, .f32⟩
  | 32 => ⟨S800000x64, .f32⟩
  | 33 => ⟨S800000x64, .f32⟩
  | 34 => ⟨S800000x64, .f32⟩
  | 35 => ⟨S800000x64, .f32⟩
  | 36 => ⟨S_, .f32⟩
  | 37 => ⟨S800000x64, .f32⟩
  | 38 => ⟨S800000x64, .f32⟩
  | 39 => ⟨S_, .f32⟩
  | 40 => ⟨S800000x64, .f32⟩
  | 41 => ⟨S800000x64, .f32⟩
  | 42 => ⟨S800000x64, .f32⟩
  | 43 => ⟨S800000x64, .f32⟩
  | 44 => ⟨S1x64, .f32⟩
  | 45 => ⟨S800000x64, .f32⟩
  | 46 => ⟨S800000x64, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x64, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x64, .f32⟩
  | 65 => ⟨S800000x192, .f32⟩
  | 66 => ⟨S800000x64, .f32⟩
  | 67 => ⟨S1x64, .f32⟩
  | 68 => ⟨S800000x64, .f32⟩
  | 69 => ⟨S800000x64, .f32⟩
  | 70 => ⟨S800000x64, .f32⟩
  | 71 => ⟨S800000x64, .f32⟩
  | 72 => ⟨S_, .f32⟩
  | 73 => ⟨S800000x64, .f32⟩
  | 74 => ⟨S800000x64, .f32⟩
  | 75 => ⟨S_, .f32⟩
  | 76 => ⟨S800000x64, .f32⟩
  | 77 => ⟨S800000x64, .f32⟩
  | 78 => ⟨S800000x64, .f32⟩
  | 79 => ⟨S800000x64, .f32⟩
  | 80 => ⟨S1x64, .f32⟩
  | 81 => ⟨S800000x64, .f32⟩
  | 82 => ⟨S800000x64, .f32⟩
  | 83 => ⟨S800000x64, .f32⟩
  | 84 => ⟨S_, .f32⟩
  | 85 => ⟨S50000x64, .f32⟩
  | 86 => ⟨S800000x1, .i32⟩
  | 87 => ⟨S50000x64, .f32⟩
  | 88 => ⟨S50000x128, .f32⟩
  | 89 => ⟨S50000x64, .f32⟩
  | 90 => ⟨S1x64, .f32⟩
  | 91 => ⟨S50000x64, .f32⟩
  | 92 => ⟨S50000x64, .f32⟩
  | 93 => ⟨S50000x64, .f32⟩
  | 94 => ⟨S50000x64, .f32⟩
  | 95 => ⟨S_, .f32⟩
  | 96 => ⟨S50000x64, .f32⟩
  | 97 => ⟨S50000x64, .f32⟩
  | 98 => ⟨S_, .f32⟩
  | 99 => ⟨S50000x64, .f32⟩
  | 100 => ⟨S50000x64, .f32⟩
  | 101 => ⟨S50000x64, .f32⟩
  | 102 => ⟨S50000x64, .f32⟩
  | 103 => ⟨S1x64, .f32⟩
  | 104 => ⟨S50000x64, .f32⟩
  | 105 => ⟨S50000x64, .f32⟩
  | 106 => ⟨S800000x1x3, .f32⟩
  | 107 => ⟨S800000x64, .f32⟩
  | 108 => ⟨S1x64, .f32⟩
  | 109 => ⟨S800000x64, .f32⟩
  | 110 => ⟨S800000x64, .f32⟩
  | 111 => ⟨S800000x64, .f32⟩
  | 112 => ⟨S800000x64, .f32⟩
  | 113 => ⟨S_, .f32⟩
  | 114 => ⟨S800000x64, .f32⟩
  | 115 => ⟨S800000x64, .f32⟩
  | 116 => ⟨S_, .f32⟩
  | 117 => ⟨S800000x64, .f32⟩
  | 118 => ⟨S800000x64, .f32⟩
  | 119 => ⟨S800000x64, .f32⟩
  | 120 => ⟨S800000x64, .f32⟩
  | 121 => ⟨S1x64, .f32⟩
  | 122 => ⟨S800000x64, .f32⟩
  | 123 => ⟨S800000x64, .f32⟩
  | 124 => ⟨S800000x64x1, .f32⟩
  | 125 => ⟨S800000x64x3, .f32⟩
  | 126 => ⟨S800000x64x3, .f32⟩
  | 127 => ⟨S800000x64x3, .f32⟩
  | _ => ⟨S50000x5, .f32⟩

abbrev hbmTy0_1 (i : Nat) : BufTy := match i % 128 with
  | 0 => ⟨S_, .f32⟩
  | 1 => ⟨S50000x64x3, .f32⟩
  | 2 => ⟨S800000x1, .i32⟩
  | 3 => ⟨S50000x64x3, .f32⟩
  | _ => ⟨S50000x5, .f32⟩

abbrev hbmTy (i : Nat) : BufTy := match i / 128 with
  | 0 => hbmTy0_0 i
  | 1 => hbmTy0_1 i
  | _ => ⟨S50000x5, .f32⟩

abbrev bufTy : (tb : Table) → Fin (tcTables nBuf tb) → BufTy
  | .hbm, ⟨i, _⟩ => hbmTy i
  | _, _ => ⟨S50000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_c : Ref sig .tc := ⟨.hbm, 47, rfl⟩
abbrev main_v17 : Ref sig .tc := ⟨.hbm, 48, rfl⟩
abbrev main_v18 : Ref sig .tc := ⟨.hbm, 49, rfl⟩
abbrev main_c_0 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_c_1 : Ref sig .tc := ⟨.hbm, 56, rfl⟩
abbrev main_v24 : Ref sig .tc := ⟨.hbm, 57, rfl⟩
abbrev main_v25 : Ref sig .tc := ⟨.hbm, 58, rfl⟩
abbrev main_c_2 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_call1_v0 : Ref sig .tc := ⟨.hbm, 70, rfl⟩
abbrev main_call1_v1 : Ref sig .tc := ⟨.hbm, 71, rfl⟩
abbrev main_call1_cst : Ref sig .tc := ⟨.hbm, 72, rfl⟩
abbrev main_call1_v2 : Ref sig .tc := ⟨.hbm, 73, rfl⟩
abbrev main_call1_v3 : Ref sig .tc := ⟨.hbm, 74, rfl⟩
abbrev main_call1_cst_0 : Ref sig .tc := ⟨.hbm, 75, rfl⟩
abbrev main_call1_v4 : Ref sig .tc := ⟨.hbm, 76, rfl⟩
abbrev main_call1_v5 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_cst : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_call2_v0 : Ref sig .tc := ⟨.hbm, 93, rfl⟩
abbrev main_call2_v1 : Ref sig .tc := ⟨.hbm, 94, rfl⟩
abbrev main_call2_cst : Ref sig .tc := ⟨.hbm, 95, rfl⟩
abbrev main_call2_v2 : Ref sig .tc := ⟨.hbm, 96, rfl⟩
abbrev main_call2_v3 : Ref sig .tc := ⟨.hbm, 97, rfl⟩
abbrev main_call2_cst_0 : Ref sig .tc := ⟨.hbm, 98, rfl⟩
abbrev main_call2_v4 : Ref sig .tc := ⟨.hbm, 99, rfl⟩
abbrev main_call2_v5 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_call3_v0 : Ref sig .tc := ⟨.hbm, 111, rfl⟩
abbrev main_call3_v1 : Ref sig .tc := ⟨.hbm, 112, rfl⟩
abbrev main_call3_cst : Ref sig .tc := ⟨.hbm, 113, rfl⟩
abbrev main_call3_v2 : Ref sig .tc := ⟨.hbm, 114, rfl⟩
abbrev main_call3_v3 : Ref sig .tc := ⟨.hbm, 115, rfl⟩
abbrev main_call3_cst_0 : Ref sig .tc := ⟨.hbm, 116, rfl⟩
abbrev main_call3_v4 : Ref sig .tc := ⟨.hbm, 117, rfl⟩
abbrev main_call3_v5 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_cst_3 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x64_S800000x192_d1 : Shape.Concatenates [S800000x64, S800000x64, S800000x64] S800000x192 1
  bcast_S_S50000x64 : S_.BroadcastsInDim S50000x64 (![] : Fin 0 → Fin S50000x64.rank)
  concatenates_S50000x64_S50000x64_S50000x128_d1 : Shape.Concatenates [S50000x64, S50000x64] S50000x128 1
  bcast_S800000x3_S800000x1x3_0_2 : S800000x3.BroadcastsInDim S800000x1x3 (![0, 2] : Fin 2 → Fin S800000x1x3.rank)
  bcast_S800000x64_S800000x64x1_0_1 : S800000x64.BroadcastsInDim S800000x64x1 (![0, 1] : Fin 2 → Fin S800000x64x1.rank)
  bcast_S800000x1x3_S800000x64x3_0_1_2 : S800000x1x3.BroadcastsInDim S800000x64x3 (![0, 1, 2] : Fin 3 → Fin S800000x64x3.rank)
  bcast_S800000x64x1_S800000x64x3_0_1_2 : S800000x64x1.BroadcastsInDim S800000x64x3 (![0, 1, 2] : Fin 3 → Fin S800000x64x3.rank)
  bcast_S_S50000x64x3 : S_.BroadcastsInDim S50000x64x3 (![] : Fin 0 → Fin S50000x64x3.rank)
  dot_S50000x5_S5x64_S50000x64_1_0_0_1_n_n_wf : DotDims.WF S50000x5 S5x64 S50000x64 [1] [0] [0] [1] [] []
  dot_S800000x16_S16x64_S800000x64_1_0_0_1_n_n_wf : DotDims.WF S800000x16 S16x64 S800000x64 [1] [0] [0] [1] [] []
  dot_S800000x64_S64x64_S800000x64_1_0_0_1_n_n_wf : DotDims.WF S800000x64 S64x64 S800000x64 [1] [0] [0] [1] [] []
  gather_S50000x64_S800000x1_S800000x64_1_0_n_n_0_1_164_wf : GatherDims.WF S50000x64 S800000x1 S800000x64 [1] [0] [] [0] [] 1 ![1, 64]
  dot_S800000x192_S192x64_S800000x64_1_0_0_1_n_n_wf : DotDims.WF S800000x192 S192x64 S800000x64 [1] [0] [0] [1] [] []
  scatter_S50000x64_S800000x1_S800000x64_1_0_0_1_wf : ScatterDims.WF S50000x64 S800000x1 S800000x64 [1] [0] [0] 1
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []
  scatter_S50000x64x3_S800000x1_S800000x64x3_12_0_0_1_wf : ScatterDims.WF S50000x64x3 S800000x1 S800000x64x3 [1, 2] [0] [0] 1

variable [Facts₀]

def dot_S50000x5_S5x64_S50000x64_1_0_0_1_n_n : DotDims S50000x5 S5x64 S50000x64 where
  lhsContracting := [1]
  rhsContracting := [0]
  lhsNonContracting := [0]
  rhsNonContracting := [1]
  lhsBatch := []
  rhsBatch := []
  wf := dot_S50000x5_S5x64_S50000x64_1_0_0_1_n_n_wf
def dot_S800000x16_S16x64_S800000x64_1_0_0_1_n_n : DotDims S800000x16 S16x64 S800000x64 where
  lhsContracting := [1]
  rhsContracting := [0]
  lhsNonContracting := [0]
  rhsNonContracting := [1]
  lhsBatch := []
  rhsBatch := []
  wf := dot_S800000x16_S16x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x192_S192x64_S800000x64_1_0_0_1_n_n : DotDims S800000x192 S192x64 S800000x64 where
  lhsContracting := [1]
  rhsContracting := [0]
  lhsNonContracting := [0]
  rhsNonContracting := [1]
  lhsBatch := []
  rhsBatch := []
  wf := dot_S800000x192_S192x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S50000x64x3_S800000x1_S800000x64x3_12_0_0_1 : ScatterDims S50000x64x3 S800000x1 S800000x64x3 where
  updateWindowDims := [1, 2]
  insertedWindowDims := [0]
  scatterDimsToOperandDims := [0]
  indexVectorDim := 1
  wf := scatter_S50000x64x3_S800000x1_S800000x64x3_12_0_0_1_wf

class Facts : Prop extends Facts₀ where

variable [Facts]
-- ==== Proof.NodeRegions.lean ====
/- The plumbing of the two node-side regions (the embedding of the node features and the update that closes the layer).
   Both regions walk the 50000 rows in 10 tiles of 5000 rows. An operand is seen either through a ROW window, whose block at
   tile t is rows 5000 t … 5000 t + 4999 at full width, or through a WHOLE window, whose block is the array at every tile.
   Hence: entry (p, k) of a row window's block at tile t is entry (5000 t + p, k) of its array; a whole window's block is its
   array; the output's row blocks tile the output array; and the output array after the region is any whole-array function G
   with which the body's result agrees tile by tile, that is, whose entry (5000 t + p, q) is the body's result at (p, q) on the
   blocks of tile t. All of it for arbitrary buffer contents V at the region's entry and for any float instance. -/
import proofs.«123328_j6777458393829_1_alg».proof.Proof.Gen.KernelIdeal.Frame
import Idealize.ShloMosaic.Lib.Pipeline.Value
import Idealize.ShloMosaic.Lib.ValueIdx

set_option maxRecDepth 16384

noncomputable section

namespace Cert.KernelIdeal.NodeRegions

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

/-- The offsets (0, 0), as the constant-zero function. -/
theorem offs_zero : (![0, 0] : Fin 2 → Nat) = fun _ => 0 := funext fun a => by fin_cases a <;> rfl

/-- Ten tiles of 5000 rows stay inside the 50000 rows. -/
theorem tile_row_lt {n : Nat} (hn : n = 10) (t : Fin n) (p : Fin 5000) : 5000 * t.val + p.val < 50000 := by
  have := t.isLt; have := p.isLt; omega

/-- A function of an index takes equal values at equal indices. -/
theorem entry_congr {S : Shape} {α : Type} (f : S.Idx → α) {i j : S.Idx} (h : i = j) : f i = f j := congrArg f h

/-! # The embedding region: features [50000, 5] by rows, weight [5, 64] and bias [1, 64] whole, output [50000, 64] by rows -/

/-- The block index of each window at each tile: the row windows (features, output) sit at block (t, 0), the whole
    windows (weight, bias) at block (0, 0). -/
theorem embed_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The arrays of the embedding region as it finds them, each at its literal shape: features, weight, bias. -/
abbrev featArray (c : Dev nD) : Vec F S50000x5 .f32 := V c (Pipeline.arrRef spec0 0)
abbrev embWArray (c : Dev nD) : Vec F S5x64 .f32 := V c (Pipeline.arrRef spec0 1)
abbrev embBArray (c : Dev nD) : Vec F S1x64 .f32 := V c (Pipeline.arrRef spec0 2)

/-- Entry (p, k) of the features' block at tile t is entry (5000 t + p, k) of the feature array. -/
theorem embed_rows (c : Dev nD) (t : Fin cfg0.N) (p : Fin 5000) (k : Fin 5) :
    iblk0 V c 0 t (ix2 p k) = V c (Pipeline.arrRef spec0 0) (ix2 ⟨5000 * t.val + p.val, tile_row_lt N_0 t p⟩ k) := by
  obtain ⟨e0, e1, -⟩ := embed_maps t
  show featArray V c (((cfg0.win 0).blk t).view.emb (ix2 p k)) = featArray V c (ix2 ⟨5000 * t.val + p.val, tile_row_lt N_0 t p⟩ k)
  refine entry_congr (featArray V c) ?_
  funext a
  apply Fin.ext
  match a with
  | ⟨0, _⟩ => show win0_0.index t (0 : Fin 2) * 5000 + 1 * p.val = 5000 * t.val + p.val; omega
  | ⟨1, _⟩ => show win0_0.index t (1 : Fin 2) * 5 + 1 * k.val = k.val; omega

/-- The weight's block at every tile is the weight array. -/
theorem embed_whole1 (c : Dev nD) (t : Fin cfg0.N) (i : S5x64.Idx) :
    iblk0 V c 1 t i = V c (Pipeline.arrRef spec0 1) i := by
  obtain ⟨-, -, e2, e3, -⟩ := embed_maps t
  show embWArray V c (((cfg0.win 1).blk t).view.emb i) = embWArray V c i
  refine entry_congr (embWArray V c) ?_
  funext a
  apply Fin.ext
  match a with
  | ⟨0, _⟩ => show win0_1.index t (0 : Fin 2) * 5 + 1 * (i 0).val = (i 0).val; omega
  | ⟨1, _⟩ => show win0_1.index t (1 : Fin 2) * 64 + 1 * (i 1).val = (i 1).val; omega

/-- The bias's block at every tile is the bias array. -/
theorem embed_whole2 (c : Dev nD) (t : Fin cfg0.N) (i : S1x64.Idx) :
    iblk0 V c 2 t i = V c (Pipeline.arrRef spec0 2) i := by
  obtain ⟨-, -, -, -, e4, e5, -⟩ := embed_maps t
  show embBArray V c (((cfg0.win 2).blk t).view.emb i) = embBArray V c i
  refine entry_congr (embBArray V c) ?_
  funext a
  apply Fin.ext
  match a with
  | ⟨0, _⟩ => show win0_2.index t (0 : Fin 2) * 1 + 1 * (i 0).val = (i 0).val; omega
  | ⟨1, _⟩ => show win0_2.index t (1 : Fin 2) * 64 + 1 * (i 1).val = (i 1).val; omega

/-- What tile t writes back is block t of G, when the body's result on the blocks of tile t, read at (p, q), is G at
    (5000 t + p, q). -/
theorem embed_flushed (c : Dev nD) (G : Vec F S50000x64 .f32)
    (hG : ∀ (t : Fin cfg0.N) (p : Fin 5000) (q : Fin 64) (h : 5000 * t.val + p.val < 50000),
      k0_pay1 (iblk0 V c 0 t) (iblk0 V c 1 t) (iblk0 V c 2 t) (ix2 p q) = G (ix2 ⟨5000 * t.val + p.val, h⟩ q))
    (t : Fin cfg0.N) :
    (dat0 V c).flushed 3 t = ((cfg0.win 3).blk t).view.read (Elt F) G := by
  show (cfg0.win 3).cut (grid0.coords t) ((dat0 V c).after 3 t) = _
  rw [after0_3]
  unfold out0_3
  rw [View.canon_unit_zero offs_zero]
  simp only [View.ld_unit_zero (S := S5000x5) offs_zero, View.ld_unit_zero (S := S5x64) offs_zero, View.ld_unit_zero (S := S1x64) offs_zero]
  obtain ⟨-, -, -, -, -, -, e6, e7⟩ := embed_maps t
  refine funext fun (j : S5000x64.Idx) => ?_
  have hp : (j 0).val < 5000 := (j 0).isLt
  have hq : (j 1).val < 64 := (j 1).isLt
  have hr : 5000 * t.val + (j 0).val < 50000 := tile_row_lt N_0 t (j 0)
  show k0_pay1 (iblk0 V c 0 t) (iblk0 V c 1 t) (iblk0 V c 2 t) ((cfg0.win 3).xinj (grid0.coords t) j)
      = G (((cfg0.win 3).blk t).view.emb j)
  refine Eq.trans (entry_congr (k0_pay1 (iblk0 V c 0 t) (iblk0 V c 1 t) (iblk0 V c 2 t)) ?_)
    ((hG t (j 0) (j 1) hr).trans (entry_congr G ?_))
  · funext a
    match a with
    | ⟨0, _⟩ => rfl
    | ⟨1, _⟩ => rfl
  · funext a
    apply Fin.ext
    match a with
    | ⟨0, _⟩ => show 5000 * t.val + (j 0).val = win0_3.index t (0 : Fin 2) * 5000 + 1 * (j 0).val; omega
    | ⟨1, _⟩ => show (j 1).val = win0_3.index t (1 : Fin 2) * 64 + 1 * (j 1).val; omega

/-- An index of the output array lies in tile t's block iff each coordinate lies in the block's range on its axis. -/
theorem embed_mem_blk (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v5).slice (win0_3.rect t)).set ↔ _
  rw [View.set_slice_whole, Rect.mem_set_unit]
  exact Iff.rfl

/-- Every index of the output array is written back by some tile: row r by tile r / 5000. -/
theorem embed_cover (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  obtain ⟨t, ht⟩ : ∃ t : Fin cfg0.N, t.val = (i 0).val / 5000 :=
    ⟨⟨(i 0).val / 5000, lt_of_lt_of_eq (by omega : (i 0).val / 5000 < 10) N_0.symm⟩, rfl⟩
  obtain ⟨-, -, -, -, -, -, e6, e7⟩ := embed_maps t
  refine ⟨t, flush0_3 t, ?_⟩
  rw [embed_mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- THE OUTPUT ARRAY after the embedding region is G, whenever the body's result on the blocks of each tile agrees with G
    on that tile's rows. -/
theorem embed_final (c : Dev nD) (G : Vec F S50000x64 .f32)
    (hG : ∀ (t : Fin cfg0.N) (p : Fin 5000) (q : Fin 64) (h : 5000 * t.val + p.val < 50000),
      k0_pay1 (iblk0 V c 0 t) (iblk0 V c 1 t) (iblk0 V c 2 t) (ix2 p q) = G (ix2 ⟨5000 * t.val + p.val, h⟩ q)) :
    (dat0 V c).arrAt 3 cfg0.N = G :=
  (dat0 V c).arrAt_eq_of_cover 3 G (fun t _ => embed_flushed V c G hG t) embed_cover

/-! # The update region: two [50000, 64] operands by rows, weights [128, 64] and [64, 64] and two biases [1, 64] whole,
    output [50000, 64] by rows -/

/-- The block index of each window at each tile: the row windows (the two operands, the output) sit at block (t, 0),
    the whole windows (weights, biases) at block (0, 0). -/
theorem update_maps : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The arrays of the update region as it finds them, each at its literal shape. -/
abbrev updArray0 (c : Dev nD) : Vec F S50000x64 .f32 := V c (Pipeline.arrRef spec2 0)
abbrev updArray1 (c : Dev nD) : Vec F S50000x64 .f32 := V c (Pipeline.arrRef spec2 1)
abbrev updArray2 (c : Dev nD) : Vec F S128x64 .f32 := V c (Pipeline.arrRef spec2 2)
abbrev updArray3 (c : Dev nD) : Vec F S1x64 .f32 := V c (Pipeline.arrRef spec2 3)
abbrev updArray4 (c : Dev nD) : Vec F S64x64 .f32 := V c (Pipeline.arrRef spec2 4)
abbrev updArray5 (c : Dev nD) : Vec F S1x64 .f32 := V c (Pipeline.arrRef spec2 5)

/-- Entry (p, k) of the first operand's block at tile t is entry (5000 t + p, k) of its array. -/
theorem update_rows0 (c : Dev nD) (t : Fin cfg2.N) (p : Fin 5000) (k : Fin 64) :
    iblk2 V c 0 t (ix2 p k) = V c (Pipeline.arrRef spec2 0) (ix2 ⟨5000 * t.val + p.val, tile_row_lt N_2 t p⟩ k) := by
  obtain ⟨e0, e1, -⟩ := update_maps t
  show updArray0 V c (((cfg2.win 0).blk t).view.emb (ix2 p k)) = updArray0 V c (ix2 ⟨5000 * t.val + p.val, tile_row_lt N_2 t p⟩ k)
  refine entry_congr (updArray0 V c) ?_
  funext a
  apply Fin.ext
  match a with
  | ⟨0, _⟩ => show win2_0.index t (0 : Fin 2) * 5000 + 1 * p.val = 5000 * t.val + p.val; omega
  | ⟨1, _⟩ => show win2_0.index t (1 : Fin 2) * 64 + 1 * k.val = k.val; omega

/-- Entry (p, k) of the second operand's block at tile t is entry (5000 t + p, k) of its array. -/
theorem update_rows1 (c : Dev nD) (t : Fin cfg2.N) (p : Fin 5000) (k : Fin 64) :
    iblk2 V c 1 t (ix2 p k) = V c (Pipeline.arrRef spec2 1) (ix2 ⟨5000 * t.val + p.val, tile_row_lt N_2 t p⟩ k) := by
  obtain ⟨-, -, e2, e3, -⟩ := update_maps t
  show updArray1 V c (((cfg2.win 1).blk t).view.emb (ix2 p k)) = updArray1 V c (ix2 ⟨5000 * t.val + p.val, tile_row_lt N_2 t p⟩ k)
  refine entry_congr (updArray1 V c) ?_
  funext a
  apply Fin.ext
  match a with
  | ⟨0, _⟩ => show win2_1.index t (0 : Fin 2) * 5000 + 1 * p.val = 5000 * t.val + p.val; omega
  | ⟨1, _⟩ => show win2_1.index t (1 : Fin 2) * 64 + 1 * k.val = k.val; omega

/-- The [128, 64] weight's block at every tile is its array. -/
theorem update_whole2 (c : Dev nD) (t : Fin cfg2.N) (i : S128x64.Idx) :
    iblk2 V c 2 t i = V c (Pipeline.arrRef spec2 2) i := by
  obtain ⟨-, -, -, -, e4, e5, -⟩ := update_maps t
  show updArray2 V c (((cfg2.win 2).blk t).view.emb i) = updArray2 V c i
  refine entry_congr (updArray2 V c) ?_
  funext a
  apply Fin.ext
  match a with
  | ⟨0, _⟩ => show win2_2.index t (0 : Fin 2) * 128 + 1 * (i 0).val = (i 0).val; omega
  | ⟨1, _⟩ => show win2_2.index t (1 : Fin 2) * 64 + 1 * (i 1).val = (i 1).val; omega

/-- The first bias's block at every tile is its array. -/
theorem update_whole3 (c : Dev nD) (t : Fin cfg2.N) (i : S1x64.Idx) :
    iblk2 V c 3 t i = V c (Pipeline.arrRef spec2 3) i := by
  obtain ⟨-, -, -, -, -, -, e6, e7, -⟩ := update_maps t
  show updArray3 V c (((cfg2.win 3).blk t).view.emb i) = updArray3 V c i
  refine entry_congr (updArray3 V c) ?_
  funext a
  apply Fin.ext
  match a with
  | ⟨0, _⟩ => show win2_3.index t (0 : Fin 2) * 1 + 1 * (i 0).val = (i 0).val; omega
  | ⟨1, _⟩ => show win2_3.index t (1 : Fin 2) * 64 + 1 * (i 1).val = (i 1).val; omega

/-- The [64, 64] weight's block at every tile is its array. -/
theorem update_whole4 (c : Dev nD) (t : Fin cfg2.N) (i : S64x64.Idx) :
    iblk2 V c 4 t i = V c (Pipeline.arrRef spec2 4) i := by
  obtain ⟨-, -, -, -, -, -, -, -, e8, e9, -⟩ := update_maps t
  show updArray4 V c (((cfg2.win 4).blk t).view.emb i) = updArray4 V c i
  refine entry_congr (updArray4 V c) ?_
  funext a
  apply Fin.ext
  match a with
  | ⟨0, _⟩ => show win2_4.index t (0 : Fin 2) * 64 + 1 * (i 0).val = (i 0).val; omega
  | ⟨1, _⟩ => show win2_4.index t (1 : Fin 2) * 64 + 1 * (i 1).val = (i 1).val; omega

/-- The second bias's block at every tile is its array. -/
theorem update_whole5 (c : Dev nD) (t : Fin cfg2.N) (i : S1x64.Idx) :
    iblk2 V c 5 t i = V c (Pipeline.arrRef spec2 5) i := by
  obtain ⟨-, -, -, -, -, -, -, -, -, -, e10, e11, -⟩ := update_maps t
  show updArray5 V c (((cfg2.win 5).blk t).view.emb i) = updArray5 V c i
  refine entry_congr (updArray5 V c) ?_
  funext a
  apply Fin.ext
  match a with
  | ⟨0, _⟩ => show win2_5.index t (0 : Fin 2) * 1 + 1 * (i 0).val = (i 0).val; omega
  | ⟨1, _⟩ => show win2_5.index t (1 : Fin 2) * 64 + 1 * (i 1).val = (i 1).val; omega

/-- What tile t writes back is block t of G, when the body's result on the blocks of tile t, read at (p, q), is G at
    (5000 t + p, q). -/
theorem update_flushed (c : Dev nD) (G : Vec F S50000x64 .f32)
    (hG : ∀ (t : Fin cfg2.N) (p : Fin 5000) (q : Fin 64) (h : 5000 * t.val + p.val < 50000),
      k2_pay1 (iblk2 V c 0 t) (iblk2 V c 1 t) (iblk2 V c 2 t) (iblk2 V c 3 t) (iblk2 V c 4 t) (iblk2 V c 5 t) (ix2 p q)
        = G (ix2 ⟨5000 * t.val + p.val, h⟩ q))
    (t : Fin cfg2.N) :
    (dat2 V c).flushed 6 t = ((cfg2.win 6).blk t).view.read (Elt F) G := by
  show (cfg2.win 6).cut (grid2.coords t) ((dat2 V c).after 6 t) = _
  rw [after2_6]
  unfold out2_6
  rw [View.canon_unit_zero offs_zero]
  simp only [View.ld_unit_zero (S := S5000x64) offs_zero, View.ld_unit_zero (S := S128x64) offs_zero, View.ld_unit_zero (S := S1x64) offs_zero,
    View.ld_unit_zero (S := S64x64) offs_zero]
  obtain ⟨-, -, -, -, -, -, -, -, -, -, -, -, e12, e13⟩ := update_maps t
  refine funext fun (j : S5000x64.Idx) => ?_
  have hp : (j 0).val < 5000 := (j 0).isLt
  have hq : (j 1).val < 64 := (j 1).isLt
  have hr : 5000 * t.val + (j 0).val < 50000 := tile_row_lt N_2 t (j 0)
  show k2_pay1 (iblk2 V c 0 t) (iblk2 V c 1 t) (iblk2 V c 2 t) (iblk2 V c 3 t) (iblk2 V c 4 t) (iblk2 V c 5 t)
        ((cfg2.win 6).xinj (grid2.coords t) j)
      = G (((cfg2.win 6).blk t).view.emb j)
  refine Eq.trans
    (entry_congr (k2_pay1 (iblk2 V c 0 t) (iblk2 V c 1 t) (iblk2 V c 2 t) (iblk2 V c 3 t) (iblk2 V c 4 t) (iblk2 V c 5 t)) ?_)
    ((hG t (j 0) (j 1) hr).trans (entry_congr G ?_))
  · funext a
    match a with
    | ⟨0, _⟩ => rfl
    | ⟨1, _⟩ => rfl
  · funext a
    apply Fin.ext
    match a with
    | ⟨0, _⟩ => show 5000 * t.val + (j 0).val = win2_6.index t (0 : Fin 2) * 5000 + 1 * (j 0).val; omega
    | ⟨1, _⟩ => show (j 1).val = win2_6.index t (1 : Fin 2) * 64 + 1 * (j 1).val; omega

/-- An index of the output array lies in tile t's block iff each coordinate lies in the block's range on its axis. -/
theorem update_mem_blk (t : Fin cfg2.N) (i : S50000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v37).slice (win2_6.rect t)).set ↔ _
  rw [View.set_slice_whole, Rect.mem_set_unit]
  exact Iff.rfl

/-- Every index of the output array is written back by some tile: row r by tile r / 5000. -/
theorem update_cover (i : S50000x64.Idx) :
    ∃ t : Fin cfg2.N, (cfg2.win 6).flush t = true ∧ i ∈ ((cfg2.win 6).blk t).view.set := by
  have hi0 : (i 0).val < 50000 := (i 0).isLt
  have hi1 : (i 1).val < 64 := (i 1).isLt
  obtain ⟨t, ht⟩ : ∃ t : Fin cfg2.N, t.val = (i 0).val / 5000 :=
    ⟨⟨(i 0).val / 5000, lt_of_lt_of_eq (by omega : (i 0).val / 5000 < 10) N_2.symm⟩, rfl⟩
  obtain ⟨-, -, -, -, -, -, -, -, -, -, -, -, e12, e13⟩ := update_maps t
  refine ⟨t, flush2_6 t, ?_⟩
  rw [update_mem_blk]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 64 ≤ (i 1).val ∧ (i 1).val < win2_6.index t (1 : Fin 2) * 64 + 64; omega

/-- THE OUTPUT ARRAY after the update region is G, whenever the body's result on the blocks of each tile agrees with G on
    that tile's rows. -/
theorem update_final (c : Dev nD) (G : Vec F S50000x64 .f32)
    (hG : ∀ (t : Fin cfg2.N) (p : Fin 5000) (q : Fin 64) (h : 5000 * t.val + p.val < 50000),
      k2_pay1 (iblk2 V c 0 t) (iblk2 V c 1 t) (iblk2 V c 2 t) (iblk2 V c 3 t) (iblk2 V c 4 t) (iblk2 V c 5 t) (ix2 p q)
        = G (ix2 ⟨5000 * t.val + p.val, h⟩ q)) :
    (dat2 V c).arrAt 6 cfg2.N = G :=
  (dat2 V c).arrAt_eq_of_cover 6 G (fun t _ => update_flushed V c G hG t) update_cover

end Cert.KernelIdeal.NodeRegions

end
-- ==== Proof.EdgeRegion.lean ====
import proofs.«123328_j6777458393829_1_alg».proof.Proof.Gen.KernelIdeal.Frame
import Idealize.ShloMosaic.Lib.Pipeline.Value
import Idealize.ShloMosaic.Lib.ValueIdx

/-!
# The edge region: from blocks to whole arrays

The second launch of the program walks 400 grid points. At point `t` it sees, of each of its nineteen operands, one
block, and there are only two kinds of operand.

* A ROW operand is cut into 400 slabs of 2000 consecutive rows, full width; at point `t` the block is slab `t`. So
  entry `(p, k)` of the block is entry `(2000 t + p, k)` of the array. The four inputs with one row per edge (the edge attributes,
  the features of each edge's two endpoints, the edge vectors) and the three outputs (new edge attributes, scalar
  messages, vector messages) are of this kind.
* A FIXED operand (the six weight matrices and their six bias rows) has one block, the whole array, at every point. So the
  block IS the array.

Both facts come from one rule: along each axis an entry of a block sits in the array at
`(block index) × (block size) + (coordinate inside the block)`, and the block index is `(t, 0)` for a row operand and
`(0, 0)` for a fixed one (the index maps are evaluated once over the 400 points).

For an output, point `t` writes its block back over slab `t`. The 400 slabs are disjoint and together they are all
800000 rows (row `r` lies in slab `r / 2000`), so if for ONE function `G` of the whole array the body's result at every
point `t`, read at every `(p, q)`, is `G (2000 t + p, q)`, then the array after the launch is `G`.
What `G` is (the arithmetic of the body) is not this file's business: each closing theorem takes that agreement as a
hypothesis. Everything is stated for arbitrary contents `V` of the buffers when the launch begins and for any float
instance `F`.
-/

set_option maxRecDepth 16384

noncomputable section

namespace Cert.KernelIdeal.EdgeRegion

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

/-- The offset vector `(0, 0)` is the constant zero function. -/
theorem zero_offsets : (![0, 0] : Fin 2 → Nat) = fun _ => 0 :=
  funext fun a => match a with | ⟨0, _⟩ => rfl | ⟨1, _⟩ => rfl

/-! ## The block index of every operand at every point -/

/-- Edge attributes: block `(t, 0)` at point `t`. -/
theorem slab_index0 : ∀ t : Fin cfg1.N, win1_0.index t (0 : Fin 2) = t.val ∧ win1_0.index t (1 : Fin 2) = 0 :=
  (by decide +kernel : ∀ t : Fin grid1.N, _)
/-- Features of each edge's first endpoint: block `(t, 0)`. -/
theorem slab_index1 : ∀ t : Fin cfg1.N, win1_1.index t (0 : Fin 2) = t.val ∧ win1_1.index t (1 : Fin 2) = 0 :=
  (by decide +kernel : ∀ t : Fin grid1.N, _)
/-- Features of each edge's second endpoint: block `(t, 0)`. -/
theorem slab_index2 : ∀ t : Fin cfg1.N, win1_2.index t (0 : Fin 2) = t.val ∧ win1_2.index t (1 : Fin 2) = 0 :=
  (by decide +kernel : ∀ t : Fin grid1.N, _)
/-- Edge vectors: block `(t, 0)`. -/
theorem slab_index3 : ∀ t : Fin cfg1.N, win1_3.index t (0 : Fin 2) = t.val ∧ win1_3.index t (1 : Fin 2) = 0 :=
  (by decide +kernel : ∀ t : Fin grid1.N, _)
/-- The twelve fixed operands: block `(0, 0)` at every point. -/
theorem fixed_index4 : ∀ t : Fin cfg1.N, win1_4.index t (0 : Fin 2) = 0 ∧ win1_4.index t (1 : Fin 2) = 0 :=
  (by decide +kernel : ∀ t : Fin grid1.N, _)
theorem fixed_index5 : ∀ t : Fin cfg1.N, win1_5.index t (0 : Fin 2) = 0 ∧ win1_5.index t (1 : Fin 2) = 0 :=
  (by decide +kernel : ∀ t : Fin grid1.N, _)
theorem fixed_index6 : ∀ t : Fin cfg1.N, win1_6.index t (0 : Fin 2) = 0 ∧ win1_6.index t (1 : Fin 2) = 0 :=
  (by decide +kernel : ∀ t : Fin grid1.N, _)
theorem fixed_index7 : ∀ t : Fin cfg1.N, win1_7.index t (0 : Fin 2) = 0 ∧ win1_7.index t (1 : Fin 2) = 0 :=
  (by decide +kernel : ∀ t : Fin grid1.N, _)
theorem fixed_index8 : ∀ t : Fin cfg1.N, win1_8.index t (0 : Fin 2) = 0 ∧ win1_8.index t (1 : Fin 2) = 0 :=
  (by decide +kernel : ∀ t : Fin grid1.N, _)
theorem fixed_index9 : ∀ t : Fin cfg1.N, win1_9.index t (0 : Fin 2) = 0 ∧ win1_9.index t (1 : Fin 2) = 0 :=
  (by decide +kernel : ∀ t : Fin grid1.N, _)
theorem fixed_index10 : ∀ t : Fin cfg1.N, win1_10.index t (0 : Fin 2) = 0 ∧ win1_10.index t (1 : Fin 2) = 0 :=
  (by decide +kernel : ∀ t : Fin grid1.N, _)
theorem fixed_index11 : ∀ t : Fin cfg1.N, win1_11.index t (0 : Fin 2) = 0 ∧ win1_11.index t (1 : Fin 2) = 0 :=
  (by decide +kernel : ∀ t : Fin grid1.N, _)
theorem fixed_index12 : ∀ t : Fin cfg1.N, win1_12.index t (0 : Fin 2) = 0 ∧ win1_12.index t (1 : Fin 2) = 0 :=
  (by decide +kernel : ∀ t : Fin grid1.N, _)
theorem fixed_index13 : ∀ t : Fin cfg1.N, win1_13.index t (0 : Fin 2) = 0 ∧ win1_13.index t (1 : Fin 2) = 0 :=
  (by decide +kernel : ∀ t : Fin grid1.N, _)
theorem fixed_index14 : ∀ t : Fin cfg1.N, win1_14.index t (0 : Fin 2) = 0 ∧ win1_14.index t (1 : Fin 2) = 0 :=
  (by decide +kernel : ∀ t : Fin grid1.N, _)
theorem fixed_index15 : ∀ t : Fin cfg1.N, win1_15.index t (0 : Fin 2) = 0 ∧ win1_15.index t (1 : Fin 2) = 0 :=
  (by decide +kernel : ∀ t : Fin grid1.N, _)
/-- The three outputs: block `(t, 0)` at point `t`. -/
theorem slab_index16 : ∀ t : Fin cfg1.N, win1_16.index t (0 : Fin 2) = t.val ∧ win1_16.index t (1 : Fin 2) = 0 :=
  (by decide +kernel : ∀ t : Fin grid1.N, _)
theorem slab_index17 : ∀ t : Fin cfg1.N, win1_17.index t (0 : Fin 2) = t.val ∧ win1_17.index t (1 : Fin 2) = 0 :=
  (by decide +kernel : ∀ t : Fin grid1.N, _)
theorem slab_index18 : ∀ t : Fin cfg1.N, win1_18.index t (0 : Fin 2) = t.val ∧ win1_18.index t (1 : Fin 2) = 0 :=
  (by decide +kernel : ∀ t : Fin grid1.N, _)

/-- Row `p` of slab `t` is a row of the array: `2000 t + p < 2000 · 400`. -/
theorem row_lt (t : Fin cfg1.N) (p : Fin 2000) : 2000 * t.val + p.val < 800000 := by
  have hN : cfg1.N = 400 := N_1
  have ht : t.val < cfg1.N := t.isLt
  have hp : p.val < 2000 := p.isLt
  omega

/-! ## Reading a row operand's block: entry `(p, k)` of slab `t` is entry `(2000 t + p, k)` of the array -/

/-- Edge attributes (16 columns). -/
theorem rows0 (c : Dev nD) (t : Fin cfg1.N) (p : Fin 2000) (k : Fin 16) :
    iblk1 V c 0 t (ix2 p k) = V c (Pipeline.arrRef spec1 0) (ix2 ⟨2000 * t.val + p.val, row_lt t p⟩ k) := by
  obtain ⟨e0, e1⟩ := slab_index0 t
  show V c (Pipeline.arrRef spec1 0) (((cfg1.win 0).blk t).view.emb (ix2 p k)) = _
  refine congrArg _ ?_
  funext a
  apply Fin.ext
  match a with
  | ⟨0, _⟩ => show win1_0.index t (0 : Fin 2) * 2000 + 1 * p.val = 2000 * t.val + p.val; omega
  | ⟨1, _⟩ => show win1_0.index t (1 : Fin 2) * 16 + 1 * k.val = k.val; omega

/-- Features of each edge's first endpoint (64 columns). -/
theorem rows1 (c : Dev nD) (t : Fin cfg1.N) (p : Fin 2000) (k : Fin 64) :
    iblk1 V c 1 t (ix2 p k) = V c (Pipeline.arrRef spec1 1) (ix2 ⟨2000 * t.val + p.val, row_lt t p⟩ k) := by
  obtain ⟨e0, e1⟩ := slab_index1 t
  show V c (Pipeline.arrRef spec1 1) (((cfg1.win 1).blk t).view.emb (ix2 p k)) = _
  refine congrArg _ ?_
  funext a
  apply Fin.ext
  match a with
  | ⟨0, _⟩ => show win1_1.index t (0 : Fin 2) * 2000 + 1 * p.val = 2000 * t.val + p.val; omega
  | ⟨1, _⟩ => show win1_1.index t (1 : Fin 2) * 64 + 1 * k.val = k.val; omega

/-- Features of each edge's second endpoint (64 columns). -/
theorem rows2 (c : Dev nD) (t : Fin cfg1.N) (p : Fin 2000) (k : Fin 64) :
    iblk1 V c 2 t (ix2 p k) = V c (Pipeline.arrRef spec1 2) (ix2 ⟨2000 * t.val + p.val, row_lt t p⟩ k) := by
  obtain ⟨e0, e1⟩ := slab_index2 t
  show V c (Pipeline.arrRef spec1 2) (((cfg1.win 2).blk t).view.emb (ix2 p k)) = _
  refine congrArg _ ?_
  funext a
  apply Fin.ext
  match a with
  | ⟨0, _⟩ => show win1_2.index t (0 : Fin 2) * 2000 + 1 * p.val = 2000 * t.val + p.val; omega
  | ⟨1, _⟩ => show win1_2.index t (1 : Fin 2) * 64 + 1 * k.val = k.val; omega

/-- Edge vectors (3 columns). -/
theorem rows3 (c : Dev nD) (t : Fin cfg1.N) (p : Fin 2000) (k : Fin 3) :
    iblk1 V c 3 t (ix2 p k) = V c (Pipeline.arrRef spec1 3) (ix2 ⟨2000 * t.val + p.val, row_lt t p⟩ k) := by
  obtain ⟨e0, e1⟩ := slab_index3 t
  show V c (Pipeline.arrRef spec1 3) (((cfg1.win 3).blk t).view.emb (ix2 p k)) = _
  refine congrArg _ ?_
  funext a
  apply Fin.ext
  match a with
  | ⟨0, _⟩ => show win1_3.index t (0 : Fin 2) * 2000 + 1 * p.val = 2000 * t.val + p.val; omega
  | ⟨1, _⟩ => show win1_3.index t (1 : Fin 2) * 3 + 1 * k.val = k.val; omega

/-! ## Reading a fixed operand's block: it is the array, at every point -/

theorem whole4 (c : Dev nD) (t : Fin cfg1.N) (i : S16x64.Idx) :
    iblk1 V c 4 t i = V c (Pipeline.arrRef spec1 4) i := by
  obtain ⟨e0, e1⟩ := fixed_index4 t
  show V c (Pipeline.arrRef spec1 4) (((cfg1.win 4).blk t).view.emb i) = _
  refine congrArg _ ?_
  funext a
  apply Fin.ext
  match a with
  | ⟨0, _⟩ => show win1_4.index t (0 : Fin 2) * 16 + 1 * (i 0).val = (i 0).val; omega
  | ⟨1, _⟩ => show win1_4.index t (1 : Fin 2) * 64 + 1 * (i 1).val = (i 1).val; omega

theorem whole5 (c : Dev nD) (t : Fin cfg1.N) (i : S1x64.Idx) :
    iblk1 V c 5 t i = V c (Pipeline.arrRef spec1 5) i := by
  obtain ⟨e0, e1⟩ := fixed_index5 t
  show V c (Pipeline.arrRef spec1 5) (((cfg1.win 5).blk t).view.emb i) = _
  refine congrArg _ ?_
  funext a
  apply Fin.ext
  match a with
  | ⟨0, _⟩ => show win1_5.index t (0 : Fin 2) * 1 + 1 * (i 0).val = (i 0).val; omega
  | ⟨1, _⟩ => show win1_5.index t (1 : Fin 2) * 64 + 1 * (i 1).val = (i 1).val; omega

theorem whole6 (c : Dev nD) (t : Fin cfg1.N) (i : S64x64.Idx) :
    iblk1 V c 6 t i = V c (Pipeline.arrRef spec1 6) i := by
  obtain ⟨e0, e1⟩ := fixed_index6 t
  show V c (Pipeline.arrRef spec1 6) (((cfg1.win 6).blk t).view.emb i) = _
  refine congrArg _ ?_
  funext a
  apply Fin.ext
  match a with
  | ⟨0, _⟩ => show win1_6.index t (0 : Fin 2) * 64 + 1 * (i 0).val = (i 0).val; omega
  | ⟨1, _⟩ => show win1_6.index t (1 : Fin 2) * 64 + 1 * (i 1).val = (i 1).val; omega

theorem whole7 (c : Dev nD) (t : Fin cfg1.N) (i : S1x64.Idx) :
    iblk1 V c 7 t i = V c (Pipeline.arrRef spec1 7) i := by
  obtain ⟨e0, e1⟩ := fixed_index7 t
  show V c (Pipeline.arrRef spec1 7) (((cfg1.win 7).blk t).view.emb i) = _
  refine congrArg _ ?_
  funext a
  apply Fin.ext
  match a with
  | ⟨0, _⟩ => show win1_7.index t (0 : Fin 2) * 1 + 1 * (i 0).val = (i 0).val; omega
  | ⟨1, _⟩ => show win1_7.index t (1 : Fin 2) * 64 + 1 * (i 1).val = (i 1).val; omega

theorem whole8 (c : Dev nD) (t : Fin cfg1.N) (i : S192x64.Idx) :
    iblk1 V c 8 t i = V c (Pipeline.arrRef spec1 8) i := by
  obtain ⟨e0, e1⟩ := fixed_index8 t
  show V c (Pipeline.arrRef spec1 8) (((cfg1.win 8).blk t).view.emb i) = _
  refine congrArg _ ?_
  funext a
  apply Fin.ext
  match a with
  | ⟨0, _⟩ => show win1_8.index t (0 : Fin 2) * 192 + 1 * (i 0).val = (i 0).val; omega
  | ⟨1, _⟩ => show win1_8.index t (1 : Fin 2) * 64 + 1 * (i 1).val = (i 1).val; omega

theorem whole9 (c : Dev nD) (t : Fin cfg1.N) (i : S1x64.Idx) :
    iblk1 V c 9 t i = V c (Pipeline.arrRef spec1 9) i := by
  obtain ⟨e0, e1⟩ := fixed_index9 t
  show V c (Pipeline.arrRef spec1 9) (((cfg1.win 9).blk t).view.emb i) = _
  refine congrArg _ ?_
  funext a
  apply Fin.ext
  match a with
  | ⟨0, _⟩ => show win1_9.index t (0 : Fin 2) * 1 + 1 * (i 0).val = (i 0).val; omega
  | ⟨1, _⟩ => show win1_9.index t (1 : Fin 2) * 64 + 1 * (i 1).val = (i 1).val; omega

theorem whole10 (c : Dev nD) (t : Fin cfg1.N) (i : S64x64.Idx) :
    iblk1 V c 10 t i = V c (Pipeline.arrRef spec1 10) i := by
  obtain ⟨e0, e1⟩ := fixed_index10 t
  show V c (Pipeline.arrRef spec1 10) (((cfg1.win 10).blk t).view.emb i) = _
  refine congrArg _ ?_
  funext a
  apply Fin.ext
  match a with
  | ⟨0, _⟩ => show win1_10.index t (0 : Fin 2) * 64 + 1 * (i 0).val = (i 0).val; omega
  | ⟨1, _⟩ => show win1_10.index t (1 : Fin 2) * 64 + 1 * (i 1).val = (i 1).val; omega

theorem whole11 (c : Dev nD) (t : Fin cfg1.N) (i : S1x64.Idx) :
    iblk1 V c 11 t i = V c (Pipeline.arrRef spec1 11) i := by
  obtain ⟨e0, e1⟩ := fixed_index11 t
  show V c (Pipeline.arrRef spec1 11) (((cfg1.win 11).blk t).view.emb i) = _
  refine congrArg _ ?_
  funext a
  apply Fin.ext
  match a with
  | ⟨0, _⟩ => show win1_11.index t (0 : Fin 2) * 1 + 1 * (i 0).val = (i 0).val; omega
  | ⟨1, _⟩ => show win1_11.index t (1 : Fin 2) * 64 + 1 * (i 1).val = (i 1).val; omega

theorem whole12 (c : Dev nD) (t : Fin cfg1.N) (i : S192x64.Idx) :
    iblk1 V c 12 t i = V c (Pipeline.arrRef spec1 12) i := by
  obtain ⟨e0, e1⟩ := fixed_index12 t
  show V c (Pipeline.arrRef spec1 12) (((cfg1.win 12).blk t).view.emb i) = _
  refine congrArg _ ?_
  funext a
  apply Fin.ext
  match a with
  | ⟨0, _⟩ => show win1_12.index t (0 : Fin 2) * 192 + 1 * (i 0).val = (i 0).val; omega
  | ⟨1, _⟩ => show win1_12.index t (1 : Fin 2) * 64 + 1 * (i 1).val = (i 1).val; omega

theorem whole13 (c : Dev nD) (t : Fin cfg1.N) (i : S1x64.Idx) :
    iblk1 V c 13 t i = V c (Pipeline.arrRef spec1 13) i := by
  obtain ⟨e0, e1⟩ := fixed_index13 t
  show V c (Pipeline.arrRef spec1 13) (((cfg1.win 13).blk t).view.emb i) = _
  refine congrArg _ ?_
  funext a
  apply Fin.ext
  match a with
  | ⟨0, _⟩ => show win1_13.index t (0 : Fin 2) * 1 + 1 * (i 0).val = (i 0).val; omega
  | ⟨1, _⟩ => show win1_13.index t (1 : Fin 2) * 64 + 1 * (i 1).val = (i 1).val; omega

theorem whole14 (c : Dev nD) (t : Fin cfg1.N) (i : S64x64.Idx) :
    iblk1 V c 14 t i = V c (Pipeline.arrRef spec1 14) i := by
  obtain ⟨e0, e1⟩ := fixed_index14 t
  show V c (Pipeline.arrRef spec1 14) (((cfg1.win 14).blk t).view.emb i) = _
  refine congrArg _ ?_
  funext a
  apply Fin.ext
  match a with
  | ⟨0, _⟩ => show win1_14.index t (0 : Fin 2) * 64 + 1 * (i 0).val = (i 0).val; omega
  | ⟨1, _⟩ => show win1_14.index t (1 : Fin 2) * 64 + 1 * (i 1).val = (i 1).val; omega

theorem whole15 (c : Dev nD) (t : Fin cfg1.N) (i : S1x64.Idx) :
    iblk1 V c 15 t i = V c (Pipeline.arrRef spec1 15) i := by
  obtain ⟨e0, e1⟩ := fixed_index15 t
  show V c (Pipeline.arrRef spec1 15) (((cfg1.win 15).blk t).view.emb i) = _
  refine congrArg _ ?_
  funext a
  apply Fin.ext
  match a with
  | ⟨0, _⟩ => show win1_15.index t (0 : Fin 2) * 1 + 1 * (i 0).val = (i 0).val; omega
  | ⟨1, _⟩ => show win1_15.index t (1 : Fin 2) * 64 + 1 * (i 1).val = (i 1).val; omega

/-! ## The first output, the new edge attributes (64 columns): what a point stores, what it writes back, the cover, the array -/

/-- The body makes one store into this output's block, over the whole block, and every operand it uses is loaded
    whole: so the block after the body is the body's value on the operands' blocks. -/
theorem stored16 (x0 : Vec F S2000x16 .f32) (x1 : Vec F S2000x64 .f32) (x2 : Vec F S2000x64 .f32) (x3 : Vec F S2000x3 .f32) (x4 : Vec F S16x64 .f32) (x5 : Vec F S1x64 .f32) (x6 : Vec F S64x64 .f32) (x7 : Vec F S1x64 .f32) (x8 : Vec F S192x64 .f32) (x9 : Vec F S1x64 .f32) (x10 : Vec F S64x64 .f32) (x11 : Vec F S1x64 .f32) (x12 : Vec F S192x64 .f32) (x13 : Vec F S1x64 .f32) (x14 : Vec F S64x64 .f32) (x15 : Vec F S1x64 .f32) :
    out1_16 x0 x1 x2 x3 x4 x5 x6 x7 x8 x9 x10 x11 x12 x13 x14 x15 = k1_pay2 x0 x4 x5 x6 x7 := by
  unfold out1_16
  rw [View.canon_unit_zero zero_offsets]
  simp only [View.ld_unit_zero (S := S2000x16) zero_offsets, View.ld_unit_zero (S := S16x64) zero_offsets,
    View.ld_unit_zero (S := S1x64) zero_offsets, View.ld_unit_zero (S := S64x64) zero_offsets]

/-- A block `X` whose entry `(p, q)` is `G (2000 t + p, q)` is slab `t` of `G`: what the write-back at
    point `t` puts into the array is what reading `G` through that slab gives. -/
theorem slab_of16 (t : Fin cfg1.N) (X : Vec F S2000x64 .f32) (G : Vec F S800000x64 .f32)
    (h : ∀ (p : Fin 2000) (q : Fin 64), X (ix2 p q) = G (ix2 ⟨2000 * t.val + p.val, row_lt t p⟩ q)) :
    (cfg1.win 16).cut (grid1.coords t) X = ((cfg1.win 16).blk t).view.read (Elt F) G := by
  obtain ⟨e0, e1⟩ := slab_index16 t
  funext j
  obtain ⟨p, q, rfl⟩ : ∃ (p : Fin 2000) (q : Fin 64), j = ix2 p q := ⟨j 0, j 1, eq_ix2 j⟩
  show X (ix2 p q) = G (((cfg1.win 16).blk t).view.emb (ix2 p q))
  refine (h p q).trans (congrArg G ?_)
  funext a
  apply Fin.ext
  match a with
  | ⟨0, _⟩ => show 2000 * t.val + p.val = win1_16.index t (0 : Fin 2) * 2000 + 1 * p.val; omega
  | ⟨1, _⟩ => show q.val = win1_16.index t (1 : Fin 2) * 64 + 1 * q.val; omega

/-- An entry of the array lies in slab `t` exactly when, on each axis, its coordinate is in the slab's range. -/
theorem mem_slab16 (t : Fin cfg1.N) (i : S800000x64.Idx) :
    i ∈ ((cfg1.win 16).blk t).view.set ↔ ∀ a : Fin 2, win1_16.index t a * S2000x64.size a ≤ (i a).val ∧ (i a).val < win1_16.index t a * S2000x64.size a + S2000x64.size a := by
  show i ∈ ((View.whole main_v26_0).slice (win1_16.rect t)).set ↔ _
  rw [View.set_slice_whole, Rect.mem_set_unit]
  exact Iff.rfl

/-- Every entry of the array is in some slab that is written back: row `r` is in slab `r / 2000`. -/
theorem covered16 (i : S800000x64.Idx) :
    ∃ t : Fin cfg1.N, (cfg1.win 16).flush t = true ∧ i ∈ ((cfg1.win 16).blk t).view.set := by
  have hN : cfg1.N = 400 := N_1
  have hi0 : (i 0).val < 800000 := (i 0).isLt
  have hi1 : (i 1).val < 64 := (i 1).isLt
  have hlt : (i 0).val / 2000 < cfg1.N := by omega
  obtain ⟨t, ht⟩ : ∃ t : Fin cfg1.N, t.val = (i 0).val / 2000 := ⟨⟨(i 0).val / 2000, hlt⟩, rfl⟩
  obtain ⟨e0, e1⟩ := slab_index16 t
  refine ⟨t, flush1_16 t, ?_⟩
  rw [mem_slab16]
  intro a
  match a with
  | ⟨0, _⟩ => show win1_16.index t (0 : Fin 2) * 2000 ≤ (i 0).val ∧ (i 0).val < win1_16.index t (0 : Fin 2) * 2000 + 2000; omega
  | ⟨1, _⟩ => show win1_16.index t (1 : Fin 2) * 64 ≤ (i 1).val ∧ (i 1).val < win1_16.index t (1 : Fin 2) * 64 + 64; omega

/-- What point `t` writes back to the first output is slab `t` of `G`, when the body's value on the blocks at `t`
    agrees with `G` row by row. -/
theorem written16 (c : Dev nD) (G : Vec F S800000x64 .f32)
    (hG : ∀ (t : Fin cfg1.N) (p : Fin 2000) (q : Fin 64) (h : 2000 * t.val + p.val < 800000),
      k1_pay2 (iblk1 V c 0 t) (iblk1 V c 4 t) (iblk1 V c 5 t) (iblk1 V c 6 t) (iblk1 V c 7 t) (ix2 p q)
        = G (ix2 ⟨2000 * t.val + p.val, h⟩ q))
    (t : Fin cfg1.N) :
    (dat1 V c).flushed 16 t = ((cfg1.win 16).blk t).view.read (Elt F) G := by
  show (cfg1.win 16).cut (grid1.coords t) ((dat1 V c).after 16 t) = _
  rw [after1_16]
  refine (congrArg ((cfg1.win 16).cut (grid1.coords t))
    (stored16 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t))).trans ?_
  exact slab_of16 t (k1_pay2 (iblk1 V c 0 t) (iblk1 V c 4 t) (iblk1 V c 5 t) (iblk1 V c 6 t) (iblk1 V c 7 t)) G
    (fun p q => hG t p q (row_lt t p))

/-- THE FIRST OUTPUT after the launch is `G`. -/
theorem ea_final (c : Dev nD) (G : Vec F S800000x64 .f32)
    (hG : ∀ (t : Fin cfg1.N) (p : Fin 2000) (q : Fin 64) (h : 2000 * t.val + p.val < 800000),
      k1_pay2 (iblk1 V c 0 t) (iblk1 V c 4 t) (iblk1 V c 5 t) (iblk1 V c 6 t) (iblk1 V c 7 t) (ix2 p q)
        = G (ix2 ⟨2000 * t.val + p.val, h⟩ q)) :
    (dat1 V c).arrAt 16 cfg1.N = G :=
  (dat1 V c).arrAt_eq_of_cover 16 G (fun t _ => written16 V c G hG t) covered16

/-! ## The second output, the scalar messages (64 columns) -/

/-- One whole-block store, every operand loaded whole: the block after the body is the body's value on the blocks. -/
theorem stored17 (x0 : Vec F S2000x16 .f32) (x1 : Vec F S2000x64 .f32) (x2 : Vec F S2000x64 .f32) (x3 : Vec F S2000x3 .f32) (x4 : Vec F S16x64 .f32) (x5 : Vec F S1x64 .f32) (x6 : Vec F S64x64 .f32) (x7 : Vec F S1x64 .f32) (x8 : Vec F S192x64 .f32) (x9 : Vec F S1x64 .f32) (x10 : Vec F S64x64 .f32) (x11 : Vec F S1x64 .f32) (x12 : Vec F S192x64 .f32) (x13 : Vec F S1x64 .f32) (x14 : Vec F S64x64 .f32) (x15 : Vec F S1x64 .f32) :
    out1_17 x0 x1 x2 x3 x4 x5 x6 x7 x8 x9 x10 x11 x12 x13 x14 x15
      = k1_pay5 (k1_pay1 x1) (k1_pay4 x0 x1 x2 x4 x5 x6 x7 x8 x9) x10 x11 := by
  unfold out1_17
  rw [View.canon_unit_zero zero_offsets]
  simp only [View.ld_unit_zero (S := S2000x16) zero_offsets, View.ld_unit_zero (S := S2000x64) zero_offsets,
    View.ld_unit_zero (S := S16x64) zero_offsets, View.ld_unit_zero (S := S1x64) zero_offsets,
    View.ld_unit_zero (S := S64x64) zero_offsets, View.ld_unit_zero (S := S192x64) zero_offsets]

/-- A block whose entry `(p, q)` is `G (2000 t + p, q)` is slab `t` of `G`. -/
theorem slab_of17 (t : Fin cfg1.N) (X : Vec F S2000x64 .f32) (G : Vec F S800000x64 .f32)
    (h : ∀ (p : Fin 2000) (q : Fin 64), X (ix2 p q) = G (ix2 ⟨2000 * t.val + p.val, row_lt t p⟩ q)) :
    (cfg1.win 17).cut (grid1.coords t) X = ((cfg1.win 17).blk t).view.read (Elt F) G := by
  obtain ⟨e0, e1⟩ := slab_index17 t
  funext j
  obtain ⟨p, q, rfl⟩ : ∃ (p : Fin 2000) (q : Fin 64), j = ix2 p q := ⟨j 0, j 1, eq_ix2 j⟩
  show X (ix2 p q) = G (((cfg1.win 17).blk t).view.emb (ix2 p q))
  refine (h p q).trans (congrArg G ?_)
  funext a
  apply Fin.ext
  match a with
  | ⟨0, _⟩ => show 2000 * t.val + p.val = win1_17.index t (0 : Fin 2) * 2000 + 1 * p.val; omega
  | ⟨1, _⟩ => show q.val = win1_17.index t (1 : Fin 2) * 64 + 1 * q.val; omega

/-- Membership in slab `t`, axis by axis. -/
theorem mem_slab17 (t : Fin cfg1.N) (i : S800000x64.Idx) :
    i ∈ ((cfg1.win 17).blk t).view.set ↔ ∀ a : Fin 2, win1_17.index t a * S2000x64.size a ≤ (i a).val ∧ (i a).val < win1_17.index t a * S2000x64.size a + S2000x64.size a := by
  show i ∈ ((View.whole main_v26_1).slice (win1_17.rect t)).set ↔ _
  rw [View.set_slice_whole, Rect.mem_set_unit]
  exact Iff.rfl

/-- Row `r` is in slab `r / 2000`, which is written back. -/
theorem covered17 (i : S800000x64.Idx) :
    ∃ t : Fin cfg1.N, (cfg1.win 17).flush t = true ∧ i ∈ ((cfg1.win 17).blk t).view.set := by
  have hN : cfg1.N = 400 := N_1
  have hi0 : (i 0).val < 800000 := (i 0).isLt
  have hi1 : (i 1).val < 64 := (i 1).isLt
  have hlt : (i 0).val / 2000 < cfg1.N := by omega
  obtain ⟨t, ht⟩ : ∃ t : Fin cfg1.N, t.val = (i 0).val / 2000 := ⟨⟨(i 0).val / 2000, hlt⟩, rfl⟩
  obtain ⟨e0, e1⟩ := slab_index17 t
  refine ⟨t, flush1_17 t, ?_⟩
  rw [mem_slab17]
  intro a
  match a with
  | ⟨0, _⟩ => show win1_17.index t (0 : Fin 2) * 2000 ≤ (i 0).val ∧ (i 0).val < win1_17.index t (0 : Fin 2) * 2000 + 2000; omega
  | ⟨1, _⟩ => show win1_17.index t (1 : Fin 2) * 64 ≤ (i 1).val ∧ (i 1).val < win1_17.index t (1 : Fin 2) * 64 + 64; omega

/-- What point `t` writes back to the second output is slab `t` of `G`. -/
theorem written17 (c : Dev nD) (G : Vec F S800000x64 .f32)
    (hG : ∀ (t : Fin cfg1.N) (p : Fin 2000) (q : Fin 64) (h : 2000 * t.val + p.val < 800000),
      k1_pay5 (k1_pay1 (iblk1 V c 1 t)) (k1_pay4 (iblk1 V c 0 t) (iblk1 V c 1 t) (iblk1 V c 2 t) (iblk1 V c 4 t) (iblk1 V c 5 t) (iblk1 V c 6 t) (iblk1 V c 7 t) (iblk1 V c 8 t) (iblk1 V c 9 t)) (iblk1 V c 10 t) (iblk1 V c 11 t) (ix2 p q)
        = G (ix2 ⟨2000 * t.val + p.val, h⟩ q))
    (t : Fin cfg1.N) :
    (dat1 V c).flushed 17 t = ((cfg1.win 17).blk t).view.read (Elt F) G := by
  show (cfg1.win 17).cut (grid1.coords t) ((dat1 V c).after 17 t) = _
  rw [after1_17]
  refine (congrArg ((cfg1.win 17).cut (grid1.coords t))
    (stored17 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t))).trans ?_
  exact slab_of17 t (k1_pay5 (k1_pay1 (iblk1 V c 1 t)) (k1_pay4 (iblk1 V c 0 t) (iblk1 V c 1 t) (iblk1 V c 2 t) (iblk1 V c 4 t) (iblk1 V c 5 t) (iblk1 V c 6 t) (iblk1 V c 7 t) (iblk1 V c 8 t) (iblk1 V c 9 t)) (iblk1 V c 10 t) (iblk1 V c 11 t)) G
    (fun p q => hG t p q (row_lt t p))

/-- THE SECOND OUTPUT after the launch is `G`. -/
theorem msgs_final (c : Dev nD) (G : Vec F S800000x64 .f32)
    (hG : ∀ (t : Fin cfg1.N) (p : Fin 2000) (q : Fin 64) (h : 2000 * t.val + p.val < 800000),
      k1_pay5 (k1_pay1 (iblk1 V c 1 t)) (k1_pay4 (iblk1 V c 0 t) (iblk1 V c 1 t) (iblk1 V c 2 t) (iblk1 V c 4 t) (iblk1 V c 5 t) (iblk1 V c 6 t) (iblk1 V c 7 t) (iblk1 V c 8 t) (iblk1 V c 9 t)) (iblk1 V c 10 t) (iblk1 V c 11 t) (ix2 p q)
        = G (ix2 ⟨2000 * t.val + p.val, h⟩ q)) :
    (dat1 V c).arrAt 17 cfg1.N = G :=
  (dat1 V c).arrAt_eq_of_cover 17 G (fun t _ => written17 V c G hG t) covered17

/-! ## The third output, the vector messages (192 columns) -/

/-- One whole-block store, every operand loaded whole: the block after the body is the body's value on the blocks. -/
theorem stored18 (x0 : Vec F S2000x16 .f32) (x1 : Vec F S2000x64 .f32) (x2 : Vec F S2000x64 .f32) (x3 : Vec F S2000x3 .f32) (x4 : Vec F S16x64 .f32) (x5 : Vec F S1x64 .f32) (x6 : Vec F S64x64 .f32) (x7 : Vec F S1x64 .f32) (x8 : Vec F S192x64 .f32) (x9 : Vec F S1x64 .f32) (x10 : Vec F S64x64 .f32) (x11 : Vec F S1x64 .f32) (x12 : Vec F S192x64 .f32) (x13 : Vec F S1x64 .f32) (x14 : Vec F S64x64 .f32) (x15 : Vec F S1x64 .f32) :
    out1_18 x0 x1 x2 x3 x4 x5 x6 x7 x8 x9 x10 x11 x12 x13 x14 x15
      = k1_pay6 x3 (k1_pay3 x0 x1 x2 x4 x5 x6 x7) x12 x13 x14 x15 := by
  unfold out1_18
  rw [View.canon_unit_zero zero_offsets]
  simp only [View.ld_unit_zero (S := S2000x3) zero_offsets, View.ld_unit_zero (S := S2000x16) zero_offsets,
    View.ld_unit_zero (S := S2000x64) zero_offsets, View.ld_unit_zero (S := S16x64) zero_offsets,
    View.ld_unit_zero (S := S1x64) zero_offsets, View.ld_unit_zero (S := S64x64) zero_offsets,
    View.ld_unit_zero (S := S192x64) zero_offsets]

/-- A block whose entry `(p, q)` is `G (2000 t + p, q)` is slab `t` of `G`. -/
theorem slab_of18 (t : Fin cfg1.N) (X : Vec F S2000x192 .f32) (G : Vec F S800000x192 .f32)
    (h : ∀ (p : Fin 2000) (q : Fin 192), X (ix2 p q) = G (ix2 ⟨2000 * t.val + p.val, row_lt t p⟩ q)) :
    (cfg1.win 18).cut (grid1.coords t) X = ((cfg1.win 18).blk t).view.read (Elt F) G := by
  obtain ⟨e0, e1⟩ := slab_index18 t
  funext j
  obtain ⟨p, q, rfl⟩ : ∃ (p : Fin 2000) (q : Fin 192), j = ix2 p q := ⟨j 0, j 1, eq_ix2 j⟩
  show X (ix2 p q) = G (((cfg1.win 18).blk t).view.emb (ix2 p q))
  refine (h p q).trans (congrArg G ?_)
  funext a
  apply Fin.ext
  match a with
  | ⟨0, _⟩ => show 2000 * t.val + p.val = win1_18.index t (0 : Fin 2) * 2000 + 1 * p.val; omega
  | ⟨1, _⟩ => show q.val = win1_18.index t (1 : Fin 2) * 192 + 1 * q.val; omega

/-- Membership in slab `t`, axis by axis. -/
theorem mem_slab18 (t : Fin cfg1.N) (i : S800000x192.Idx) :
    i ∈ ((cfg1.win 18).blk t).view.set ↔ ∀ a : Fin 2, win1_18.index t a * S2000x192.size a ≤ (i a).val ∧ (i a).val < win1_18.index t a * S2000x192.size a + S2000x192.size a := by
  show i ∈ ((View.whole main_v26_2).slice (win1_18.rect t)).set ↔ _
  rw [View.set_slice_whole, Rect.mem_set_unit]
  exact Iff.rfl

/-- Row `r` is in slab `r / 2000`, which is written back. -/
theorem covered18 (i : S800000x192.Idx) :
    ∃ t : Fin cfg1.N, (cfg1.win 18).flush t = true ∧ i ∈ ((cfg1.win 18).blk t).view.set := by
  have hN : cfg1.N = 400 := N_1
  have hi0 : (i 0).val < 800000 := (i 0).isLt
  have hi1 : (i 1).val < 192 := (i 1).isLt
  have hlt : (i 0).val / 2000 < cfg1.N := by omega
  obtain ⟨t, ht⟩ : ∃ t : Fin cfg1.N, t.val = (i 0).val / 2000 := ⟨⟨(i 0).val / 2000, hlt⟩, rfl⟩
  obtain ⟨e0, e1⟩ := slab_index18 t
  refine ⟨t, flush1_18 t, ?_⟩
  rw [mem_slab18]
  intro a
  match a with
  | ⟨0, _⟩ => show win1_18.index t (0 : Fin 2) * 2000 ≤ (i 0).val ∧ (i 0).val < win1_18.index t (0 : Fin 2) * 2000 + 2000; omega
  | ⟨1, _⟩ => show win1_18.index t (1 : Fin 2) * 192 ≤ (i 1).val ∧ (i 1).val < win1_18.index t (1 : Fin 2) * 192 + 192; omega

/-- What point `t` writes back to the third output is slab `t` of `G`. -/
theorem written18 (c : Dev nD) (G : Vec F S800000x192 .f32)
    (hG : ∀ (t : Fin cfg1.N) (p : Fin 2000) (q : Fin 192) (h : 2000 * t.val + p.val < 800000),
      k1_pay6 (iblk1 V c 3 t) (k1_pay3 (iblk1 V c 0 t) (iblk1 V c 1 t) (iblk1 V c 2 t) (iblk1 V c 4 t) (iblk1 V c 5 t) (iblk1 V c 6 t) (iblk1 V c 7 t)) (iblk1 V c 12 t) (iblk1 V c 13 t) (iblk1 V c 14 t) (iblk1 V c 15 t) (ix2 p q)
        = G (ix2 ⟨2000 * t.val + p.val, h⟩ q))
    (t : Fin cfg1.N) :
    (dat1 V c).flushed 18 t = ((cfg1.win 18).blk t).view.read (Elt F) G := by
  show (cfg1.win 18).cut (grid1.coords t) ((dat1 V c).after 18 t) = _
  rw [after1_18]
  refine (congrArg ((cfg1.win 18).cut (grid1.coords t))
    (stored18 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t))).trans ?_
  exact slab_of18 t (k1_pay6 (iblk1 V c 3 t) (k1_pay3 (iblk1 V c 0 t) (iblk1 V c 1 t) (iblk1 V c 2 t) (iblk1 V c 4 t) (iblk1 V c 5 t) (iblk1 V c 6 t) (iblk1 V c 7 t)) (iblk1 V c 12 t) (iblk1 V c 13 t) (iblk1 V c 14 t) (iblk1 V c 15 t)) G
    (fun p q => hG t p q (row_lt t p))

/-- THE THIRD OUTPUT after the launch is `G`. -/
theorem msgv_final (c : Dev nD) (G : Vec F S800000x192 .f32)
    (hG : ∀ (t : Fin cfg1.N) (p : Fin 2000) (q : Fin 192) (h : 2000 * t.val + p.val < 800000),
      k1_pay6 (iblk1 V c 3 t) (k1_pay3 (iblk1 V c 0 t) (iblk1 V c 1 t) (iblk1 V c 2 t) (iblk1 V c 4 t) (iblk1 V c 5 t) (iblk1 V c 6 t) (iblk1 V c 7 t)) (iblk1 V c 12 t) (iblk1 V c 13 t) (iblk1 V c 14 t) (iblk1 V c 15 t) (ix2 p q)
        = G (ix2 ⟨2000 * t.val + p.val, h⟩ q)) :
    (dat1 V c).arrAt 18 cfg1.N = G :=
  (dat1 V c).arrAt_eq_of_cover 18 G (fun t _ => written18 V c G hG t) covered18

end Cert.KernelIdeal.EdgeRegion

end
-- ==== Proof.NodeEntry.lean ====
/- Which contents the node-embedding region and the node-update region find in the arrays they read, and where the
   three results of the program end.

   The program alternates host operations and three kernel regions. The buffer contents at each boundary are a fold
   from the launch memory. Here that fold is evaluated at particular buffers: every array read by the first and by
   the last region, and the three result buffers, each as a plain term of the launch memory and of the output arrays
   of earlier regions. Those output arrays stay unnamed here: what they hold is the business of the modules on each
   region's values. Nothing below is arithmetic; every step is one of three facts: a host operation's result is its
   function of its operands, a buffer nobody writes keeps its contents, and a region changes only its own outputs. -/
import proofs.«123328_j6777458393829_1_alg».proof.Proof.Gen.KernelIdeal.Frame
import Idealize.ShloMosaic.Lib.StableHlo.Run

set_option maxRecDepth 16384

noncomputable section

namespace Cert.KernelIdeal.NodeEntry

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The second row of a two-row table of edge endpoints, as a vector: the receiving node of every edge. -/
def rowOne (e : IVec S2x800000 32) : IVec S800000 32 :=
  shapeCast S800000 (extractStridedSlice S1x800000 ![1, 0] e slices_S2x800000_S1x800000_1_0) shapeCasts_S1x800000_S800000

variable (m : (ℓ : Loc nD τ sig) → Buf (Elt F) ℓ) (ρ : Dev nD → PrngReg)

/-- A stretch of host operations leaves a buffer alone when none of them has it as its result: the stretch is
    walked operation by operation and each result reference is told apart from the buffer. -/
local macro "host_keeps " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ## The first region's entry: the contents after the first host stretch -/

/-- The node features reach the first region as launched. -/
theorem embed_arg0 (c : Dev nD) : V1 m ρ c main_arg0 = m ((c : Thread nD τ).loc main_arg0) :=
  calc V1 m ρ c main_arg0
    _ = W0 m ρ c (Proc.devRef .tc main_arg0) := by host_keeps hostOps0
    _ = m ((c : Thread nD τ).loc main_arg0) := rfl

/-- The embedding weights reach the first region as launched. -/
theorem embed_arg4 (c : Dev nD) : V1 m ρ c main_arg4 = m ((c : Thread nD τ).loc main_arg4) :=
  calc V1 m ρ c main_arg4
    _ = W0 m ρ c (Proc.devRef .tc main_arg4) := by host_keeps hostOps0
    _ = m ((c : Thread nD τ).loc main_arg4) := rfl

/-- The embedding bias reaches the first region as a one-row table: the launched vector under a change of shape. -/
theorem embed_bias (c : Dev nD) :
    V1 m ρ c main_v4 = shapeCast S1x64 (m ((c : Thread nD τ).loc main_arg5)) shapeCasts_S64_S1x64 := by
  show StableHlo.after hostOps0 (W0 m ρ c) (Proc.devRef .tc main_v4) = _
  after_results
  rfl

/-! ## Buffers carried from the launch to the last host stretch -/

/-- The vector of receiving nodes, cut from the endpoint table before the first region, is still there when the
    middle region has ended: neither region has it among its arrays and the second host stretch does not write it. -/
theorem dst_row (c : Dev nD) :
    W4 m ρ c (Proc.devRef .tc main_v3) = rowOne (m ((c : Thread nD τ).loc main_arg1)) :=
  calc W4 m ρ c (Proc.devRef .tc main_v3)
    _ = W3 m ρ c (Proc.devRef .tc main_v3) := W4_of_ne m ρ c main_v3 (by decide)
    _ = W2 m ρ c (Proc.devRef .tc main_v3) := by host_keeps hostOps1
    _ = W1 m ρ c (Proc.devRef .tc main_v3) := W2_of_ne m ρ c main_v3 (by decide)
    _ = rowOne (m ((c : Thread nD τ).loc main_arg1)) := by
        show StableHlo.after hostOps0 (W0 m ρ c) (Proc.devRef .tc main_v3) = _
        after_results
        rfl

/-- An argument that no region before the last has among its arrays, and no host operation writes, is at the middle
    region's exit what it was at launch. Four instances: the update weights and the two update biases. -/
theorem carried_arg14 (c : Dev nD) : W4 m ρ c (Proc.devRef .tc main_arg14) = m ((c : Thread nD τ).loc main_arg14) :=
  calc W4 m ρ c (Proc.devRef .tc main_arg14)
    _ = W3 m ρ c (Proc.devRef .tc main_arg14) := W4_of_ne m ρ c main_arg14 (by decide)
    _ = W2 m ρ c (Proc.devRef .tc main_arg14) := by host_keeps hostOps1
    _ = W1 m ρ c (Proc.devRef .tc main_arg14) := W2_of_ne m ρ c main_arg14 (by decide)
    _ = W0 m ρ c (Proc.devRef .tc main_arg14) := by host_keeps hostOps0
    _ = m ((c : Thread nD τ).loc main_arg14) := rfl
theorem carried_arg15 (c : Dev nD) : W4 m ρ c (Proc.devRef .tc main_arg15) = m ((c : Thread nD τ).loc main_arg15) :=
  calc W4 m ρ c (Proc.devRef .tc main_arg15)
    _ = W3 m ρ c (Proc.devRef .tc main_arg15) := W4_of_ne m ρ c main_arg15 (by decide)
    _ = W2 m ρ c (Proc.devRef .tc main_arg15) := by host_keeps hostOps1
    _ = W1 m ρ c (Proc.devRef .tc main_arg15) := W2_of_ne m ρ c main_arg15 (by decide)
    _ = W0 m ρ c (Proc.devRef .tc main_arg15) := by host_keeps hostOps0
    _ = m ((c : Thread nD τ).loc main_arg15) := rfl
theorem carried_arg16 (c : Dev nD) : W4 m ρ c (Proc.devRef .tc main_arg16) = m ((c : Thread nD τ).loc main_arg16) :=
  calc W4 m ρ c (Proc.devRef .tc main_arg16)
    _ = W3 m ρ c (Proc.devRef .tc main_arg16) := W4_of_ne m ρ c main_arg16 (by decide)
    _ = W2 m ρ c (Proc.devRef .tc main_arg16) := by host_keeps hostOps1
    _ = W1 m ρ c (Proc.devRef .tc main_arg16) := W2_of_ne m ρ c main_arg16 (by decide)
    _ = W0 m ρ c (Proc.devRef .tc main_arg16) := by host_keeps hostOps0
    _ = m ((c : Thread nD τ).loc main_arg16) := rfl
theorem carried_arg17 (c : Dev nD) : W4 m ρ c (Proc.devRef .tc main_arg17) = m ((c : Thread nD τ).loc main_arg17) :=
  calc W4 m ρ c (Proc.devRef .tc main_arg17)
    _ = W3 m ρ c (Proc.devRef .tc main_arg17) := W4_of_ne m ρ c main_arg17 (by decide)
    _ = W2 m ρ c (Proc.devRef .tc main_arg17) := by host_keeps hostOps1
    _ = W1 m ρ c (Proc.devRef .tc main_arg17) := W2_of_ne m ρ c main_arg17 (by decide)
    _ = W0 m ρ c (Proc.devRef .tc main_arg17) := by host_keeps hostOps0
    _ = m ((c : Thread nD τ).loc main_arg17) := rfl

/-- The middle region's three outputs at its exit, at their own buffers' names. -/
theorem edge_out0 (c : Dev nD) : W4 m ρ c (Proc.devRef .tc main_v26_0) = (dat1 (V3 m ρ) c).arrAt 16 cfg1.N :=
  W4_arr m ρ c 16
theorem edge_out1 (c : Dev nD) : W4 m ρ c (Proc.devRef .tc main_v26_1) = (dat1 (V3 m ρ) c).arrAt 17 cfg1.N :=
  W4_arr m ρ c 17
theorem edge_out2 (c : Dev nD) : W4 m ρ c (Proc.devRef .tc main_v26_2) = (dat1 (V3 m ρ) c).arrAt 18 cfg1.N :=
  W4_arr m ρ c 18

/-! ## The last region's entry: the contents after the last host stretch -/

/-- The node embedding the last region reads is the first region's output, untouched since that region ended. -/
theorem update_f (c : Dev nD) : V5 m ρ c main_v5 = (dat0 (V1 m ρ) c).arrAt 3 cfg0.N :=
  calc V5 m ρ c main_v5
    _ = W4 m ρ c (Proc.devRef .tc main_v5) := by host_keeps hostOps2
    _ = W3 m ρ c (Proc.devRef .tc main_v5) := W4_of_ne m ρ c main_v5 (by decide)
    _ = W2 m ρ c (Proc.devRef .tc main_v5) := by host_keeps hostOps1
    _ = (dat0 (V1 m ρ) c).arrAt 3 cfg0.N := W2_arr m ρ c 3

/-- The aggregated messages the last region reads: the middle region's message output, added row by row into a zero
    table at each edge's receiving node. -/
theorem update_agg (c : Dev nD) :
    V5 m ρ c main_v29 = Host.scatterAdd (F := F) scatter_S50000x64_S800000x1_S800000x64_1_0_0_1
      (broadcastInDim S50000x64 ![] bcast_S_S50000x64 (constant (F := F) S_ .f32 0x00000000#32))
      (broadcastInDim S800000x1 ![0] bcast_S800000_S800000x1_0 (rowOne (m ((c : Thread nD τ).loc main_arg1))))
      ((dat1 (V3 m ρ) c).arrAt 17 cfg1.N) := by
  show StableHlo.after hostOps2 (W4 m ρ c) (Proc.devRef .tc main_v29) = _
  after_results
  rw [dst_row m ρ c, edge_out1 m ρ c]

/-- The update weights reach the last region as launched. -/
theorem update_arg14 (c : Dev nD) : V5 m ρ c main_arg14 = m ((c : Thread nD τ).loc main_arg14) :=
  calc V5 m ρ c main_arg14
    _ = W4 m ρ c (Proc.devRef .tc main_arg14) := by host_keeps hostOps2
    _ = m ((c : Thread nD τ).loc main_arg14) := carried_arg14 m ρ c
theorem update_arg16 (c : Dev nD) : V5 m ρ c main_arg16 = m ((c : Thread nD τ).loc main_arg16) :=
  calc V5 m ρ c main_arg16
    _ = W4 m ρ c (Proc.devRef .tc main_arg16) := by host_keeps hostOps2
    _ = m ((c : Thread nD τ).loc main_arg16) := carried_arg16 m ρ c

/-- The two update biases reach the last region as one-row tables: the launched vectors under a change of shape. -/
theorem update_bias35 (c : Dev nD) :
    V5 m ρ c main_v35 = shapeCast S1x64 (m ((c : Thread nD τ).loc main_arg15)) shapeCasts_S64_S1x64 := by
  show StableHlo.after hostOps2 (W4 m ρ c) (Proc.devRef .tc main_v35) = _
  after_results
  rw [carried_arg15 m ρ c]
  rfl
theorem update_bias36 (c : Dev nD) :
    V5 m ρ c main_v36 = shapeCast S1x64 (m ((c : Thread nD τ).loc main_arg17)) shapeCasts_S64_S1x64 := by
  show StableHlo.after hostOps2 (W4 m ρ c) (Proc.devRef .tc main_v36) = _
  after_results
  rw [carried_arg17 m ρ c]
  rfl

/-! ## The three results, at the last boundary -/

/-- The updated node embedding is the last region's output. -/
theorem result_h0 (c : Dev nD) : W6 m ρ c (Proc.devRef .tc main_v37) = (dat2 (V5 m ρ) c).arrAt 6 cfg2.N :=
  W6_arr m ρ c 6

/-- The edge embedding is the middle region's first output: the last stretch and the last region pass it by. -/
theorem result_ea (c : Dev nD) : W6 m ρ c (Proc.devRef .tc main_v26_0) = (dat1 (V3 m ρ) c).arrAt 16 cfg1.N :=
  calc W6 m ρ c (Proc.devRef .tc main_v26_0)
    _ = W5 m ρ c (Proc.devRef .tc main_v26_0) := W6_of_ne m ρ c main_v26_0 (by decide)
    _ = W4 m ρ c (Proc.devRef .tc main_v26_0) := by host_keeps hostOps2
    _ = (dat1 (V3 m ρ) c).arrAt 16 cfg1.N := edge_out0 m ρ c

/-- The vector aggregate: the middle region's vector-message output, read as three channels of 64, added edge by
    edge into a zero table at the receiving node, the last two axes then exchanged. -/
theorem result_v0 (c : Dev nD) :
    W6 m ρ c (Proc.devRef .tc main_v34) = transpose S50000x64x3 [0, 2, 1]
      (Host.scatterAdd (F := F) scatter_S50000x3x64_S800000x1_S800000x3x64_12_0_0_1
        (broadcastInDim S50000x3x64 ![] bcast_S_S50000x3x64 (constant (F := F) S_ .f32 0x00000000#32))
        (broadcastInDim S800000x1 ![0] bcast_S800000_S800000x1_0 (rowOne (m ((c : Thread nD τ).loc main_arg1))))
        (shapeCast S800000x3x64 ((dat1 (V3 m ρ) c).arrAt 18 cfg1.N) shapeCasts_S800000x192_S800000x3x64))
      transposes_S50000x3x64_S50000x64x3_0_2_1 := by
  refine (W6_of_ne m ρ c main_v34 (by decide)).trans ?_
  show StableHlo.after hostOps2 (W4 m ρ c) (Proc.devRef .tc main_v34) = _
  after_results
  rw [dst_row m ρ c, edge_out2 m ρ c]
  rfl

end Cert.KernelIdeal.NodeEntry

end
-- ==== Proof.EdgeEntry.lean ====
import proofs.«123328_j6777458393829_1_alg».proof.Proof.Gen.KernelIdeal.Frame
import Idealize.ShloMosaic.Lib.StableHlo.Run

/-!
# The contents of the edge region's input arrays

The program runs a node-embedding region, then a stretch of tensor operations, then the edge region. This module
says, for each of the sixteen arrays the edge region reads, what that array holds when the region starts, as a
term of the launch memory and of the node-embedding region's one output (which stays an unopened term here).

* Eight of them are arguments of the program. Nothing before the edge region writes an argument, so each still
  holds its launch contents.
* Six are bias vectors of length 64 viewed as one-row matrices: the same 64 numbers of the launch memory, recast.
* Two are gathers of rows of the node embedding. The row numbers are a row of the two-row edge table (row 0 for
  the first gather, row 1 for the second), with every negative entry raised by the node count 50000, written as
  a column.

Only bookkeeping happens here: each fact follows one buffer backwards through the stretches of operations (an
operation's result is its function of its operands; a buffer an operation does not write is unchanged) and through
the node-embedding region (which changes its own output array only).
-/

set_option maxRecDepth 16384

noncomputable section

namespace Cert.KernelIdeal.EdgeEntry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

variable (m : (ℓ : Loc nD τ sig) → Buf (Elt F) ℓ) (ρ : Dev nD → PrngReg)

/-! ## The index columns -/

/-- Row 0 of a two-row integer table, as a vector. -/
def row0 (x : IVec S2x800000 32) : IVec S800000 32 :=
  shapeCast S800000 (extractStridedSlice S1x800000 ![0, 0] x slices_S2x800000_S1x800000_0_0) shapeCasts_S1x800000_S800000

/-- Row 1 of a two-row integer table, as a vector. -/
def row1 (x : IVec S2x800000 32) : IVec S800000 32 :=
  shapeCast S800000 (extractStridedSlice S1x800000 ![1, 0] x slices_S2x800000_S1x800000_1_0) shapeCasts_S1x800000_S800000

/-- A vector of row numbers made non-negative the way a wrapped lookup does it (an entry below zero is raised by
    50000, any other entry is kept), and laid out as a one-column matrix. -/
def wrapped (r : IVec S800000 32) : IVec S800000x1 32 :=
  broadcastInDim (s := S800000) S800000x1 ![0] bcast_S800000_S800000x1_0
    (select (cmpi .slt r (broadcastInDim (s := S_) S800000 ![] bcast_S_S800000 (constantI S_ 32 0#32)))
      (addi r (broadcastInDim (s := S_) S800000 ![] bcast_S_S800000 (constantI S_ 32 50000#32)))
      r)

/-! ## A buffer that nothing writes -/

/-- Proves that no operation of a literal stretch writes a literal reference: the stretch is walked, and each
    operation's single result reference is told apart from the given one. -/
local macro "no_write " ops:ident : tactic =>
  `(tactic| (refine List.forall_iff_forall_mem.mp ?_
             simp only [$ops:ident, List.flatten_cons, List.flatten_nil, List.append_nil, List.cons_append,
               List.nil_append, List.Forall, StableHlo.nullary_writes, StableHlo.unary_writes,
               StableHlo.binary_writes, StableHlo.ternary_writes, StableHlo.quaternary_writes,
               StableHlo.reshape_writes, StableHlo.binaryIndexed_writes, Finset.mem_singleton]
             repeat' apply And.intro
             all_goals exact StableHlo.devRef_ne_of_ne (by decide)))

/-- A buffer that is none of the first region's arrays and that the first stretch does not write holds, when the
    first region is over, what the launch put there. -/
theorem exit0_of_launch (c : Dev nD) (b : Ref sig .tc) (hr : ∀ w, Pipeline.arrRef spec0 w ≠ b)
    (h0 : ∀ op ∈ (hostOps0 : List (HloOp τ sig (Elt F))), Proc.devRef .tc b ∉ op.writes) :
    W2 m ρ c (Proc.devRef .tc b) = m ((c : Thread nD τ).loc b) :=
  calc W2 m ρ c (Proc.devRef .tc b)
    _ = W1 m ρ c (Proc.devRef .tc b) := W2_of_ne m ρ c b hr
    _ = W0 m ρ c (Proc.devRef .tc b) := StableHlo.after_of_forall_not_mem _ _ h0
    _ = m ((c : Thread nD τ).loc b) := rfl

/-- If moreover the second stretch does not write it, it still holds that when the edge region starts. -/
theorem entry_of_launch (c : Dev nD) (b : Ref sig .tc)
    (h1 : ∀ op ∈ (hostOps1 : List (HloOp τ sig (Elt F))), Proc.devRef .tc b ∉ op.writes)
    (hr : ∀ w, Pipeline.arrRef spec0 w ≠ b)
    (h0 : ∀ op ∈ (hostOps0 : List (HloOp τ sig (Elt F))), Proc.devRef .tc b ∉ op.writes) :
    V3 m ρ c b = m ((c : Thread nD τ).loc b) :=
  calc W3 m ρ c (Proc.devRef .tc b)
    _ = W2 m ρ c (Proc.devRef .tc b) := StableHlo.after_of_forall_not_mem _ _ h1
    _ = m ((c : Thread nD τ).loc b) := exit0_of_launch m ρ c b hr h0

/-! ## The eight argument arrays -/

theorem entry_arg2 (c : Dev nD) : V3 m ρ c main_arg2 = m ((c : Thread nD τ).loc main_arg2) :=
  entry_of_launch m ρ c main_arg2 (by no_write hostOps1) (by decide) (by no_write hostOps0)

theorem entry_arg3 (c : Dev nD) : V3 m ρ c main_arg3 = m ((c : Thread nD τ).loc main_arg3) :=
  entry_of_launch m ρ c main_arg3 (by no_write hostOps1) (by decide) (by no_write hostOps0)

theorem entry_arg6 (c : Dev nD) : V3 m ρ c main_arg6 = m ((c : Thread nD τ).loc main_arg6) :=
  entry_of_launch m ρ c main_arg6 (by no_write hostOps1) (by decide) (by no_write hostOps0)

theorem entry_arg8 (c : Dev nD) : V3 m ρ c main_arg8 = m ((c : Thread nD τ).loc main_arg8) :=
  entry_of_launch m ρ c main_arg8 (by no_write hostOps1) (by decide) (by no_write hostOps0)

theorem entry_arg10 (c : Dev nD) : V3 m ρ c main_arg10 = m ((c : Thread nD τ).loc main_arg10) :=
  entry_of_launch m ρ c main_arg10 (by no_write hostOps1) (by decide) (by no_write hostOps0)

theorem entry_arg12 (c : Dev nD) : V3 m ρ c main_arg12 = m ((c : Thread nD τ).loc main_arg12) :=
  entry_of_launch m ρ c main_arg12 (by no_write hostOps1) (by decide) (by no_write hostOps0)

theorem entry_arg18 (c : Dev nD) : V3 m ρ c main_arg18 = m ((c : Thread nD τ).loc main_arg18) :=
  entry_of_launch m ρ c main_arg18 (by no_write hostOps1) (by decide) (by no_write hostOps0)

theorem entry_arg20 (c : Dev nD) : V3 m ρ c main_arg20 = m ((c : Thread nD τ).loc main_arg20) :=
  entry_of_launch m ρ c main_arg20 (by no_write hostOps1) (by decide) (by no_write hostOps0)

/-! ## The six bias rows

Each is written by one recast in the second stretch, from an argument that nothing before has touched. -/

theorem entry_v20 (c : Dev nD) :
    V3 m ρ c main_v20
      = shapeCast (s := S64) (α := Elt F .f32) S1x64 (m ((c : Thread nD τ).loc main_arg7)) shapeCasts_S64_S1x64 := by
  have h : W3 m ρ c (Proc.devRef .tc main_v20)
      = shapeCast (s := S64) (α := Elt F .f32) S1x64 (W2 m ρ c (Proc.devRef .tc main_arg7)) shapeCasts_S64_S1x64 := by
    show StableHlo.after hostOps1 (W2 m ρ c) (Proc.devRef .tc main_v20) = _
    after_results
    rfl
  exact h.trans (congrArg (fun x => shapeCast (s := S64) (α := Elt F .f32) S1x64 x shapeCasts_S64_S1x64)
    (exit0_of_launch m ρ c main_arg7 (by decide) (by no_write hostOps0)))

theorem entry_v21 (c : Dev nD) :
    V3 m ρ c main_v21
      = shapeCast (s := S64) (α := Elt F .f32) S1x64 (m ((c : Thread nD τ).loc main_arg9)) shapeCasts_S64_S1x64 := by
  have h : W3 m ρ c (Proc.devRef .tc main_v21)
      = shapeCast (s := S64) (α := Elt F .f32) S1x64 (W2 m ρ c (Proc.devRef .tc main_arg9)) shapeCasts_S64_S1x64 := by
    show StableHlo.after hostOps1 (W2 m ρ c) (Proc.devRef .tc main_v21) = _
    after_results
    rfl
  exact h.trans (congrArg (fun x => shapeCast (s := S64) (α := Elt F .f32) S1x64 x shapeCasts_S64_S1x64)
    (exit0_of_launch m ρ c main_arg9 (by decide) (by no_write hostOps0)))

theorem entry_v22 (c : Dev nD) :
    V3 m ρ c main_v22
      = shapeCast (s := S64) (α := Elt F .f32) S1x64 (m ((c : Thread nD τ).loc main_arg11)) shapeCasts_S64_S1x64 := by
  have h : W3 m ρ c (Proc.devRef .tc main_v22)
      = shapeCast (s := S64) (α := Elt F .f32) S1x64 (W2 m ρ c (Proc.devRef .tc main_arg11)) shapeCasts_S64_S1x64 := by
    show StableHlo.after hostOps1 (W2 m ρ c) (Proc.devRef .tc main_v22) = _
    after_results
    rfl
  exact h.trans (congrArg (fun x => shapeCast (s := S64) (α := Elt F .f32) S1x64 x shapeCasts_S64_S1x64)
    (exit0_of_launch m ρ c main_arg11 (by decide) (by no_write hostOps0)))

theorem entry_v23 (c : Dev nD) :
    V3 m ρ c main_v23
      = shapeCast (s := S64) (α := Elt F .f32) S1x64 (m ((c : Thread nD τ).loc main_arg13)) shapeCasts_S64_S1x64 := by
  have h : W3 m ρ c (Proc.devRef .tc main_v23)
      = shapeCast (s := S64) (α := Elt F .f32) S1x64 (W2 m ρ c (Proc.devRef .tc main_arg13)) shapeCasts_S64_S1x64 := by
    show StableHlo.after hostOps1 (W2 m ρ c) (Proc.devRef .tc main_v23) = _
    after_results
    rfl
  exact h.trans (congrArg (fun x => shapeCast (s := S64) (α := Elt F .f32) S1x64 x shapeCasts_S64_S1x64)
    (exit0_of_launch m ρ c main_arg13 (by decide) (by no_write hostOps0)))

theorem entry_v24 (c : Dev nD) :
    V3 m ρ c main_v24
      = shapeCast (s := S64) (α := Elt F .f32) S1x64 (m ((c : Thread nD τ).loc main_arg19)) shapeCasts_S64_S1x64 := by
  have h : W3 m ρ c (Proc.devRef .tc main_v24)
      = shapeCast (s := S64) (α := Elt F .f32) S1x64 (W2 m ρ c (Proc.devRef .tc main_arg19)) shapeCasts_S64_S1x64 := by
    show StableHlo.after hostOps1 (W2 m ρ c) (Proc.devRef .tc main_v24) = _
    after_results
    rfl
  exact h.trans (congrArg (fun x => shapeCast (s := S64) (α := Elt F .f32) S1x64 x shapeCasts_S64_S1x64)
    (exit0_of_launch m ρ c main_arg19 (by decide) (by no_write hostOps0)))

theorem entry_v25 (c : Dev nD) :
    V3 m ρ c main_v25
      = shapeCast (s := S64) (α := Elt F .f32) S1x64 (m ((c : Thread nD τ).loc main_arg21)) shapeCasts_S64_S1x64 := by
  have h : W3 m ρ c (Proc.devRef .tc main_v25)
      = shapeCast (s := S64) (α := Elt F .f32) S1x64 (W2 m ρ c (Proc.devRef .tc main_arg21)) shapeCasts_S64_S1x64 := by
    show StableHlo.after hostOps1 (W2 m ρ c) (Proc.devRef .tc main_v25) = _
    after_results
    rfl
  exact h.trans (congrArg (fun x => shapeCast (s := S64) (α := Elt F .f32) S1x64 x shapeCasts_S64_S1x64)
    (exit0_of_launch m ρ c main_arg21 (by decide) (by no_write hostOps0)))

/-! ## The two rows of the edge table

The first stretch cuts each row out of the table and flattens it; the first region does not touch the result. -/

theorem rows_of_index0 (c : Dev nD) :
    W2 m ρ c (Proc.devRef .tc main_v1) = row0 (m ((c : Thread nD τ).loc main_arg1)) := by
  have h : W1 m ρ c (Proc.devRef .tc main_v1) = row0 (W0 m ρ c (Proc.devRef .tc main_arg1)) := by
    show StableHlo.after hostOps0 (W0 m ρ c) (Proc.devRef .tc main_v1) = _
    after_results
    rfl
  exact (W2_of_ne m ρ c main_v1 (by decide)).trans h

theorem rows_of_index1 (c : Dev nD) :
    W2 m ρ c (Proc.devRef .tc main_v3) = row1 (m ((c : Thread nD τ).loc main_arg1)) := by
  have h : W1 m ρ c (Proc.devRef .tc main_v3) = row1 (W0 m ρ c (Proc.devRef .tc main_arg1)) := by
    show StableHlo.after hostOps0 (W0 m ρ c) (Proc.devRef .tc main_v3) = _
    after_results
    rfl
  exact (W2_of_ne m ρ c main_v3 (by decide)).trans h

theorem rows_of_index (c : Dev nD) :
    W2 m ρ c (Proc.devRef .tc main_v1) = row0 (m ((c : Thread nD τ).loc main_arg1))
      ∧ W2 m ρ c (Proc.devRef .tc main_v3) = row1 (m ((c : Thread nD τ).loc main_arg1)) :=
  ⟨rows_of_index0 m ρ c, rows_of_index1 m ρ c⟩

/-! ## The two gathered arrays

The second stretch builds the wrapped column from a row of the table and gathers the rows of the first region's
output at it. The output array is what the first region's pipeline leaves; the row is the one found above. -/

theorem entry_src (c : Dev nD) :
    V3 m ρ c main_v12
      = Host.gather (α := Elt F .f32) gather_S50000x64_S800000x1_S800000x64_1_0_n_n_0_1_164
          ((dat0 (V1 m ρ) c).arrAt 3 cfg0.N) (wrapped (row0 (m ((c : Thread nD τ).loc main_arg1)))) := by
  have h : W3 m ρ c (Proc.devRef .tc main_v12)
      = Host.gather (α := Elt F .f32) gather_S50000x64_S800000x1_S800000x64_1_0_n_n_0_1_164
          (W2 m ρ c (Proc.devRef .tc main_v5)) (wrapped (W2 m ρ c (Proc.devRef .tc main_v1))) := by
    show StableHlo.after hostOps1 (W2 m ρ c) (Proc.devRef .tc main_v12) = _
    after_results
    rfl
  exact h.trans (congrArg₂
    (fun (x : Vec F S50000x64 .f32) (r : IVec S800000 32) =>
      Host.gather (α := Elt F .f32) gather_S50000x64_S800000x1_S800000x64_1_0_n_n_0_1_164 x (wrapped r))
    (W2_arr m ρ c 3) (rows_of_index0 m ρ c))

theorem entry_dst (c : Dev nD) :
    V3 m ρ c main_v19
      = Host.gather (α := Elt F .f32) gather_S50000x64_S800000x1_S800000x64_1_0_n_n_0_1_164
          ((dat0 (V1 m ρ) c).arrAt 3 cfg0.N) (wrapped (row1 (m ((c : Thread nD τ).loc main_arg1)))) := by
  have h : W3 m ρ c (Proc.devRef .tc main_v19)
      = Host.gather (α := Elt F .f32) gather_S50000x64_S800000x1_S800000x64_1_0_n_n_0_1_164
          (W2 m ρ c (Proc.devRef .tc main_v5)) (wrapped (W2 m ρ c (Proc.devRef .tc main_v3))) := by
    show StableHlo.after hostOps1 (W2 m ρ c) (Proc.devRef .tc main_v19) = _
    after_results
    rfl
  exact h.trans (congrArg₂
    (fun (x : Vec F S50000x64 .f32) (r : IVec S800000 32) =>
      Host.gather (α := Elt F .f32) gather_S50000x64_S800000x1_S800000x64_1_0_n_n_0_1_164 x (wrapped r))
    (W2_arr m ρ c 3) (rows_of_index1 m ρ c))

end Cert.KernelIdeal.EdgeEntry

end
-- ==== Proof.LibPlainDot.lean ====
/-
  A plain matrix product read at an index, on the extended reals.

  For the dimension numbers of an M×K by K×N product (contract the left operand's axis 1 with the right operand's axis 0,
  no batch axis) the vector unit's product into a zero accumulator, and the host's `dot_general`, both hold at (p, q)
  the sum over k of L[p,k] · R[k,q]. When the right operand is a stored [N, K] matrix transposed, the entry is the
  sum over k of L[p,k] · W[q,k]. Generic in the three extents.
-/
import Idealize.ShloMosaic.PureOps.Ideal.Laws
import Idealize.ShloMosaic.Lib.ValueIdx
import Idealize.ShloMosaic.Lib.ValueLayout

noncomputable section

open scoped BigOperators

namespace Cert.PlainDot

open Idealize.ShloMosaic Idealize.ShloMosaic.ValueIdx

variable {M K N : Nat}

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem lhs1 (i : (⟨2, ![M, N]⟩ : Shape).Idx) (q : (DotDims.plain M K N).contr.Idx) :
    ((DotDims.plain M K N).lhsIdx i q 1).val = (q ⟨0, Nat.lt_of_lt_of_eq Nat.one_pos (Eq.symm (rfl : (DotDims.plain M K N).contr.rank = 1))⟩).val :=
  (DotDims.plain M K N).lhsIdx_val_of_single rfl i q

theorem rhs0 (i : (⟨2, ![M, N]⟩ : Shape).Idx) (q : (DotDims.plain M K N).contr.Idx) :
    ((DotDims.plain M K N).rhsIdx i q 0).val = (q ⟨0, Nat.lt_of_lt_of_eq Nat.one_pos (Eq.symm (rfl : (DotDims.plain M K N).contr.rank = 1))⟩).val :=
  (DotDims.plain M K N).rhsIdx_val_of_single rfl i q

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction's sum re-indexed by its one coordinate. -/
theorem sum_contr {φ₁ φ₂ : FTy} (L : FVec Ideal ⟨2, ![M, K]⟩ φ₁) (R : FVec Ideal ⟨2, ![K, N]⟩ φ₂) (p : Fin M) (q : Fin N) :
    (∑ k : (DotDims.plain M K N).contr.Idx, L ((DotDims.plain M K N).lhsIdx (ix2 p q) k) * R ((DotDims.plain M K N).rhsIdx (ix2 p q) k))
      = ∑ k : Fin K, L (ix2 p k) * R (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs0 _ _
      | ⟨1, _⟩ => exact (lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs0 _ _).trans hk
      | ⟨1, _⟩ => exact rhs1 _ _)
  rw [el, er]

/-- The vector unit's product into the zero accumulator, at (p, q). -/
theorem matmul_zero_apply {φ₁ φ₂ : FTy} (prec : Option ContractPrecision) (L : FVec Ideal ⟨2, ![M, K]⟩ φ₁)
    (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) := by
  rw [Ideal.matmul_constant_zero_apply]
  exact sum_contr L R p q

/-- The host's product, at (p, q). -/
theorem dotGeneral_apply {φ₁ φ₂ : FTy} (prec : Option ContractPrecision) (sched : HostSchedule) (L : FVec Ideal ⟨2, ![M, K]⟩ φ₁)
    (R : FVec Ideal ⟨2, ![K, N]⟩ φ₂) (p : Fin M) (q : Fin N) :
    FloatOps.dotGeneral (DotDims.plain M K N) prec sched L R (ix2 p q) = ∑ k : Fin K, L (ix2 p k) * R (ix2 k q) := by
  rw [Ideal.dotGeneral_apply]
  exact sum_contr L R p q

/-- Against a stored [N, K] matrix transposed: the sum runs over the stored matrix's second coordinate. -/
theorem matmul_zero_transposed_apply {φ₁ φ₂ : FTy} (prec : Option ContractPrecision) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.matmul (DotDims.plain M K N) prec L (transpose ⟨2, ![K, N]⟩ [1, 0] W h) (constant ⟨2, ![M, N]⟩ .f32 0x00000000#32) (ix2 p q)
      = ∑ k : Fin K, L (ix2 p k) * W (ix2 q k) := by
  rw [matmul_zero_apply]
  refine Finset.sum_congr rfl fun k _ => ?_
  rw [transpose_ix2_apply]

theorem dotGeneral_transposed_apply {φ₁ φ₂ : FTy} (prec : Option ContractPrecision) (sched : HostSchedule) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.dotGeneral (DotDims.plain M K N) prec sched L (transpose ⟨2, ![K, N]⟩ [1, 0] W h) (ix2 p q)
      = ∑ k : Fin K, L (ix2 p k) * W (ix2 q k) := by
  rw [dotGeneral_apply]
  refine Finset.sum_congr rfl fun k _ => ?_
  rw [transpose_ix2_apply]

end Cert.PlainDot

end
-- ==== Proof.LibRowBias.lean ====
/-
  A bias row read at an index.

  A vector [n] laid out as a one-row matrix [1, n] holds at (0, j) the vector's entry j; and a one-row matrix [1, n]
  broadcast down M rows holds at (p, j) its entry (0, j). The host's form of the two together — a vector [n] broadcast to
  [1, n] and then to [M, n] — holds at (p, j) the vector's entry j. A scalar broadcast to any shape holds the scalar
  everywhere. Generic in the extents and the element type.
-/
import Idealize.ShloMosaic.Lib.Pipeline.Value
import Idealize.ShloMosaic.Lib.ValueIdx

noncomputable section

namespace Cert.RowBias

open Idealize.ShloMosaic Idealize.ShloMosaic.ValueIdx

variable {α : Type} {M n : Nat}

/-- A one-row matrix broadcast down the rows: every row is the one row. -/
theorem rows_apply (v : (⟨2, ![1, n]⟩ : Shape).Idx → α) (hb : (⟨2, ![1, n]⟩ : Shape).Broadcasts ⟨2, ![M, n]⟩) (p : Fin M) (j : Fin n) :
    broadcastTo ⟨2, ![M, n]⟩ v hb (ix2 p j) = v (ix2 (0 : Fin 1) j) :=
  broadcastTo_apply v hb (ix2 p j) (ix2 (0 : Fin 1) j) fun a => match a with
    | ⟨0, _⟩ => by show (0 : ℕ) = if (1 : ℕ) = 1 then 0 else _; rw [if_pos rfl]
    | ⟨1, _⟩ => by
        show j.val = if n = 1 then 0 else j.val
        have := j.isLt
        split <;> omega

/-- A vector reshaped to a one-row matrix: the row is the vector. -/
theorem ofVec_apply (b : (⟨1, ![n]⟩ : Shape).Idx → α) (h : (⟨1, ![n]⟩ : Shape).ShapeCasts ⟨2, ![1, n]⟩) (j : Fin n) :
    shapeCast ⟨2, ![1, n]⟩ b h (ix2 (0 : Fin 1) j) = b (ix1 j) :=
  shapeCast_apply b h (ix2 (0 : Fin 1) j) (ix1 j) (by
    rw [Shape.rowMajor_val_one, Shape.rowMajor_val_two]
    show j.val = 0 * n + j.val
    omega)

/-- The host's bias: a vector broadcast to one row and then down the rows. -/
theorem hostRows_apply (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![M, n]⟩ ![0, 1]) (p : Fin M) (j : Fin n) :
    broadcastInDim ⟨2, ![M, n]⟩ ![0, 1] h2 (broadcastInDim ⟨2, ![1, n]⟩ ![1] h1 b) (ix2 p j) = b (ix1 j) :=
  (broadcastInDim_apply ![0, 1] h2 _ (ix2 p j) (ix2 (0 : Fin 1) j) fun a => match a with
    | ⟨0, _⟩ => by show (0 : ℕ) = if (1 : ℕ) = 1 then 0 else _; rw [if_pos rfl]
    | ⟨1, _⟩ => by
        show j.val = if n = 1 then 0 else j.val
        have := j.isLt
        split <;> omega).trans
  (broadcastInDim_apply ![1] h1 b (ix2 (0 : Fin 1) j) (ix1 j) fun a => match a with
    | ⟨0, _⟩ => by
        show j.val = if n = 1 then 0 else j.val
        have := j.isLt
        split <;> omega)

/-- A scalar broadcast to a shape holds the scalar at every index. -/
theorem splat_apply {s : Shape} (x : (⟨0, ![]⟩ : Shape).Idx → α) (h : (⟨0, ![]⟩ : Shape).BroadcastsInDim s ![]) (i : s.Idx) :
    broadcastInDim s ![] h x i = x ix0 :=
  broadcastInDim_apply ![] h x i ix0 fun a => a.elim0

end Cert.RowBias

end
-- ==== Proof.LibMlpRows.lean ====
/-
  A multi-layer perceptron read row by row, on the extended reals.

  A dense layer acts on each row of its input independently: row p of `X · W + b` is the affine image of row p of `X`.
  So a network of dense layers and rectifiers applied to a block of rows of a matrix computes, on each row, what the same
  network applied to the whole matrix computes on that row. This file states the two layer forms — the vector unit's
  (a matrix product into a zero accumulator, the bias a stored one-row matrix broadcast down the
  rows, the rectifier a maximum with a splat zero) and the host's (`dot_general`, the bias a vector broadcast twice, the
  rectifier a maximum with a broadcast zero constant) — read at an index as ONE row function, `affine` and `relu`; and
  that a concatenation along the feature axis commutes with selecting a row. Generic in all extents.
-/
import Idealize.ShloMosaic.PureOps.Ideal.Laws
import Idealize.ShloMosaic.Lib.ValueIdx
import Idealize.ShloMosaic.Lib.ValueLayout
import Idealize.ShloMosaic.Lib.Pipeline.Value
import proofs.«123328_j6777458393829_1_alg».proof.Proof.LibPlainDot
import proofs.«123328_j6777458393829_1_alg».proof.Proof.LibRowBias

noncomputable section

open scoped BigOperators

namespace Cert.MlpRows

open Idealize.ShloMosaic Idealize.ShloMosaic.ValueIdx

variable {M M' K N C T : Nat}

/-! ## The row functions -/

/-- A dense layer on one row: entry j of `x · W + b`. -/
def affine (x : Fin K → EReal) (W : Fin K → Fin N → EReal) (b : Fin N → EReal) : Fin N → EReal :=
  fun j => (∑ k, x k * W k j) + b j

/-- The rectifier on one row. -/
def relu (y : Fin N → EReal) : Fin N → EReal := fun j => max (y j) 0

/-- Four dense layers with a rectifier after each of the first three. -/
def mlp4 {K0 K1 K2 K3 K4 : Nat} (x : Fin K0 → EReal)
    (W0 : Fin K0 → Fin K1 → EReal) (b0 : Fin K1 → EReal) (W1 : Fin K1 → Fin K2 → EReal) (b1 : Fin K2 → EReal)
    (W2 : Fin K2 → Fin K3 → EReal) (b2 : Fin K3 → EReal) (W3 : Fin K3 → Fin K4 → EReal) (b3 : Fin K4 → EReal) :
    Fin K4 → EReal :=
  affine (relu (affine (relu (affine (relu (affine x W0 b0)) W1 b1)) W2 b2)) W3 b3

/-! ## The vector unit's layer -/

/-- The product into the zero accumulator plus the stored bias row, at (p, q): the affine image of row p. -/
theorem unit_affine {φ₁ φ₂ : FTy} (X : FVec Ideal ⟨2, ![M, K]⟩ φ₁) (W : FVec Ideal ⟨2, ![K, N]⟩ φ₂)
    (b : FVec Ideal ⟨2, ![1, N]⟩ .f32) (prec : Option ContractPrecision)
    (hb : (⟨2, ![1, N]⟩ : Shape).Broadcasts ⟨2, ![M, N]⟩) (p : Fin M) (q : Fin N) :
    addf (matmul (DotDims.plain M K N) prec X W (constant ⟨2, ![M, N]⟩ .f32 0x00000000#32))
        (broadcastTo ⟨2, ![M, N]⟩ b hb) (ix2 p q)
      = affine (fun k => X (ix2 p k)) (fun k j => W (ix2 k j)) (fun j => b (ix2 (0 : Fin 1) j)) q := by
  show FloatOps.addf (FloatOps.matmul (DotDims.plain M K N) prec X W (constant ⟨2, ![M, N]⟩ .f32 0x00000000#32) (ix2 p q))
      (broadcastTo ⟨2, ![M, N]⟩ b hb (ix2 p q)) = _
  rw [Cert.PlainDot.matmul_zero_apply, Cert.RowBias.rows_apply]
  rfl

/-- The maximum with the splat zero word, at an index. -/
theorem unit_relu {s : Shape} (y : FVec Ideal s .f32) (i : s.Idx) :
    maximumf y (broadcast s (FloatOps.ofBits .f32 0x00000000#32)) i = max (y i) 0 := by
  show max (y i) (Ideal.ofBits .f32 0x00000000#32) = _
  rw [Ideal.ofBits_zero_f32]

/-! ## The host's layer -/

/-- `dot_general` plus the bias vector broadcast to a row and down the rows, at (p, q). -/
theorem host_affine {φ₁ φ₂ : FTy} (X : FVec Ideal ⟨2, ![M, K]⟩ φ₁) (W : FVec Ideal ⟨2, ![K, N]⟩ φ₂)
    (b : FVec Ideal ⟨1, ![N]⟩ .f32) (prec : Option ContractPrecision)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    addf (Host.dotGeneral (DotDims.plain M K N) prec X W)
        (broadcastInDim ⟨2, ![M, N]⟩ ![0, 1] h2 (broadcastInDim ⟨2, ![1, N]⟩ ![1] h1 b)) (ix2 p q)
      = affine (fun k => X (ix2 p k)) (fun k j => W (ix2 k j)) (fun j => b (ix1 j)) q := by
  show FloatOps.addf (FloatOps.dotGeneral (DotDims.plain M K N) prec .single X W (ix2 p q))
      (broadcastInDim ⟨2, ![M, N]⟩ ![0, 1] h2 (broadcastInDim ⟨2, ![1, N]⟩ ![1] h1 b) (ix2 p q)) = _
  rw [Cert.PlainDot.dotGeneral_apply, Cert.RowBias.hostRows_apply]
  rfl

/-- The maximum with the broadcast zero constant, at an index. -/
theorem host_relu {s : Shape} (y : FVec Ideal s .f32) (h0 : (⟨0, ![]⟩ : Shape).BroadcastsInDim s ![]) (i : s.Idx) :
    maximumf y (broadcastInDim s ![] h0 (constant ⟨0, ![]⟩ .f32 0x00000000#32)) i = max (y i) 0 := by
  show max (y i) (broadcastInDim s ![] h0 (constant ⟨0, ![]⟩ .f32 0x00000000#32) i) = _
  rw [Cert.RowBias.splat_apply]
  show max (y i) (Ideal.ofBits .f32 0x00000000#32) = _
  rw [Ideal.ofBits_zero_f32]

/-- A stored one-row matrix made from a vector by a reshape: its entry (0, j) is the vector's entry j. -/
theorem row_of_vec (b : FVec Ideal ⟨1, ![N]⟩ .f32) (h : (⟨1, ![N]⟩ : Shape).ShapeCasts ⟨2, ![1, N]⟩) (j : Fin N) :
    shapeCast ⟨2, ![1, N]⟩ b h (ix2 (0 : Fin 1) j) = b (ix1 j) := Cert.RowBias.ofVec_apply b h j

/-! ## Concatenation along the feature axis, row by row -/

section Concat
variable {α : Type}

/-- Three pieces of C columns each: a column below C lies in the first piece. -/
theorem cat3_fst (x1 x2 x3 : (⟨2, ![M, C]⟩ : Shape).Idx → α)
    (h : Shape.Concatenates [⟨2, ![M, C]⟩, ⟨2, ![M, C]⟩, ⟨2, ![M, C]⟩] ⟨2, ![M, T]⟩ 1)
    (p : Fin M) (k : Fin T) (hk : k.val < C) :
    concatenate ⟨2, ![M, T]⟩ 1 [⟨⟨2, ![M, C]⟩, x1⟩, ⟨⟨2, ![M, C]⟩, x2⟩, ⟨⟨2, ![M, C]⟩, x3⟩] h (ix2 p k)
      = x1 (ix2 p ⟨k.val, hk⟩) :=
  concatenate_apply_piece 1 [⟨⟨2, ![M, C]⟩, x1⟩, ⟨⟨2, ![M, C]⟩, x2⟩, ⟨⟨2, ![M, C]⟩, x3⟩] h (ix2 p k) 0 (by simp) _ x1 rfl rfl 0 rfl (ix2 p ⟨k.val, hk⟩)
    (fun b hb => by match b with | ⟨0, _⟩ => rfl | ⟨1, _⟩ => exact absurd rfl hb)
    (Nat.zero_add _)

/-- A column in [C, 2C) lies in the second piece. -/
theorem cat3_snd (x1 x2 x3 : (⟨2, ![M, C]⟩ : Shape).Idx → α)
    (h : Shape.Concatenates [⟨2, ![M, C]⟩, ⟨2, ![M, C]⟩, ⟨2, ![M, C]⟩] ⟨2, ![M, T]⟩ 1)
    (p : Fin M) (k : Fin T) (hk1 : C ≤ k.val) (hk2 : k.val - C < C) :
    concatenate ⟨2, ![M, T]⟩ 1 [⟨⟨2, ![M, C]⟩, x1⟩, ⟨⟨2, ![M, C]⟩, x2⟩, ⟨⟨2, ![M, C]⟩, x3⟩] h (ix2 p k)
      = x2 (ix2 p ⟨k.val - C, hk2⟩) :=
  concatenate_apply_piece 1 [⟨⟨2, ![M, C]⟩, x1⟩, ⟨⟨2, ![M, C]⟩, x2⟩, ⟨⟨2, ![M, C]⟩, x3⟩] h (ix2 p k) 1 (by simp) _ x2 rfl rfl C (by simp) (ix2 p ⟨k.val - C, hk2⟩)
    (fun b hb => by match b with | ⟨0, _⟩ => rfl | ⟨1, _⟩ => exact absurd rfl hb)
    (by show C + (k.val - C) = k.val; omega)

/-- A column from 2C on lies in the third piece. -/
theorem cat3_thd (x1 x2 x3 : (⟨2, ![M, C]⟩ : Shape).Idx → α)
    (h : Shape.Concatenates [⟨2, ![M, C]⟩, ⟨2, ![M, C]⟩, ⟨2, ![M, C]⟩] ⟨2, ![M, T]⟩ 1)
    (p : Fin M) (k : Fin T) (hk1 : C + C ≤ k.val) (hk2 : k.val - (C + C) < C) :
    concatenate ⟨2, ![M, T]⟩ 1 [⟨⟨2, ![M, C]⟩, x1⟩, ⟨⟨2, ![M, C]⟩, x2⟩, ⟨⟨2, ![M, C]⟩, x3⟩] h (ix2 p k)
      = x3 (ix2 p ⟨k.val - (C + C), hk2⟩) :=
  concatenate_apply_piece 1 [⟨⟨2, ![M, C]⟩, x1⟩, ⟨⟨2, ![M, C]⟩, x2⟩, ⟨⟨2, ![M, C]⟩, x3⟩] h (ix2 p k) 2 (by simp) _ x3 rfl rfl (C + C) (by simp) (ix2 p ⟨k.val - (C + C), hk2⟩)
    (fun b hb => by match b with | ⟨0, _⟩ => rfl | ⟨1, _⟩ => exact absurd rfl hb)
    (by show C + C + (k.val - (C + C)) = k.val; omega)

/-- The joined width is three times a piece's. -/
theorem cat3_width (h : Shape.Concatenates [⟨2, ![M, C]⟩, ⟨2, ![M, C]⟩, ⟨2, ![M, C]⟩] ⟨2, ![M, T]⟩ 1) : T = C + C + C := by
  have e := h.2.2
  simp at e
  omega

/-- Row p of a three-piece concatenation of blocks is row p' of the concatenation of the arrays the blocks were cut
    from, when each block's row p is its array's row p'. -/
theorem cat3_row_congr (x1 x2 x3 : (⟨2, ![M, C]⟩ : Shape).Idx → α) (y1 y2 y3 : (⟨2, ![M', C]⟩ : Shape).Idx → α)
    (h : Shape.Concatenates [⟨2, ![M, C]⟩, ⟨2, ![M, C]⟩, ⟨2, ![M, C]⟩] ⟨2, ![M, T]⟩ 1)
    (h' : Shape.Concatenates [⟨2, ![M', C]⟩, ⟨2, ![M', C]⟩, ⟨2, ![M', C]⟩] ⟨2, ![M', T]⟩ 1)
    (p : Fin M) (p' : Fin M') (e1 : ∀ k, x1 (ix2 p k) = y1 (ix2 p' k)) (e2 : ∀ k, x2 (ix2 p k) = y2 (ix2 p' k))
    (e3 : ∀ k, x3 (ix2 p k) = y3 (ix2 p' k)) (k : Fin T) :
    concatenate ⟨2, ![M, T]⟩ 1 [⟨⟨2, ![M, C]⟩, x1⟩, ⟨⟨2, ![M, C]⟩, x2⟩, ⟨⟨2, ![M, C]⟩, x3⟩] h (ix2 p k)
      = concatenate ⟨2, ![M', T]⟩ 1 [⟨⟨2, ![M', C]⟩, y1⟩, ⟨⟨2, ![M', C]⟩, y2⟩, ⟨⟨2, ![M', C]⟩, y3⟩] h' (ix2 p' k) := by
  have hT := cat3_width h
  have hkT := k.isLt
  by_cases c1 : k.val < C
  · rw [cat3_fst x1 x2 x3 h p k c1, cat3_fst y1 y2 y3 h' p' k c1]; exact e1 _
  · by_cases c2 : k.val < C + C
    · rw [cat3_snd x1 x2 x3 h p k (by omega) (by omega), cat3_snd y1 y2 y3 h' p' k (by omega) (by omega)]; exact e2 _
    · rw [cat3_thd x1 x2 x3 h p k (by omega) (by omega), cat3_thd y1 y2 y3 h' p' k (by omega) (by omega)]; exact e3 _

/-- The same for two pieces. -/
theorem cat2_row_congr (x1 x2 : (⟨2, ![M, C]⟩ : Shape).Idx → α) (y1 y2 : (⟨2, ![M', C]⟩ : Shape).Idx → α)
    (h : Shape.Concatenates [⟨2, ![M, C]⟩, ⟨2, ![M, C]⟩] ⟨2, ![M, T]⟩ 1)
    (h' : Shape.Concatenates [⟨2, ![M', C]⟩, ⟨2, ![M', C]⟩] ⟨2, ![M', T]⟩ 1)
    (p : Fin M) (p' : Fin M') (e1 : ∀ k, x1 (ix2 p k) = y1 (ix2 p' k)) (e2 : ∀ k, x2 (ix2 p k) = y2 (ix2 p' k))
    (k : Fin T) :
    concatenate ⟨2, ![M, T]⟩ 1 [⟨⟨2, ![M, C]⟩, x1⟩, ⟨⟨2, ![M, C]⟩, x2⟩] h (ix2 p k)
      = concatenate ⟨2, ![M', T]⟩ 1 [⟨⟨2, ![M', C]⟩, y1⟩, ⟨⟨2, ![M', C]⟩, y2⟩] h' (ix2 p' k) := by
  have hT : T = C + C := by have e := h.2.2; simp at e; omega
  have hkT := k.isLt
  by_cases c1 : k.val < C
  · rw [concatenate_pair_apply_left 1 x1 x2 h (ix2 p k) rfl (ix2 p ⟨k.val, c1⟩)
        (fun b => by match b with | ⟨0, _⟩ => rfl | ⟨1, _⟩ => rfl),
      concatenate_pair_apply_left 1 y1 y2 h' (ix2 p' k) rfl (ix2 p' ⟨k.val, c1⟩)
        (fun b => by match b with | ⟨0, _⟩ => rfl | ⟨1, _⟩ => rfl)]
    exact e1 _
  · have c2 : k.val - C < C := by omega
    rw [concatenate_pair_apply_right 1 x1 x2 h (ix2 p k) rfl rfl (ix2 p ⟨k.val - C, c2⟩)
        (fun b hb => by match b with | ⟨0, _⟩ => rfl | ⟨1, _⟩ => exact absurd rfl hb)
        (by show k.val - C + C = k.val; omega),
      concatenate_pair_apply_right 1 y1 y2 h' (ix2 p' k) rfl rfl (ix2 p' ⟨k.val - C, c2⟩)
        (fun b hb => by match b with | ⟨0, _⟩ => rfl | ⟨1, _⟩ => exact absurd rfl hb)
        (by show k.val - C + C = k.val; omega)]
    exact e2 _

end Concat

end Cert.MlpRows

end
-- ==== Proof.LibRowNet.lean ====
/-
  A dense layer and SiLU, read row by row on the extended reals.

  A dense layer `X · W + b` and the activation `y ↦ y · σ(y)` (σ the logistic function) both act on each row of a matrix
  independently: row p of the result depends only on row p of the input, the weights and the bias. So whenever row p of a
  block of rows equals row p' of a whole matrix, the layer applied to the block has at row p what the layer applied to the
  whole matrix has at row p'. The block form writes the product into a zero accumulator and adds a stored one-row bias
  broadcast down the rows; the whole-matrix form is `dot_general` plus a bias vector broadcast twice. SiLU is spelled
  once through the logistic function itself and once as `y · (1 / (1 + e^(-y)))` with the constant one broadcast from a
  scalar: on the extended reals these are one function, `siluE`. Also here: an entrywise product agrees where both factors
  agree, and a matrix scaled row by row by one column of a narrow matrix, read at an entry.
  Generic in all extents.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«123328_j6777458393829_1_alg».proof.Proof.LibMlpRows

noncomputable section

open scoped BigOperators

namespace Cert.RowNet

open Idealize.ShloMosaic Idealize.ShloMosaic.ValueIdx

/-! ## SiLU -/

/-- SiLU on an extended real: `y · σ(y)`. -/
def siluE (y : EReal) : EReal := y * Ideal.logistic y

/-- The single-precision word of the number one denotes one. -/
theorem one_word : Ideal.ofBits .f32 0x3F800000#32 = 1 := by
  simp [Ideal.ofBits, Ideal.ieee, -EReal.coe_mul]; norm_num

/-- The product of a vector with its logistic image, at an index. -/
theorem unit_silu {s : Shape} (y : FVec Ideal s .f32) (i : s.Idx) : mulf y (logistic y) i = siluE (y i) := rfl

/-- The spelled-out form `y · (1 / (1 + e^(-y)))`, each one a scalar constant broadcast to the shape, at an index:
    the broadcast constants read as one, and what remains is the definition of the logistic function. -/
theorem host_silu {s : Shape} (y : FVec Ideal s .f32) (h h' : (⟨0, ![]⟩ : Shape).BroadcastsInDim s ![]) (i : s.Idx) :
    mulf y (Host.divf (broadcastInDim s ![] h (constant ⟨0, ![]⟩ .f32 0x3F800000#32))
      (addf (broadcastInDim s ![] h' (constant ⟨0, ![]⟩ .f32 0x3F800000#32)) (Host.exp (Host.negf y)))) i = siluE (y i) := by
  show y i * Ideal.div (broadcastInDim s ![] h (constant (F := Ideal) ⟨0, ![]⟩ .f32 0x3F800000#32) i)
      (broadcastInDim s ![] h' (constant (F := Ideal) ⟨0, ![]⟩ .f32 0x3F800000#32) i + Ideal.exp (-(y i))) = _
  -- the two side conditions are proofs of one proposition, so one rewrite reads both broadcasts
  rw [Cert.RowBias.splat_apply]
  show y i * Ideal.div (Ideal.ofBits .f32 0x3F800000#32) (Ideal.ofBits .f32 0x3F800000#32 + Ideal.exp (-(y i))) = _
  rw [one_word]
  rfl

/-- The two spellings of SiLU agree wherever their arguments agree. -/
theorem silu_congr {s s' : Shape} (y : FVec Ideal s .f32) (y' : FVec Ideal s' .f32)
    (h h' : (⟨0, ![]⟩ : Shape).BroadcastsInDim s' ![]) (i : s.Idx) (i' : s'.Idx) (e : y i = y' i') :
    mulf y (logistic y) i
      = mulf y' (Host.divf (broadcastInDim s' ![] h (constant ⟨0, ![]⟩ .f32 0x3F800000#32))
          (addf (broadcastInDim s' ![] h' (constant ⟨0, ![]⟩ .f32 0x3F800000#32)) (Host.exp (Host.negf y')))) i' := by
  rw [unit_silu, host_silu, e]

/-! ## A dense layer -/

/-- A dense layer on one row depends only on that row, the weights and the bias. -/
theorem affine_congr {K N : Nat} (x x' : Fin K → EReal) (W W' : Fin K → Fin N → EReal) (b b' : Fin N → EReal)
    (hx : ∀ k, x k = x' k) (hW : ∀ k j, W k j = W' k j) (hb : ∀ j, b j = b' j) (q : Fin N) :
    Cert.MlpRows.affine x W b q = Cert.MlpRows.affine x' W' b' q := by
  obtain rfl : x = x' := funext hx
  obtain rfl : W = W' := funext fun k => funext (hW k)
  obtain rfl : b = b' := funext hb
  rfl

/-- Row p of the block form of a dense layer is row p' of the whole-matrix form, when row p of the block's input is
    row p' of the whole input and the weights and the bias agree. The stored bias row passes through a cast of its
    shape to itself, which changes nothing; both forms are then the affine image of the one row. -/
theorem dense_congr {M M' K N : Nat} {φ₁ φ₂ φ₁' φ₂' : FTy} (X : FVec Ideal ⟨2, ![M, K]⟩ φ₁) (W : FVec Ideal ⟨2, ![K, N]⟩ φ₂)
    (b : FVec Ideal ⟨2, ![1, N]⟩ .f32) (X' : FVec Ideal ⟨2, ![M', K]⟩ φ₁') (W' : FVec Ideal ⟨2, ![K, N]⟩ φ₂')
    (b' : FVec Ideal ⟨1, ![N]⟩ .f32) (prec prec' : Option ContractPrecision)
    (hsc : (⟨2, ![1, N]⟩ : Shape).ShapeCasts ⟨2, ![1, N]⟩) (hb : (⟨2, ![1, N]⟩ : Shape).Broadcasts ⟨2, ![M, N]⟩)
    (h1 : (⟨1, ![N]⟩ : Shape).BroadcastsInDim ⟨2, ![1, N]⟩ ![1])
    (h2 : (⟨2, ![1, N]⟩ : Shape).BroadcastsInDim ⟨2, ![M', N]⟩ ![0, 1]) (p : Fin M) (p' : Fin M')
    (hx : ∀ k, (X (ix2 p k) : EReal) = X' (ix2 p' k)) (hW : ∀ k j, (W (ix2 k j) : EReal) = W' (ix2 k j))
    (hbias : ∀ j, b (ix2 (0 : Fin 1) j) = b' (ix1 j)) (q : Fin N) :
    addf (matmul (DotDims.plain M K N) prec X W (constant ⟨2, ![M, N]⟩ .f32 0x00000000#32))
        (broadcastTo ⟨2, ![M, N]⟩ (shapeCast ⟨2, ![1, N]⟩ b hsc) hb) (ix2 p q)
      = addf (Host.dotGeneral (DotDims.plain M' K N) prec' X' W')
          (broadcastInDim ⟨2, ![M', N]⟩ ![0, 1] h2 (broadcastInDim ⟨2, ![1, N]⟩ ![1] h1 b')) (ix2 p' q) := by
  rw [shapeCast_self b hsc]
  refine (Cert.MlpRows.unit_affine X W b prec hb p q).trans ?_
  refine Eq.trans ?_ (Cert.MlpRows.host_affine X' W' b' prec' h1 h2 p' q).symm
  exact affine_congr _ _ _ _ _ _ hx hW hbias q

/-! ## Entrywise products -/

/-- An entrywise product agrees wherever both factors agree. -/
theorem mul_congr {s s' : Shape} (a b : FVec Ideal s .f32) (a' b' : FVec Ideal s' .f32) (i : s.Idx) (i' : s'.Idx)
    (ea : a i = a' i') (eb : b i = b' i') : mulf a b i = mulf a' b' i' := by
  show a i * b i = a' i' * b' i'
  rw [ea, eb]

/-- A matrix scaled row by row by column k of a narrow matrix: the column is cut out as an [M, 1] block, stretched along
    the rows' entries, and multiplied in; entry (p, d) is the narrow matrix's entry (p, k) times the matrix's entry (p, d).
    The column is given as a number below the width. -/
theorem column_scale_apply_nat {M C n : Nat} (ev : FVec Ideal ⟨2, ![M, n]⟩ .f32) (mv : FVec Ideal ⟨2, ![M, C]⟩ .f32)
    (k : Nat) (hk : k < n) (hs : (⟨2, ![M, n]⟩ : Shape).Slices ![0, k] ⟨2, ![M, 1]⟩)
    (hbc : (⟨2, ![M, 1]⟩ : Shape).Broadcasts ⟨2, ![M, C]⟩) (p : Fin M) (d : Fin C) :
    mulf (broadcastTo ⟨2, ![M, C]⟩ (extractStridedSlice ⟨2, ![M, 1]⟩ ![0, k] ev hs) hbc) mv (ix2 p d)
      = ev (ix2 p ⟨k, hk⟩) * mv (ix2 p d) := by
  show broadcastTo ⟨2, ![M, C]⟩ (extractStridedSlice ⟨2, ![M, 1]⟩ ![0, k] ev hs) hbc (ix2 p d) * mv (ix2 p d) = _
  congr 1
  -- the stretched block at (p, d) is the block at (p, 0)
  refine (broadcastTo_apply _ hbc (ix2 p d) (ix2 p (0 : Fin 1)) fun a => ?_).trans ?_
  · match a with
    | ⟨0, _⟩ =>
        show p.val = if M = 1 then 0 else p.val
        have := p.isLt
        split <;> omega
    | ⟨1, _⟩ =>
        show (0 : ℕ) = if (1 : ℕ) = 1 then 0 else _
        rw [if_pos rfl]
  -- and the block at (p, 0) is the narrow matrix at (p, k)
  · refine extractStridedSlice_apply ![0, k] ev hs (ix2 p (0 : Fin 1)) (ix2 p ⟨k, hk⟩) fun a => ?_
    match a with
    | ⟨0, _⟩ => show p.val = 0 + p.val; omega
    | ⟨1, _⟩ => show k = k + 0; omega

/-- The same with the column given as an element of `Fin n`. -/
theorem column_scale_apply {M C n : Nat} (ev : FVec Ideal ⟨2, ![M, n]⟩ .f32) (mv : FVec Ideal ⟨2, ![M, C]⟩ .f32)
    (k : Fin n) (hs : (⟨2, ![M, n]⟩ : Shape).Slices ![0, k.val] ⟨2, ![M, 1]⟩)
    (hbc : (⟨2, ![M, 1]⟩ : Shape).Broadcasts ⟨2, ![M, C]⟩) (p : Fin M) (d : Fin C) :
    mulf (broadcastTo ⟨2, ![M, C]⟩ (extractStridedSlice ⟨2, ![M, 1]⟩ ![0, k.val] ev hs) hbc) mv (ix2 p d)
      = ev (ix2 p k) * mv (ix2 p d) :=
  column_scale_apply_nat ev mv k.val k.isLt hs hbc p d

end Cert.RowNet

end
-- ==== Proof.NodeStages.lean ====
/-
  The three node-side stages, row by row on the extended reals.

  Each stage is a small network of dense layers: the node embedding is one layer, the edge embedding is a dense layer, the
  activation y ↦ y · σ(y) and a second dense layer, and the node update is the same two-layer network applied to the
  node's embedding and its aggregated message laid side by side. A dense layer and the activation act on every row of
  their input independently, so when row p of each block of rows that a stage reads equals row r of the whole array the
  block was cut from, and the stored bias rows carry the bias vectors, the stage computed on the block has at (p, q) what
  the stage computed on the whole array has at (r, q). The two spellings differ only in form: a product into a zero
  accumulator plus a stored bias row against a general product plus a bias vector broadcast twice; the logistic function
  against 1 / (1 + e^(-y)); a narrowing of the number format, which on the extended reals changes nothing.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«123328_j6777458393829_1_alg».proof.Proof.Gen.KernelIdeal.Skeleton
import proofs.«123328_j6777458393829_1_alg».proof.Proof.Gen.ReferenceIdeal.Read
import proofs.«123328_j6777458393829_1_alg».proof.Proof.LibRowNet

noncomputable section

namespace Cert.Stage

open Idealize.ShloMosaic Idealize.ShloMosaic.ValueIdx

/-! ## Two layers, generically -/

/-- Narrowing the number format is the identity on the extended reals, entry by entry. -/
theorem truncf_apply {s : Shape} {φ : FTy} (ψ : FTy) (x : FVec Ideal s φ) (h : ψ.bits < φ.bits) (i : s.Idx) :
    (truncf (F := Ideal) ψ x h i : EReal) = x i := rfl

/-- A dense layer followed by the activation: row p of the block form is row p' of the whole-array form when the
    layer's input rows, weights and bias agree. The activation's two spellings agree wherever their arguments do, and
    the arguments are the two forms of the dense layer. -/
theorem hidden_congr {M M' K N : Nat} {φ₁ φ₂ φ₁' φ₂' : FTy}
    (X : FVec Ideal ⟨2, ![M, K]⟩ φ₁) (W : FVec Ideal ⟨2, ![K, N]⟩ φ₂) (b : FVec Ideal ⟨2, ![1, N]⟩ .f32)
    (X' : FVec Ideal ⟨2, ![M', K]⟩ φ₁') (W' : FVec Ideal ⟨2, ![K, N]⟩ φ₂') (b' : FVec Ideal ⟨1, ![N]⟩ .f32)
    (prec prec' : Option ContractPrecision)
    (hsc : (⟨2, ![1, N]⟩ : Shape).ShapeCasts ⟨2, ![1, N]⟩) (hb : (⟨2, ![1, N]⟩ : Shape).Broadcasts ⟨2, ![M, N]⟩)
    (h1 : (⟨1, ![N]⟩ : Shape).BroadcastsInDim ⟨2, ![1, N]⟩ ![1])
    (h2 : (⟨2, ![1, N]⟩ : Shape).BroadcastsInDim ⟨2, ![M', N]⟩ ![0, 1])
    (h0 h0' : (⟨0, ![]⟩ : Shape).BroadcastsInDim ⟨2, ![M', N]⟩ ![])
    (p : Fin M) (p' : Fin M')
    (hx : ∀ k, (X (ix2 p k) : EReal) = X' (ix2 p' k)) (hW : ∀ k j, (W (ix2 k j) : EReal) = W' (ix2 k j))
    (hbias : ∀ j, b (ix2 (0 : Fin 1) j) = b' (ix1 j)) (q : Fin N) :
    mulf (F := Ideal)
        (addf (F := Ideal) (matmul (F := Ideal) (DotDims.plain M K N) prec X W (constant (F := Ideal) ⟨2, ![M, N]⟩ .f32 0x00000000#32))
          (broadcastTo ⟨2, ![M, N]⟩ (shapeCast ⟨2, ![1, N]⟩ b hsc) hb))
        (logistic (F := Ideal)
          (addf (F := Ideal) (matmul (F := Ideal) (DotDims.plain M K N) prec X W (constant (F := Ideal) ⟨2, ![M, N]⟩ .f32 0x00000000#32))
            (broadcastTo ⟨2, ![M, N]⟩ (shapeCast ⟨2, ![1, N]⟩ b hsc) hb))) (ix2 p q)
      = mulf (F := Ideal)
          (addf (F := Ideal) (Host.dotGeneral (F := Ideal) (DotDims.plain M' K N) prec' X' W')
            (broadcastInDim ⟨2, ![M', N]⟩ ![0, 1] h2 (broadcastInDim ⟨2, ![1, N]⟩ ![1] h1 b')))
          (Host.divf (F := Ideal) (broadcastInDim ⟨2, ![M', N]⟩ ![] h0 (constant (F := Ideal) ⟨0, ![]⟩ .f32 0x3F800000#32))
            (addf (F := Ideal) (broadcastInDim ⟨2, ![M', N]⟩ ![] h0' (constant (F := Ideal) ⟨0, ![]⟩ .f32 0x3F800000#32))
              (Host.exp (F := Ideal) (Host.negf (F := Ideal)
                (addf (F := Ideal) (Host.dotGeneral (F := Ideal) (DotDims.plain M' K N) prec' X' W')
                  (broadcastInDim ⟨2, ![M', N]⟩ ![0, 1] h2 (broadcastInDim ⟨2, ![1, N]⟩ ![1] h1 b'))))))) (ix2 p' q) :=
  Cert.RowNet.silu_congr
    (addf (F := Ideal) (matmul (F := Ideal) (DotDims.plain M K N) prec X W (constant (F := Ideal) ⟨2, ![M, N]⟩ .f32 0x00000000#32))
      (broadcastTo ⟨2, ![M, N]⟩ (shapeCast ⟨2, ![1, N]⟩ b hsc) hb))
    (addf (F := Ideal) (Host.dotGeneral (F := Ideal) (DotDims.plain M' K N) prec' X' W')
      (broadcastInDim ⟨2, ![M', N]⟩ ![0, 1] h2 (broadcastInDim ⟨2, ![1, N]⟩ ![1] h1 b')))
    h0 h0' (ix2 p q) (ix2 p' q)
    (Cert.RowNet.dense_congr X W b X' W' b' prec prec' hsc hb h1 h2 p p' hx hW hbias q)

/-- A dense layer, the activation, a narrowing of the format and a second dense layer: row p of the block form is row
    p' of the whole-array form. The second layer's input rows agree because the first layer and the activation
    preserve agreement of rows, and the narrowing is the identity on the extended reals. -/
theorem mlp2_congr {M M' K H N : Nat} {φ₁ φ₂ φ₃ φ₁' φ₂' φ₃' : FTy}
    (X : FVec Ideal ⟨2, ![M, K]⟩ φ₁) (W1 : FVec Ideal ⟨2, ![K, H]⟩ φ₂) (b1 : FVec Ideal ⟨2, ![1, H]⟩ .f32)
    (W2 : FVec Ideal ⟨2, ![H, N]⟩ φ₃) (b2 : FVec Ideal ⟨2, ![1, N]⟩ .f32)
    (X' : FVec Ideal ⟨2, ![M', K]⟩ φ₁') (W1' : FVec Ideal ⟨2, ![K, H]⟩ φ₂') (b1' : FVec Ideal ⟨1, ![H]⟩ .f32)
    (W2' : FVec Ideal ⟨2, ![H, N]⟩ φ₃') (b2' : FVec Ideal ⟨1, ![N]⟩ .f32)
    (prec1 prec1' prec2 prec2' : Option ContractPrecision)
    (hlt : FTy.bits .bf16 < FTy.bits .f32)
    (hsc1 : (⟨2, ![1, H]⟩ : Shape).ShapeCasts ⟨2, ![1, H]⟩) (hb1 : (⟨2, ![1, H]⟩ : Shape).Broadcasts ⟨2, ![M, H]⟩)
    (h11 : (⟨1, ![H]⟩ : Shape).BroadcastsInDim ⟨2, ![1, H]⟩ ![1])
    (h12 : (⟨2, ![1, H]⟩ : Shape).BroadcastsInDim ⟨2, ![M', H]⟩ ![0, 1])
    (h0 h0' : (⟨0, ![]⟩ : Shape).BroadcastsInDim ⟨2, ![M', H]⟩ ![])
    (hsc2 : (⟨2, ![1, N]⟩ : Shape).ShapeCasts ⟨2, ![1, N]⟩) (hb2 : (⟨2, ![1, N]⟩ : Shape).Broadcasts ⟨2, ![M, N]⟩)
    (h21 : (⟨1, ![N]⟩ : Shape).BroadcastsInDim ⟨2, ![1, N]⟩ ![1])
    (h22 : (⟨2, ![1, N]⟩ : Shape).BroadcastsInDim ⟨2, ![M', N]⟩ ![0, 1])
    (p : Fin M) (p' : Fin M')
    (hx : ∀ k, (X (ix2 p k) : EReal) = X' (ix2 p' k))
    (hW1 : ∀ k j, (W1 (ix2 k j) : EReal) = W1' (ix2 k j)) (hbias1 : ∀ j, b1 (ix2 (0 : Fin 1) j) = b1' (ix1 j))
    (hW2 : ∀ k j, (W2 (ix2 k j) : EReal) = W2' (ix2 k j)) (hbias2 : ∀ j, b2 (ix2 (0 : Fin 1) j) = b2' (ix1 j))
    (q : Fin N) :
    addf (F := Ideal)
        (matmul (F := Ideal) (DotDims.plain M H N) prec2
          (truncf (F := Ideal) .bf16
            (mulf (F := Ideal)
              (addf (F := Ideal) (matmul (F := Ideal) (DotDims.plain M K H) prec1 X W1 (constant (F := Ideal) ⟨2, ![M, H]⟩ .f32 0x00000000#32))
                (broadcastTo ⟨2, ![M, H]⟩ (shapeCast ⟨2, ![1, H]⟩ b1 hsc1) hb1))
              (logistic (F := Ideal)
                (addf (F := Ideal) (matmul (F := Ideal) (DotDims.plain M K H) prec1 X W1 (constant (F := Ideal) ⟨2, ![M, H]⟩ .f32 0x00000000#32))
                  (broadcastTo ⟨2, ![M, H]⟩ (shapeCast ⟨2, ![1, H]⟩ b1 hsc1) hb1)))) hlt)
          W2 (constant (F := Ideal) ⟨2, ![M, N]⟩ .f32 0x00000000#32))
        (broadcastTo ⟨2, ![M, N]⟩ (shapeCast ⟨2, ![1, N]⟩ b2 hsc2) hb2) (ix2 p q)
      = addf (F := Ideal)
          (Host.dotGeneral (F := Ideal) (DotDims.plain M' H N) prec2'
            (mulf (F := Ideal)
              (addf (F := Ideal) (Host.dotGeneral (F := Ideal) (DotDims.plain M' K H) prec1' X' W1')
                (broadcastInDim ⟨2, ![M', H]⟩ ![0, 1] h12 (broadcastInDim ⟨2, ![1, H]⟩ ![1] h11 b1')))
              (Host.divf (F := Ideal) (broadcastInDim ⟨2, ![M', H]⟩ ![] h0 (constant (F := Ideal) ⟨0, ![]⟩ .f32 0x3F800000#32))
                (addf (F := Ideal) (broadcastInDim ⟨2, ![M', H]⟩ ![] h0' (constant (F := Ideal) ⟨0, ![]⟩ .f32 0x3F800000#32))
                  (Host.exp (F := Ideal) (Host.negf (F := Ideal)
                    (addf (F := Ideal) (Host.dotGeneral (F := Ideal) (DotDims.plain M' K H) prec1' X' W1')
                      (broadcastInDim ⟨2, ![M', H]⟩ ![0, 1] h12 (broadcastInDim ⟨2, ![1, H]⟩ ![1] h11 b1'))))))))
            W2')
          (broadcastInDim ⟨2, ![M', N]⟩ ![0, 1] h22 (broadcastInDim ⟨2, ![1, N]⟩ ![1] h21 b2')) (ix2 p' q) := by
  -- the second layer is a dense layer, so it is enough that its input rows agree
  refine Cert.RowNet.dense_congr _ W2 b2 _ W2' b2' prec2 prec2' hsc2 hb2 h21 h22 p p' ?_ hW2 hbias2 q
  -- they do: the narrowing is the identity, and the first layer with the activation preserves agreement of rows
  intro k
  exact (truncf_apply (φ := .f32) .bf16 _ hlt (ix2 p k)).trans
    (hidden_congr X W1 b1 X' W1' b1' prec1 prec1' hsc1 hb1 h11 h12 h0 h0' p p' hx hW1 hbias1 k)

/-! ## The node embedding -/

/-- One dense layer: entry (p, q) of the embedding of a block of nodes is entry (n, q) of the embedding of all nodes,
    when row p of the block of species is row n of the species array. -/
theorem embed_rows (x0 : FVec Ideal ⟨2, ![5000, 5]⟩ .f32) (wa : FVec Ideal ⟨2, ![5, 64]⟩ .f32)
    (b : FVec Ideal ⟨2, ![1, 64]⟩ .f32)
    (sp : FVec Ideal ⟨2, ![50000, 5]⟩ .f32) (x4 : FVec Ideal ⟨2, ![5, 64]⟩ .f32) (ba : FVec Ideal ⟨1, ![64]⟩ .f32)
    (p : Fin 5000) (n : Fin 50000)
    (hx : ∀ k, x0 (ix2 p k) = sp (ix2 n k)) (hw : ∀ k j, wa (ix2 k j) = x4 (ix2 k j))
    (hb : ∀ j, b (ix2 (0 : Fin 1) j) = ba (ix1 j)) (q : Fin 64) :
    Cert.KernelIdeal.Gen.k0_pay1 (F := Ideal) x0 wa b (ix2 p q)
      = Cert.ReferenceIdeal.Read.val_main_v7 (F := Ideal) sp x4 ba (ix2 n q) := by
  unfold Cert.KernelIdeal.Gen.k0_pay1 Cert.ReferenceIdeal.Read.val_main_v7 Cert.ReferenceIdeal.Read.val_main_v4
    Cert.ReferenceIdeal.Read.val_main_v6 Cert.ReferenceIdeal.Read.val_main_v5
  exact Cert.RowNet.dense_congr (M := 5000) (M' := 50000) (K := 5) (N := 64)
    (truncf (F := Ideal) .bf16 x0 Cert.KernelIdeal.Gen.bitsLt_bf16_f32)
    (truncf (F := Ideal) .bf16 wa Cert.KernelIdeal.Gen.bitsLt_bf16_f32) b sp x4 ba none none
    Cert.KernelIdeal.Gen.shapeCasts_S1x64_S1x64 Cert.KernelIdeal.Gen.broadcasts_S1x64_S5000x64
    Cert.ReferenceIdeal.Gen.bcast_S64_S1x64_1 Cert.ReferenceIdeal.Gen.bcast_S1x64_S50000x64_0_1 p n
    (fun k => (truncf_apply (φ := .f32) .bf16 x0 Cert.KernelIdeal.Gen.bitsLt_bf16_f32 (ix2 p k)).trans (hx k))
    (fun k j => (truncf_apply (φ := .f32) .bf16 wa Cert.KernelIdeal.Gen.bitsLt_bf16_f32 (ix2 k j)).trans (hw k j)) hb q

/-! ## The edge embedding -/

/-- Two dense layers with the activation between them: entry (p, q) of the embedding of a block of edge attributes is
    entry (e, q) of the embedding of all edge attributes, when row p of the block is row e of the array. -/
theorem ea_rows (x0 : FVec Ideal ⟨2, ![2000, 16]⟩ .f32) (w1 : FVec Ideal ⟨2, ![16, 64]⟩ .f32)
    (b1 : FVec Ideal ⟨2, ![1, 64]⟩ .f32) (w2 : FVec Ideal ⟨2, ![64, 64]⟩ .f32) (b2 : FVec Ideal ⟨2, ![1, 64]⟩ .f32)
    (attr : FVec Ideal ⟨2, ![800000, 16]⟩ .f32) (x6 : FVec Ideal ⟨2, ![16, 64]⟩ .f32) (bb1 : FVec Ideal ⟨1, ![64]⟩ .f32)
    (x8 : FVec Ideal ⟨2, ![64, 64]⟩ .f32) (bb2 : FVec Ideal ⟨1, ![64]⟩ .f32)
    (p : Fin 2000) (e : Fin 800000)
    (hx : ∀ k, x0 (ix2 p k) = attr (ix2 e k))
    (hw1 : ∀ k j, w1 (ix2 k j) = x6 (ix2 k j)) (hb1 : ∀ j, b1 (ix2 (0 : Fin 1) j) = bb1 (ix1 j))
    (hw2 : ∀ k j, w2 (ix2 k j) = x8 (ix2 k j)) (hb2 : ∀ j, b2 (ix2 (0 : Fin 1) j) = bb2 (ix1 j)) (q : Fin 64) :
    Cert.KernelIdeal.Gen.k1_pay2 (F := Ideal) x0 w1 b1 w2 b2 (ix2 p q)
      = Cert.ReferenceIdeal.Read.val_main_v16 (F := Ideal) attr x6 bb1 x8 bb2 (ix2 e q) := by
  unfold Cert.KernelIdeal.Gen.k1_pay2
    Cert.ReferenceIdeal.Read.val_main_v16 Cert.ReferenceIdeal.Read.val_main_v13 Cert.ReferenceIdeal.Read.val_main_v15
    Cert.ReferenceIdeal.Read.val_main_v14 Cert.ReferenceIdeal.Read.val_main_v12 Cert.ReferenceIdeal.Read.val_main_call0_v5
    Cert.ReferenceIdeal.Read.val_main_call0_v4 Cert.ReferenceIdeal.Read.val_main_call0_cst_0
    Cert.ReferenceIdeal.Read.val_main_call0_v3 Cert.ReferenceIdeal.Read.val_main_call0_v2
    Cert.ReferenceIdeal.Read.val_main_call0_cst Cert.ReferenceIdeal.Read.val_main_call0_v1
    Cert.ReferenceIdeal.Read.val_main_call0_v0 Cert.ReferenceIdeal.Read.val_main_v11 Cert.ReferenceIdeal.Read.val_main_v8
    Cert.ReferenceIdeal.Read.val_main_v10 Cert.ReferenceIdeal.Read.val_main_v9
  exact mlp2_congr (M := 2000) (M' := 800000) (K := 16) (H := 64) (N := 64)
    (truncf (F := Ideal) .bf16 x0 Cert.KernelIdeal.Gen.bitsLt_bf16_f32)
    (truncf (F := Ideal) .bf16 w1 Cert.KernelIdeal.Gen.bitsLt_bf16_f32) b1
    (truncf (F := Ideal) .bf16 w2 Cert.KernelIdeal.Gen.bitsLt_bf16_f32) b2
    attr x6 bb1 x8 bb2 none none none none Cert.KernelIdeal.Gen.bitsLt_bf16_f32
    Cert.KernelIdeal.Gen.shapeCasts_S1x64_S1x64 Cert.KernelIdeal.Gen.broadcasts_S1x64_S2000x64
    Cert.ReferenceIdeal.Gen.bcast_S64_S1x64_1 Cert.ReferenceIdeal.Gen.bcast_S1x64_S800000x64_0_1
    Cert.ReferenceIdeal.Gen.bcast_S_S800000x64 Cert.ReferenceIdeal.Gen.bcast_S_S800000x64
    Cert.KernelIdeal.Gen.shapeCasts_S1x64_S1x64 Cert.KernelIdeal.Gen.broadcasts_S1x64_S2000x64
    Cert.ReferenceIdeal.Gen.bcast_S64_S1x64_1 Cert.ReferenceIdeal.Gen.bcast_S1x64_S800000x64_0_1 p e
    (fun k => (truncf_apply (φ := .f32) .bf16 x0 Cert.KernelIdeal.Gen.bitsLt_bf16_f32 (ix2 p k)).trans (hx k))
    (fun k j => (truncf_apply (φ := .f32) .bf16 w1 Cert.KernelIdeal.Gen.bitsLt_bf16_f32 (ix2 k j)).trans (hw1 k j)) hb1
    (fun k j => (truncf_apply (φ := .f32) .bf16 w2 Cert.KernelIdeal.Gen.bitsLt_bf16_f32 (ix2 k j)).trans (hw2 k j)) hb2 q

/-! ## The node update -/

/-- The update network's input: a node's embedding and its aggregated message side by side. Row p of the two blocks
    joined along the feature axis is row n of the two whole arrays joined the same way, when each block's row p is its
    array's row n; a cast of a shape to itself changes nothing. -/
theorem update_input_rows (xf xa : FVec Ideal ⟨2, ![5000, 64]⟩ .f32)
    (yf ya : FVec Ideal ⟨2, ![50000, 64]⟩ .f32)
    (hsc : (⟨2, ![5000, 64]⟩ : Shape).ShapeCasts ⟨2, ![5000, 64]⟩)
    (hcat : Shape.Concatenates [⟨2, ![5000, 64]⟩, ⟨2, ![5000, 64]⟩] ⟨2, ![5000, 128]⟩ 1)
    (hcat' : Shape.Concatenates [⟨2, ![50000, 64]⟩, ⟨2, ![50000, 64]⟩] ⟨2, ![50000, 128]⟩ 1)
    (p : Fin 5000) (n : Fin 50000)
    (hf : ∀ k, xf (ix2 p k) = yf (ix2 n k)) (ha : ∀ k, xa (ix2 p k) = ya (ix2 n k)) (k : Fin 128) :
    concatenate ⟨2, ![5000, 128]⟩ 1
        [⟨⟨2, ![5000, 64]⟩, shapeCast ⟨2, ![5000, 64]⟩ xf hsc⟩, ⟨⟨2, ![5000, 64]⟩, shapeCast ⟨2, ![5000, 64]⟩ xa hsc⟩] hcat (ix2 p k)
      = concatenate ⟨2, ![50000, 128]⟩ 1 [⟨⟨2, ![50000, 64]⟩, yf⟩, ⟨⟨2, ![50000, 64]⟩, ya⟩] hcat' (ix2 n k) :=
  Cert.MlpRows.cat2_row_congr (M := 5000) (M' := 50000) (C := 64) (T := 128)
    (shapeCast ⟨2, ![5000, 64]⟩ xf hsc) (shapeCast ⟨2, ![5000, 64]⟩ xa hsc) yf ya hcat hcat' p n
    (fun j => (congrFun (shapeCast_self xf hsc) (ix2 p j)).trans (hf j))
    (fun j => (congrFun (shapeCast_self xa hsc) (ix2 p j)).trans (ha j)) k

/-- The same two-layer network on the joined rows: entry (p, q) of the update of a block of nodes is entry (n, q) of
    the update of all nodes, when row p of the block of embeddings and of the block of aggregated messages are row n
    of the embedding and of the aggregated message of all nodes. -/
theorem update_rows (xf xa : FVec Ideal ⟨2, ![5000, 64]⟩ .f32) (wh1 : FVec Ideal ⟨2, ![128, 64]⟩ .f32)
    (b1 : FVec Ideal ⟨2, ![1, 64]⟩ .f32) (wh2 : FVec Ideal ⟨2, ![64, 64]⟩ .f32) (b2 : FVec Ideal ⟨2, ![1, 64]⟩ .f32)
    (x0 : FVec Ideal ⟨2, ![50000, 5]⟩ .f32) (x1 : Vec Ideal ⟨2, ![2, 800000]⟩ .i32)
    (x2 : FVec Ideal ⟨2, ![800000, 16]⟩ .f32) (x4 : FVec Ideal ⟨2, ![5, 64]⟩ .f32) (x5 : FVec Ideal ⟨1, ![64]⟩ .f32)
    (x6 : FVec Ideal ⟨2, ![16, 64]⟩ .f32) (x7 : FVec Ideal ⟨1, ![64]⟩ .f32) (x8 : FVec Ideal ⟨2, ![64, 64]⟩ .f32)
    (x9 : FVec Ideal ⟨1, ![64]⟩ .f32) (x10 : FVec Ideal ⟨2, ![192, 64]⟩ .f32) (x11 : FVec Ideal ⟨1, ![64]⟩ .f32)
    (x12 : FVec Ideal ⟨2, ![64, 64]⟩ .f32) (x13 : FVec Ideal ⟨1, ![64]⟩ .f32) (x14 : FVec Ideal ⟨2, ![128, 64]⟩ .f32)
    (x15 : FVec Ideal ⟨1, ![64]⟩ .f32) (x16 : FVec Ideal ⟨2, ![64, 64]⟩ .f32) (x17 : FVec Ideal ⟨1, ![64]⟩ .f32)
    (p : Fin 5000) (n : Fin 50000)
    (hf : ∀ k, xf (ix2 p k) = Cert.ReferenceIdeal.Read.val_main_v7 (F := Ideal) x0 x4 x5 (ix2 n k))
    (ha : ∀ k, xa (ix2 p k)
      = Cert.ReferenceIdeal.Read.val_main_v44 (F := Ideal) x0 x1 x2 x4 x5 x6 x7 x8 x9 x10 x11 x12 x13 (ix2 n k))
    (hw1 : ∀ k j, wh1 (ix2 k j) = x14 (ix2 k j)) (hb1 : ∀ j, b1 (ix2 (0 : Fin 1) j) = x15 (ix1 j))
    (hw2 : ∀ k j, wh2 (ix2 k j) = x16 (ix2 k j)) (hb2 : ∀ j, b2 (ix2 (0 : Fin 1) j) = x17 (ix1 j)) (q : Fin 64) :
    Cert.KernelIdeal.Gen.k2_pay1 (F := Ideal) xf xa wh1 b1 wh2 b2 (ix2 p q)
      = Cert.ReferenceIdeal.Read.val_main_v54 (F := Ideal) x0 x1 x2 x4 x5 x6 x7 x8 x9 x10 x11 x12 x13 x14 x15 x16 x17
          (ix2 n q) := by
  unfold Cert.KernelIdeal.Gen.k2_pay1
    Cert.ReferenceIdeal.Read.val_main_v54 Cert.ReferenceIdeal.Read.val_main_v51 Cert.ReferenceIdeal.Read.val_main_v53
    Cert.ReferenceIdeal.Read.val_main_v52 Cert.ReferenceIdeal.Read.val_main_v50 Cert.ReferenceIdeal.Read.val_main_call2_v5
    Cert.ReferenceIdeal.Read.val_main_call2_v4 Cert.ReferenceIdeal.Read.val_main_call2_cst_0
    Cert.ReferenceIdeal.Read.val_main_call2_v3 Cert.ReferenceIdeal.Read.val_main_call2_v2
    Cert.ReferenceIdeal.Read.val_main_call2_cst Cert.ReferenceIdeal.Read.val_main_call2_v1
    Cert.ReferenceIdeal.Read.val_main_call2_v0 Cert.ReferenceIdeal.Read.val_main_v49 Cert.ReferenceIdeal.Read.val_main_v46
    Cert.ReferenceIdeal.Read.val_main_v48 Cert.ReferenceIdeal.Read.val_main_v47 Cert.ReferenceIdeal.Read.val_main_v45
  exact mlp2_congr (M := 5000) (M' := 50000) (K := 128) (H := 64) (N := 64)
    (truncf (F := Ideal) .bf16
      (concatenate ⟨2, ![5000, 128]⟩ 1
        [⟨⟨2, ![5000, 64]⟩, shapeCast ⟨2, ![5000, 64]⟩ xf Cert.KernelIdeal.Gen.shapeCasts_S5000x64_S5000x64⟩,
          ⟨⟨2, ![5000, 64]⟩, shapeCast ⟨2, ![5000, 64]⟩ xa Cert.KernelIdeal.Gen.shapeCasts_S5000x64_S5000x64⟩]
        Cert.KernelIdeal.Gen.concatenates_S5000x64_S5000x64_S5000x128_d1)
      Cert.KernelIdeal.Gen.bitsLt_bf16_f32)
    (truncf (F := Ideal) .bf16 wh1 Cert.KernelIdeal.Gen.bitsLt_bf16_f32) b1
    (truncf (F := Ideal) .bf16 wh2 Cert.KernelIdeal.Gen.bitsLt_bf16_f32) b2
    (concatenate ⟨2, ![50000, 128]⟩ 1
      [⟨⟨2, ![50000, 64]⟩, Cert.ReferenceIdeal.Read.val_main_v7 (F := Ideal) x0 x4 x5⟩,
        ⟨⟨2, ![50000, 64]⟩, Cert.ReferenceIdeal.Read.val_main_v44 (F := Ideal) x0 x1 x2 x4 x5 x6 x7 x8 x9 x10 x11 x12 x13⟩]
      Cert.ReferenceIdeal.Gen.concatenates_S50000x64_S50000x64_S50000x128_d1)
    x14 x15 x16 x17 none none none none Cert.KernelIdeal.Gen.bitsLt_bf16_f32
    Cert.KernelIdeal.Gen.shapeCasts_S1x64_S1x64 Cert.KernelIdeal.Gen.broadcasts_S1x64_S5000x64
    Cert.ReferenceIdeal.Gen.bcast_S64_S1x64_1 Cert.ReferenceIdeal.Gen.bcast_S1x64_S50000x64_0_1
    Cert.ReferenceIdeal.Gen.bcast_S_S50000x64 Cert.ReferenceIdeal.Gen.bcast_S_S50000x64
    Cert.KernelIdeal.Gen.shapeCasts_S1x64_S1x64 Cert.KernelIdeal.Gen.broadcasts_S1x64_S5000x64
    Cert.ReferenceIdeal.Gen.bcast_S64_S1x64_1 Cert.ReferenceIdeal.Gen.bcast_S1x64_S50000x64_0_1 p n
    (fun k => (truncf_apply (φ := .f32) .bf16
        (concatenate ⟨2, ![5000, 128]⟩ 1
          [⟨⟨2, ![5000, 64]⟩, shapeCast ⟨2, ![5000, 64]⟩ xf Cert.KernelIdeal.Gen.shapeCasts_S5000x64_S5000x64⟩,
            ⟨⟨2, ![5000, 64]⟩, shapeCast ⟨2, ![5000, 64]⟩ xa Cert.KernelIdeal.Gen.shapeCasts_S5000x64_S5000x64⟩]
          Cert.KernelIdeal.Gen.concatenates_S5000x64_S5000x64_S5000x128_d1)
        Cert.KernelIdeal.Gen.bitsLt_bf16_f32 (ix2 p k)).trans
      (update_input_rows xf xa (Cert.ReferenceIdeal.Read.val_main_v7 (F := Ideal) x0 x4 x5)
        (Cert.ReferenceIdeal.Read.val_main_v44 (F := Ideal) x0 x1 x2 x4 x5 x6 x7 x8 x9 x10 x11 x12 x13)
        Cert.KernelIdeal.Gen.shapeCasts_S5000x64_S5000x64 Cert.KernelIdeal.Gen.concatenates_S5000x64_S5000x64_S5000x128_d1
        Cert.ReferenceIdeal.Gen.concatenates_S50000x64_S50000x64_S50000x128_d1 p n hf ha k))
    (fun k j => (truncf_apply (φ := .f32) .bf16 wh1 Cert.KernelIdeal.Gen.bitsLt_bf16_f32 (ix2 k j)).trans (hw1 k j)) hb1
    (fun k j => (truncf_apply (φ := .f32) .bf16 wh2 Cert.KernelIdeal.Gen.bitsLt_bf16_f32 (ix2 k j)).trans (hw2 k j)) hb2 q

end Cert.Stage

end
-- ==== Proof.MessageStages.lean ====
/-
  The messages an edge sends, read one edge at a time on the extended reals.

  For an edge e the network forms the row  c(e) = [ f(i_e) | f(j_e) | a(e) ]  of 192 entries: the features of the edge's
  two end nodes and the embedding a(e) of the edge's own attributes, itself a two-layer perceptron (a dense layer, SiLU,
  a dense layer) of the attribute row. From c(e) come the scalar message  mlp(c(e)) ⊙ f(i_e)  (a second two-layer
  perceptron, then an entrywise product with the first node's features) and the vector message
  v(e)[d, k] = u(e)[k] · m(e)[d], where m(e) = mlp'(c(e)) is a third two-layer perceptron and u(e) the edge's direction
  with three components.

  Each of these is a function of ONE row: a dense layer, SiLU, a concatenation along the feature axis and an entrywise
  product never mix rows. So a block of 2000 consecutive rows pushed through the network holds at its row p what the
  whole array of 800000 rows pushed through the same network holds at its row e, whenever the block's inputs at row p
  are the whole inputs at row e and the weights and biases agree entry by entry. This file chains the layer-by-layer
  congruences into that statement for the concatenated row, the scalar message and the vector message. The block form
  lays the vector message out flat, 192 columns, column 64·k + d holding u[k] · m[d]; the whole-array form is a
  rank-3 array indexed (e, d, k). The flat array `flatMessage` is the bridge: it is defined from the direction and the
  coefficients, the block form is shown equal to it row by row, and its entry 64·k + d is shown to be the rank-3
  array's entry (e, d, k).
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«123328_j6777458393829_1_alg».proof.Proof.Gen.KernelIdeal.Skeleton
import proofs.«123328_j6777458393829_1_alg».proof.Proof.Gen.ReferenceIdeal.Read
import proofs.«123328_j6777458393829_1_alg».proof.Proof.LibRowNet

noncomputable section

namespace Cert.Stage.Message

open Idealize.ShloMosaic Idealize.ShloMosaic.ValueIdx

/-! ## Two dense layers with SiLU between them -/

/-- A cast of a shape to itself, read at an index, is the vector itself. -/
theorem selfCast_apply {s : Shape} {α : Type} (v : s.Idx → α) (h : s.ShapeCasts s) (i : s.Idx) :
    shapeCast s v h i = v i := congrFun (shapeCast_self v h) i

/-- A two-layer perceptron, block form against whole-array form. The block form rounds its operands to a narrower
    format before each product (no change on the extended reals), accumulates each product into zeros and adds a stored
    bias row; the whole-array form is two `dot_general`s with broadcast bias vectors and SiLU spelled out through the
    exponential. If row p of the block's input is row p' of the whole input, and weights and biases agree, then row p of
    the block's output is row p' of the whole output: the outer layer's congruence, fed by SiLU's, fed by the inner
    layer's. -/
theorem mlp2_congr {M M' K H N : Nat}
    (X : FVec Ideal ⟨2, ![M, K]⟩ .f32) (W1 : FVec Ideal ⟨2, ![K, H]⟩ .f32) (B1 : FVec Ideal ⟨2, ![1, H]⟩ .f32)
    (W2 : FVec Ideal ⟨2, ![H, N]⟩ .f32) (B2 : FVec Ideal ⟨2, ![1, N]⟩ .f32)
    (X' : FVec Ideal ⟨2, ![M', K]⟩ .f32) (W1' : FVec Ideal ⟨2, ![K, H]⟩ .f32) (B1' : FVec Ideal ⟨1, ![H]⟩ .f32)
    (W2' : FVec Ideal ⟨2, ![H, N]⟩ .f32) (B2' : FVec Ideal ⟨1, ![N]⟩ .f32)
    (hbits : FTy.bits .bf16 < FTy.bits .f32)
    (hsc1 : (⟨2, ![1, H]⟩ : Shape).ShapeCasts ⟨2, ![1, H]⟩) (hb1 : (⟨2, ![1, H]⟩ : Shape).Broadcasts ⟨2, ![M, H]⟩)
    (hsc2 : (⟨2, ![1, N]⟩ : Shape).ShapeCasts ⟨2, ![1, N]⟩) (hb2 : (⟨2, ![1, N]⟩ : Shape).Broadcasts ⟨2, ![M, N]⟩)
    (g1 : (⟨1, ![H]⟩ : Shape).BroadcastsInDim ⟨2, ![1, H]⟩ ![1])
    (g2 : (⟨2, ![1, H]⟩ : Shape).BroadcastsInDim ⟨2, ![M', H]⟩ ![0, 1])
    (g3 : (⟨1, ![N]⟩ : Shape).BroadcastsInDim ⟨2, ![1, N]⟩ ![1])
    (g4 : (⟨2, ![1, N]⟩ : Shape).BroadcastsInDim ⟨2, ![M', N]⟩ ![0, 1])
    (g0 : (⟨0, ![]⟩ : Shape).BroadcastsInDim ⟨2, ![M', H]⟩ ![])
    (p : Fin M) (p' : Fin M')
    (hx : ∀ k, X (ix2 p k) = X' (ix2 p' k))
    (hW1 : ∀ k j, W1 (ix2 k j) = W1' (ix2 k j)) (hB1 : ∀ j, B1 (ix2 (0 : Fin 1) j) = B1' (ix1 j))
    (hW2 : ∀ k j, W2 (ix2 k j) = W2' (ix2 k j)) (hB2 : ∀ j, B2 (ix2 (0 : Fin 1) j) = B2' (ix1 j)) (q : Fin N) :
    addf (F := Ideal)
        (matmul (DotDims.plain M H N) none
          (truncf .bf16
            (mulf
              (addf (matmul (DotDims.plain M K H) none (truncf .bf16 X hbits) (truncf .bf16 W1 hbits)
                  (constant ⟨2, ![M, H]⟩ .f32 0x00000000#32))
                (broadcastTo ⟨2, ![M, H]⟩ (shapeCast ⟨2, ![1, H]⟩ B1 hsc1) hb1))
              (logistic
                (addf (matmul (DotDims.plain M K H) none (truncf .bf16 X hbits) (truncf .bf16 W1 hbits)
                    (constant ⟨2, ![M, H]⟩ .f32 0x00000000#32))
                  (broadcastTo ⟨2, ![M, H]⟩ (shapeCast ⟨2, ![1, H]⟩ B1 hsc1) hb1))))
            hbits)
          (truncf .bf16 W2 hbits) (constant ⟨2, ![M, N]⟩ .f32 0x00000000#32))
        (broadcastTo ⟨2, ![M, N]⟩ (shapeCast ⟨2, ![1, N]⟩ B2 hsc2) hb2) (ix2 p q)
      = addf (F := Ideal)
          (Host.dotGeneral (DotDims.plain M' H N) none
            (mulf
              (addf (Host.dotGeneral (DotDims.plain M' K H) none X' W1')
                (broadcastInDim ⟨2, ![M', H]⟩ ![0, 1] g2 (broadcastInDim ⟨2, ![1, H]⟩ ![1] g1 B1')))
              (Host.divf (broadcastInDim ⟨2, ![M', H]⟩ ![] g0 (constant (F := Ideal) ⟨0, ![]⟩ .f32 0x3F800000#32))
                (addf (broadcastInDim ⟨2, ![M', H]⟩ ![] g0 (constant (F := Ideal) ⟨0, ![]⟩ .f32 0x3F800000#32))
                  (Host.exp (Host.negf
                    (addf (Host.dotGeneral (DotDims.plain M' K H) none X' W1')
                      (broadcastInDim ⟨2, ![M', H]⟩ ![0, 1] g2 (broadcastInDim ⟨2, ![1, H]⟩ ![1] g1 B1'))))))))
            W2')
          (broadcastInDim ⟨2, ![M', N]⟩ ![0, 1] g4 (broadcastInDim ⟨2, ![1, N]⟩ ![1] g3 B2')) (ix2 p' q) := by
  refine Cert.RowNet.dense_congr _ (truncf .bf16 W2 hbits) B2 _ W2' B2' none none hsc2 hb2 g3 g4 p p' (fun k => ?_) hW2 hB2 q
  refine Cert.RowNet.silu_congr _ _ g0 g0 (ix2 p k) (ix2 p' k) ?_
  exact Cert.RowNet.dense_congr (truncf .bf16 X hbits) (truncf .bf16 W1 hbits) B1 X' W1' B1' none none hsc1 hb1 g1 g2 p p' hx hW1 hB1 k

/-! ## The edge embedding and the concatenated row -/

/-- The edge embedding: the block's two-layer perceptron of a block of attribute rows has at row p what the whole
    array's has at row e, when the block's attribute row p is the whole attribute array's row e. -/
theorem edgeEmbed_row
    (x0t : FVec Ideal ⟨2, ![2000, 16]⟩ .f32) (w1 : FVec Ideal ⟨2, ![16, 64]⟩ .f32) (b1 : FVec Ideal ⟨2, ![1, 64]⟩ .f32)
    (w2 : FVec Ideal ⟨2, ![64, 64]⟩ .f32) (b2 : FVec Ideal ⟨2, ![1, 64]⟩ .f32)
    (x2 : FVec Ideal ⟨2, ![800000, 16]⟩ .f32) (x6 : FVec Ideal ⟨2, ![16, 64]⟩ .f32) (x7 : FVec Ideal ⟨1, ![64]⟩ .f32)
    (x8 : FVec Ideal ⟨2, ![64, 64]⟩ .f32) (x9 : FVec Ideal ⟨1, ![64]⟩ .f32)
    (p : Fin 2000) (e : Fin 800000)
    (h0 : ∀ k, x0t (ix2 p k) = x2 (ix2 e k))
    (hw1 : ∀ k j, w1 (ix2 k j) = x6 (ix2 k j)) (hb1 : ∀ j, b1 (ix2 (0 : Fin 1) j) = x7 (ix1 j))
    (hw2 : ∀ k j, w2 (ix2 k j) = x8 (ix2 k j)) (hb2 : ∀ j, b2 (ix2 (0 : Fin 1) j) = x9 (ix1 j)) (q : Fin 64) :
    Cert.KernelIdeal.Gen.k1_pay2 (F := Ideal) x0t w1 b1 w2 b2 (ix2 p q)
      = Cert.ReferenceIdeal.Read.val_main_v16 (F := Ideal) x2 x6 x7 x8 x9 (ix2 e q) := by
  unfold Cert.KernelIdeal.Gen.k1_pay2
  unfold Cert.ReferenceIdeal.Read.val_main_v16 Cert.ReferenceIdeal.Read.val_main_v15 Cert.ReferenceIdeal.Read.val_main_v14
    Cert.ReferenceIdeal.Read.val_main_v13 Cert.ReferenceIdeal.Read.val_main_v12 Cert.ReferenceIdeal.Read.val_main_call0_v5
    Cert.ReferenceIdeal.Read.val_main_call0_v4 Cert.ReferenceIdeal.Read.val_main_call0_cst_0
    Cert.ReferenceIdeal.Read.val_main_call0_v3 Cert.ReferenceIdeal.Read.val_main_call0_v2
    Cert.ReferenceIdeal.Read.val_main_call0_cst Cert.ReferenceIdeal.Read.val_main_call0_v1
    Cert.ReferenceIdeal.Read.val_main_call0_v0 Cert.ReferenceIdeal.Read.val_main_v11 Cert.ReferenceIdeal.Read.val_main_v10
    Cert.ReferenceIdeal.Read.val_main_v9 Cert.ReferenceIdeal.Read.val_main_v8
  exact mlp2_congr (M := 2000) (M' := 800000) (K := 16) (H := 64) (N := 64) x0t w1 b1 w2 b2 x2 x6 x7 x8 x9
    _ _ _ _ _ _ _ _ _ _ p e h0 hw1 hb1 hw2 hb2 q

/-! ## Three scaled copies of a block side by side -/

/-- One scaled copy. Column k of a three-column block is cut out, stretched across 64 columns and multiplied into a
    64-column block; at (p, d) that is the three-column block's entry (p, k) times the other block's entry (p, d). If
    the blocks' rows p are rows p' of two whole arrays, it is the product of the whole arrays' entries. -/
theorem scaled_copy_row {M M' : Nat} (ev : FVec Ideal ⟨2, ![M, 3]⟩ .f32) (mv : FVec Ideal ⟨2, ![M, 64]⟩ .f32)
    (ev' : FVec Ideal ⟨2, ![M', 3]⟩ .f32) (mv' : FVec Ideal ⟨2, ![M', 64]⟩ .f32)
    (k : Nat) (hk : k < 3) (hs : (⟨2, ![M, 3]⟩ : Shape).Slices ![0, k] ⟨2, ![M, 1]⟩)
    (hbc : (⟨2, ![M, 1]⟩ : Shape).Broadcasts ⟨2, ![M, 64]⟩) (p : Fin M) (p' : Fin M')
    (hev : ∀ c, ev (ix2 p c) = ev' (ix2 p' c)) (hmv : ∀ d, mv (ix2 p d) = mv' (ix2 p' d)) (d : Fin 64) :
    mulf (broadcastTo ⟨2, ![M, 64]⟩ (extractStridedSlice ⟨2, ![M, 1]⟩ ![0, k] ev hs) hbc) mv (ix2 p d)
      = ev' (ix2 p' ⟨k, hk⟩) * mv' (ix2 p' d) :=
  (Cert.RowNet.column_scale_apply_nat ev mv k hk hs hbc p d).trans
    (congrArg₂ (fun a b : EReal => a * b) (hev ⟨k, hk⟩) (hmv d))

/-- The three scaled copies joined along the columns. Column q of the joined block lies in copy q / 64 at that copy's
    column q mod 64, so the joined block's entry (p, q) is the direction's component q / 64 times the coefficient
    q mod 64, both read at row p' of the whole arrays. -/
theorem flat_row {M M' : Nat} (ev : FVec Ideal ⟨2, ![M, 3]⟩ .f32) (mv : FVec Ideal ⟨2, ![M, 64]⟩ .f32)
    (ev' : FVec Ideal ⟨2, ![M', 3]⟩ .f32) (mv' : FVec Ideal ⟨2, ![M', 64]⟩ .f32)
    (hs0 : (⟨2, ![M, 3]⟩ : Shape).Slices ![0, 0] ⟨2, ![M, 1]⟩)
    (hs1 : (⟨2, ![M, 3]⟩ : Shape).Slices ![0, 1] ⟨2, ![M, 1]⟩)
    (hs2 : (⟨2, ![M, 3]⟩ : Shape).Slices ![0, 2] ⟨2, ![M, 1]⟩)
    (hbc : (⟨2, ![M, 1]⟩ : Shape).Broadcasts ⟨2, ![M, 64]⟩)
    (hcat : Shape.Concatenates [⟨2, ![M, 64]⟩, ⟨2, ![M, 64]⟩, ⟨2, ![M, 64]⟩] ⟨2, ![M, 192]⟩ 1)
    (p : Fin M) (p' : Fin M')
    (hev : ∀ c, ev (ix2 p c) = ev' (ix2 p' c)) (hmv : ∀ d, mv (ix2 p d) = mv' (ix2 p' d))
    (q : Fin 192) (h3 : q.val / 64 < 3) (h64 : q.val % 64 < 64) :
    concatenate ⟨2, ![M, 192]⟩ 1
        [⟨⟨2, ![M, 64]⟩, mulf (broadcastTo ⟨2, ![M, 64]⟩ (extractStridedSlice ⟨2, ![M, 1]⟩ ![0, 0] ev hs0) hbc) mv⟩,
         ⟨⟨2, ![M, 64]⟩, mulf (broadcastTo ⟨2, ![M, 64]⟩ (extractStridedSlice ⟨2, ![M, 1]⟩ ![0, 1] ev hs1) hbc) mv⟩,
         ⟨⟨2, ![M, 64]⟩, mulf (broadcastTo ⟨2, ![M, 64]⟩ (extractStridedSlice ⟨2, ![M, 1]⟩ ![0, 2] ev hs2) hbc) mv⟩]
        hcat (ix2 p q)
      = ev' (ix2 p' ⟨q.val / 64, h3⟩) * mv' (ix2 p' ⟨q.val % 64, h64⟩) := by
  have hq := q.isLt
  by_cases c1 : q.val < 64
  · refine (Cert.MlpRows.cat3_fst _ _ _ hcat p q c1).trans ?_
    refine (scaled_copy_row ev mv ev' mv' 0 (by decide) hs0 hbc p p' hev hmv ⟨q.val, c1⟩).trans ?_
    exact congrArg₂ (fun (a : Fin 3) (b : Fin 64) => ev' (ix2 p' a) * mv' (ix2 p' b))
      (Fin.ext (by show 0 = q.val / 64; omega)) (Fin.ext (by show q.val = q.val % 64; omega))
  · by_cases c2 : q.val < 64 + 64
    · refine (Cert.MlpRows.cat3_snd _ _ _ hcat p q (by omega) (by omega)).trans ?_
      refine (scaled_copy_row ev mv ev' mv' 1 (by decide) hs1 hbc p p' hev hmv ⟨q.val - 64, by omega⟩).trans ?_
      exact congrArg₂ (fun (a : Fin 3) (b : Fin 64) => ev' (ix2 p' a) * mv' (ix2 p' b))
        (Fin.ext (by show 1 = q.val / 64; omega)) (Fin.ext (by show q.val - 64 = q.val % 64; omega))
    · refine (Cert.MlpRows.cat3_thd _ _ _ hcat p q (by omega) (by omega)).trans ?_
      refine (scaled_copy_row ev mv ev' mv' 2 (by decide) hs2 hbc p p' hev hmv ⟨q.val - (64 + 64), by omega⟩).trans ?_
      exact congrArg₂ (fun (a : Fin 3) (b : Fin 64) => ev' (ix2 p' a) * mv' (ix2 p' b))
        (Fin.ext (by show 2 = q.val / 64; omega)) (Fin.ext (by show q.val - (64 + 64) = q.val % 64; omega))

/-- A column number below 192 divided by 64 is below 3. -/
theorem flat_div_lt (c : Fin 192) : c.val / 64 < 3 := by
  have := c.isLt
  omega

end Cert.Stage.Message

namespace Cert.Stage

open Idealize.ShloMosaic Idealize.ShloMosaic.ValueIdx Cert.Stage.Message

/-- The concatenated row. The block joins the first gathered block (through a cast of its shape to itself), the second
    gathered block (the same) and the edge embedding's block; the whole array joins the two gathered arrays and the
    edge embedding. Piece by piece the block's row p is the whole array's row e. -/
theorem cat_rows
    (x0t : FVec Ideal ⟨2, ![2000, 16]⟩ .f32) (xi xj : FVec Ideal ⟨2, ![2000, 64]⟩ .f32)
    (w1 : FVec Ideal ⟨2, ![16, 64]⟩ .f32) (b1 : FVec Ideal ⟨2, ![1, 64]⟩ .f32)
    (w2 : FVec Ideal ⟨2, ![64, 64]⟩ .f32) (b2 : FVec Ideal ⟨2, ![1, 64]⟩ .f32)
    (x0 : FVec Ideal ⟨2, ![50000, 5]⟩ .f32) (x1 : IVec ⟨2, ![2, 800000]⟩ 32) (x2 : FVec Ideal ⟨2, ![800000, 16]⟩ .f32)
    (x4 : FVec Ideal ⟨2, ![5, 64]⟩ .f32) (x5 : FVec Ideal ⟨1, ![64]⟩ .f32)
    (x6 : FVec Ideal ⟨2, ![16, 64]⟩ .f32) (x7 : FVec Ideal ⟨1, ![64]⟩ .f32)
    (x8 : FVec Ideal ⟨2, ![64, 64]⟩ .f32) (x9 : FVec Ideal ⟨1, ![64]⟩ .f32)
    (p : Fin 2000) (e : Fin 800000)
    (h0 : ∀ k, x0t (ix2 p k) = x2 (ix2 e k))
    (hi : ∀ k, xi (ix2 p k) = Cert.ReferenceIdeal.Read.val_main_v23 (F := Ideal) x0 x1 x4 x5 (ix2 e k))
    (hj : ∀ k, xj (ix2 p k) = Cert.ReferenceIdeal.Read.val_main_v30 (F := Ideal) x0 x1 x4 x5 (ix2 e k))
    (hw1 : ∀ k j, w1 (ix2 k j) = x6 (ix2 k j)) (hb1 : ∀ j, b1 (ix2 (0 : Fin 1) j) = x7 (ix1 j))
    (hw2 : ∀ k j, w2 (ix2 k j) = x8 (ix2 k j)) (hb2 : ∀ j, b2 (ix2 (0 : Fin 1) j) = x9 (ix1 j)) (k : Fin 192) :
    Cert.KernelIdeal.Gen.k1_pay3 (F := Ideal) x0t xi xj w1 b1 w2 b2 (ix2 p k)
      = Cert.ReferenceIdeal.Read.val_main_v31 (F := Ideal) x0 x1 x2 x4 x5 x6 x7 x8 x9 (ix2 e k) := by
  unfold Cert.KernelIdeal.Gen.k1_pay3 Cert.KernelIdeal.Gen.k1_pay1 Cert.ReferenceIdeal.Read.val_main_v31
  refine Cert.MlpRows.cat3_row_congr (M := 2000) (M' := 800000) (C := 64) (T := 192) _ _ _ _ _ _ _ _ p e
    (fun c => ?_) (fun c => ?_) (fun c => ?_) k
  · exact (selfCast_apply xi _ (ix2 p c)).trans (hi c)
  · exact (selfCast_apply xj _ (ix2 p c)).trans (hj c)
  · exact edgeEmbed_row x0t w1 b1 w2 b2 x2 x6 x7 x8 x9 p e h0 hw1 hb1 hw2 hb2 c

/-! ## The scalar message -/

/-- The scalar message: the block's two-layer perceptron of the concatenated block, times the first gathered block,
    has at row p what the whole array's perceptron of the concatenated array, times the first gathered array, has at
    row e. -/
theorem msgs_rows
    (x0t : FVec Ideal ⟨2, ![2000, 16]⟩ .f32) (xi xj : FVec Ideal ⟨2, ![2000, 64]⟩ .f32)
    (w1 : FVec Ideal ⟨2, ![16, 64]⟩ .f32) (b1 : FVec Ideal ⟨2, ![1, 64]⟩ .f32)
    (w2 : FVec Ideal ⟨2, ![64, 64]⟩ .f32) (b2 : FVec Ideal ⟨2, ![1, 64]⟩ .f32)
    (ws1 : FVec Ideal ⟨2, ![192, 64]⟩ .f32) (bs1 : FVec Ideal ⟨2, ![1, 64]⟩ .f32)
    (ws2 : FVec Ideal ⟨2, ![64, 64]⟩ .f32) (bs2 : FVec Ideal ⟨2, ![1, 64]⟩ .f32)
    (x0 : FVec Ideal ⟨2, ![50000, 5]⟩ .f32) (x1 : IVec ⟨2, ![2, 800000]⟩ 32) (x2 : FVec Ideal ⟨2, ![800000, 16]⟩ .f32)
    (x4 : FVec Ideal ⟨2, ![5, 64]⟩ .f32) (x5 : FVec Ideal ⟨1, ![64]⟩ .f32)
    (x6 : FVec Ideal ⟨2, ![16, 64]⟩ .f32) (x7 : FVec Ideal ⟨1, ![64]⟩ .f32)
    (x8 : FVec Ideal ⟨2, ![64, 64]⟩ .f32) (x9 : FVec Ideal ⟨1, ![64]⟩ .f32)
    (x10 : FVec Ideal ⟨2, ![192, 64]⟩ .f32) (x11 : FVec Ideal ⟨1, ![64]⟩ .f32)
    (x12 : FVec Ideal ⟨2, ![64, 64]⟩ .f32) (x13 : FVec Ideal ⟨1, ![64]⟩ .f32)
    (p : Fin 2000) (e : Fin 800000)
    (h0 : ∀ k, x0t (ix2 p k) = x2 (ix2 e k))
    (hi : ∀ k, xi (ix2 p k) = Cert.ReferenceIdeal.Read.val_main_v23 (F := Ideal) x0 x1 x4 x5 (ix2 e k))
    (hj : ∀ k, xj (ix2 p k) = Cert.ReferenceIdeal.Read.val_main_v30 (F := Ideal) x0 x1 x4 x5 (ix2 e k))
    (hw1 : ∀ k j, w1 (ix2 k j) = x6 (ix2 k j)) (hb1 : ∀ j, b1 (ix2 (0 : Fin 1) j) = x7 (ix1 j))
    (hw2 : ∀ k j, w2 (ix2 k j) = x8 (ix2 k j)) (hb2 : ∀ j, b2 (ix2 (0 : Fin 1) j) = x9 (ix1 j))
    (hws1 : ∀ k j, ws1 (ix2 k j) = x10 (ix2 k j)) (hbs1 : ∀ j, bs1 (ix2 (0 : Fin 1) j) = x11 (ix1 j))
    (hws2 : ∀ k j, ws2 (ix2 k j) = x12 (ix2 k j)) (hbs2 : ∀ j, bs2 (ix2 (0 : Fin 1) j) = x13 (ix1 j)) (q : Fin 64) :
    Cert.KernelIdeal.Gen.k1_pay5 (F := Ideal) (Cert.KernelIdeal.Gen.k1_pay1 xi)
        (Cert.KernelIdeal.Gen.k1_pay4 x0t xi xj w1 b1 w2 b2 ws1 bs1) ws2 bs2 (ix2 p q)
      = Cert.ReferenceIdeal.Read.val_main_v41 (F := Ideal) x0 x1 x2 x4 x5 x6 x7 x8 x9 x10 x11 x12 x13 (ix2 e q) := by
  unfold Cert.KernelIdeal.Gen.k1_pay5 Cert.KernelIdeal.Gen.k1_pay4
  unfold Cert.ReferenceIdeal.Read.val_main_v41 Cert.ReferenceIdeal.Read.val_main_v40 Cert.ReferenceIdeal.Read.val_main_v39
    Cert.ReferenceIdeal.Read.val_main_v38 Cert.ReferenceIdeal.Read.val_main_v37 Cert.ReferenceIdeal.Read.val_main_v36
    Cert.ReferenceIdeal.Read.val_main_call1_v5 Cert.ReferenceIdeal.Read.val_main_call1_v4
    Cert.ReferenceIdeal.Read.val_main_call1_cst_0 Cert.ReferenceIdeal.Read.val_main_call1_v3
    Cert.ReferenceIdeal.Read.val_main_call1_v2 Cert.ReferenceIdeal.Read.val_main_call1_cst
    Cert.ReferenceIdeal.Read.val_main_call1_v1 Cert.ReferenceIdeal.Read.val_main_call1_v0
    Cert.ReferenceIdeal.Read.val_main_v35 Cert.ReferenceIdeal.Read.val_main_v34 Cert.ReferenceIdeal.Read.val_main_v33
    Cert.ReferenceIdeal.Read.val_main_v32
  refine Cert.RowNet.mul_congr _ _ _ _ (ix2 p q) (ix2 e q) ?_ ?_
  · exact mlp2_congr (M := 2000) (M' := 800000) (K := 192) (H := 64) (N := 64)
      (Cert.KernelIdeal.Gen.k1_pay3 x0t xi xj w1 b1 w2 b2) ws1 bs1 ws2 bs2
      (Cert.ReferenceIdeal.Read.val_main_v31 (F := Ideal) x0 x1 x2 x4 x5 x6 x7 x8 x9) x10 x11 x12 x13
      _ _ _ _ _ _ _ _ _ _ p e
      (cat_rows x0t xi xj w1 b1 w2 b2 x0 x1 x2 x4 x5 x6 x7 x8 x9 p e h0 hi hj hw1 hb1 hw2 hb2)
      hws1 hbs1 hws2 hbs2 q
  · exact (selfCast_apply xi Cert.KernelIdeal.Gen.shapeCasts_S2000x64_S2000x64 (ix2 p q)).trans (hi q)

/-! ## The vector message -/

/-- The whole-array vector message at (e, d, k): the direction's component k times the coefficient d, both of edge e.
    The rank-3 array is the product of two broadcasts, of the direction along a new middle axis and of the coefficients
    along a new last axis; reading each broadcast at (e, d, k) drops the axis it added. -/
theorem ref_message_apply
    (x0 : FVec Ideal ⟨2, ![50000, 5]⟩ .f32) (x1 : IVec ⟨2, ![2, 800000]⟩ 32) (x2 : FVec Ideal ⟨2, ![800000, 16]⟩ .f32)
    (x3 : FVec Ideal ⟨2, ![800000, 3]⟩ .f32) (x4 : FVec Ideal ⟨2, ![5, 64]⟩ .f32) (x5 : FVec Ideal ⟨1, ![64]⟩ .f32)
    (x6 : FVec Ideal ⟨2, ![16, 64]⟩ .f32) (x7 : FVec Ideal ⟨1, ![64]⟩ .f32)
    (x8 : FVec Ideal ⟨2, ![64, 64]⟩ .f32) (x9 : FVec Ideal ⟨1, ![64]⟩ .f32)
    (x18 : FVec Ideal ⟨2, ![192, 64]⟩ .f32) (x19 : FVec Ideal ⟨1, ![64]⟩ .f32)
    (x20 : FVec Ideal ⟨2, ![64, 64]⟩ .f32) (x21 : FVec Ideal ⟨1, ![64]⟩ .f32)
    (e : Fin 800000) (d : Fin 64) (k : Fin 3) :
    Cert.ReferenceIdeal.Read.val_main_v68 (F := Ideal) x0 x1 x2 x3 x4 x5 x6 x7 x8 x9 x18 x19 x20 x21 (ix3 e d k)
      = x3 (ix2 e k) * Cert.ReferenceIdeal.Read.val_main_v64 (F := Ideal) x0 x1 x2 x4 x5 x6 x7 x8 x9 x18 x19 x20 x21 (ix2 e d) := by
  rw [Cert.ReferenceIdeal.Read.val_main_v68_apply, Cert.ReferenceIdeal.Read.val_main_v66_apply,
    Cert.ReferenceIdeal.Read.val_main_v55_apply, Cert.ReferenceIdeal.Read.val_main_v67_apply,
    Cert.ReferenceIdeal.Read.val_main_v65_apply]
  have h1 : Cert.ReferenceIdeal.Read.idx_main_v55 (Cert.ReferenceIdeal.Read.idx_main_v66 (ix3 e d k)) = ix2 e k := by
    funext a
    match a with
    | ⟨0, _⟩ => rfl
    | ⟨1, _⟩ => rfl
  have h2 : Cert.ReferenceIdeal.Read.idx_main_v65 (Cert.ReferenceIdeal.Read.idx_main_v67 (ix3 e d k)) = ix2 e d := by
    funext a
    match a with
    | ⟨0, _⟩ => rfl
    | ⟨1, _⟩ => rfl
  rw [h1, h2]
  rfl

/-- The vector message flattened: a [800000, 192] array whose column 64·k + d at row e holds the direction's component
    k times the coefficient d of edge e. -/
def flatMessage
    (x0 : FVec Ideal ⟨2, ![50000, 5]⟩ .f32) (x1 : IVec ⟨2, ![2, 800000]⟩ 32) (x2 : FVec Ideal ⟨2, ![800000, 16]⟩ .f32)
    (x3 : FVec Ideal ⟨2, ![800000, 3]⟩ .f32) (x4 : FVec Ideal ⟨2, ![5, 64]⟩ .f32) (x5 : FVec Ideal ⟨1, ![64]⟩ .f32)
    (x6 : FVec Ideal ⟨2, ![16, 64]⟩ .f32) (x7 : FVec Ideal ⟨1, ![64]⟩ .f32)
    (x8 : FVec Ideal ⟨2, ![64, 64]⟩ .f32) (x9 : FVec Ideal ⟨1, ![64]⟩ .f32)
    (x18 : FVec Ideal ⟨2, ![192, 64]⟩ .f32) (x19 : FVec Ideal ⟨1, ![64]⟩ .f32)
    (x20 : FVec Ideal ⟨2, ![64, 64]⟩ .f32) (x21 : FVec Ideal ⟨1, ![64]⟩ .f32) :
    FVec Ideal ⟨2, ![800000, 192]⟩ .f32 := fun i =>
  x3 (ix2 (i 0) ⟨(i 1).val / 64, flat_div_lt (i 1)⟩)
    * Cert.ReferenceIdeal.Read.val_main_v64 (F := Ideal) x0 x1 x2 x4 x5 x6 x7 x8 x9 x18 x19 x20 x21
        (ix2 (i 0) ⟨(i 1).val % 64, Nat.mod_lt _ (by decide)⟩)

/-- Column a·64 + b of the flat array is the rank-3 array's entry (e, b, a): the column number divided by 64 is a,
    and its remainder is b. -/
theorem flat_message_apply
    (x0 : FVec Ideal ⟨2, ![50000, 5]⟩ .f32) (x1 : IVec ⟨2, ![2, 800000]⟩ 32) (x2 : FVec Ideal ⟨2, ![800000, 16]⟩ .f32)
    (x3 : FVec Ideal ⟨2, ![800000, 3]⟩ .f32) (x4 : FVec Ideal ⟨2, ![5, 64]⟩ .f32) (x5 : FVec Ideal ⟨1, ![64]⟩ .f32)
    (x6 : FVec Ideal ⟨2, ![16, 64]⟩ .f32) (x7 : FVec Ideal ⟨1, ![64]⟩ .f32)
    (x8 : FVec Ideal ⟨2, ![64, 64]⟩ .f32) (x9 : FVec Ideal ⟨1, ![64]⟩ .f32)
    (x18 : FVec Ideal ⟨2, ![192, 64]⟩ .f32) (x19 : FVec Ideal ⟨1, ![64]⟩ .f32)
    (x20 : FVec Ideal ⟨2, ![64, 64]⟩ .f32) (x21 : FVec Ideal ⟨1, ![64]⟩ .f32)
    (e : Fin 800000) (a : Fin 3) (b : Fin 64) (hab : a.val * 64 + b.val < 192) :
    flatMessage x0 x1 x2 x3 x4 x5 x6 x7 x8 x9 x18 x19 x20 x21 (ix2 e ⟨a.val * 64 + b.val, hab⟩)
      = Cert.ReferenceIdeal.Read.val_main_v68 (F := Ideal) x0 x1 x2 x3 x4 x5 x6 x7 x8 x9 x18 x19 x20 x21 (ix3 e b a) := by
  refine Eq.trans ?_ (ref_message_apply x0 x1 x2 x3 x4 x5 x6 x7 x8 x9 x18 x19 x20 x21 e b a).symm
  have ha := a.isLt
  have hb := b.isLt
  unfold flatMessage
  exact congrArg₂
    (fun (k : Fin 3) (d : Fin 64) =>
      x3 (ix2 e k) * Cert.ReferenceIdeal.Read.val_main_v64 (F := Ideal) x0 x1 x2 x4 x5 x6 x7 x8 x9 x18 x19 x20 x21 (ix2 e d))
    (Fin.ext (by show (a.val * 64 + b.val) / 64 = a.val; omega))
    (Fin.ext (by show (a.val * 64 + b.val) % 64 = b.val; omega))

/-- The vector message: the block's three scaled copies of its coefficient block, side by side, have at row p what the
    flat array has at row e. The coefficient block is the block's third two-layer perceptron of the concatenated
    block, whose row p is the whole array's coefficient row e. -/
theorem msgv_rows
    (ev : FVec Ideal ⟨2, ![2000, 3]⟩ .f32)
    (x0t : FVec Ideal ⟨2, ![2000, 16]⟩ .f32) (xi xj : FVec Ideal ⟨2, ![2000, 64]⟩ .f32)
    (w1 : FVec Ideal ⟨2, ![16, 64]⟩ .f32) (b1 : FVec Ideal ⟨2, ![1, 64]⟩ .f32)
    (w2 : FVec Ideal ⟨2, ![64, 64]⟩ .f32) (b2 : FVec Ideal ⟨2, ![1, 64]⟩ .f32)
    (wv1 : FVec Ideal ⟨2, ![192, 64]⟩ .f32) (bv1 : FVec Ideal ⟨2, ![1, 64]⟩ .f32)
    (wv2 : FVec Ideal ⟨2, ![64, 64]⟩ .f32) (bv2 : FVec Ideal ⟨2, ![1, 64]⟩ .f32)
    (x0 : FVec Ideal ⟨2, ![50000, 5]⟩ .f32) (x1 : IVec ⟨2, ![2, 800000]⟩ 32) (x2 : FVec Ideal ⟨2, ![800000, 16]⟩ .f32)
    (x3 : FVec Ideal ⟨2, ![800000, 3]⟩ .f32) (x4 : FVec Ideal ⟨2, ![5, 64]⟩ .f32) (x5 : FVec Ideal ⟨1, ![64]⟩ .f32)
    (x6 : FVec Ideal ⟨2, ![16, 64]⟩ .f32) (x7 : FVec Ideal ⟨1, ![64]⟩ .f32)
    (x8 : FVec Ideal ⟨2, ![64, 64]⟩ .f32) (x9 : FVec Ideal ⟨1, ![64]⟩ .f32)
    (x18 : FVec Ideal ⟨2, ![192, 64]⟩ .f32) (x19 : FVec Ideal ⟨1, ![64]⟩ .f32)
    (x20 : FVec Ideal ⟨2, ![64, 64]⟩ .f32) (x21 : FVec Ideal ⟨1, ![64]⟩ .f32)
    (p : Fin 2000) (e : Fin 800000)
    (h0 : ∀ k, x0t (ix2 p k) = x2 (ix2 e k))
    (hi : ∀ k, xi (ix2 p k) = Cert.ReferenceIdeal.Read.val_main_v23 (F := Ideal) x0 x1 x4 x5 (ix2 e k))
    (hj : ∀ k, xj (ix2 p k) = Cert.ReferenceIdeal.Read.val_main_v30 (F := Ideal) x0 x1 x4 x5 (ix2 e k))
    (hev : ∀ k, ev (ix2 p k) = x3 (ix2 e k))
    (hw1 : ∀ k j, w1 (ix2 k j) = x6 (ix2 k j)) (hb1 : ∀ j, b1 (ix2 (0 : Fin 1) j) = x7 (ix1 j))
    (hw2 : ∀ k j, w2 (ix2 k j) = x8 (ix2 k j)) (hb2 : ∀ j, b2 (ix2 (0 : Fin 1) j) = x9 (ix1 j))
    (hwv1 : ∀ k j, wv1 (ix2 k j) = x18 (ix2 k j)) (hbv1 : ∀ j, bv1 (ix2 (0 : Fin 1) j) = x19 (ix1 j))
    (hwv2 : ∀ k j, wv2 (ix2 k j) = x20 (ix2 k j)) (hbv2 : ∀ j, bv2 (ix2 (0 : Fin 1) j) = x21 (ix1 j)) (q : Fin 192) :
    Cert.KernelIdeal.Gen.k1_pay6 (F := Ideal) ev (Cert.KernelIdeal.Gen.k1_pay3 x0t xi xj w1 b1 w2 b2) wv1 bv1 wv2 bv2
        (ix2 p q)
      = flatMessage x0 x1 x2 x3 x4 x5 x6 x7 x8 x9 x18 x19 x20 x21 (ix2 e q) := by
  unfold Cert.KernelIdeal.Gen.k1_pay6 flatMessage
  refine flat_row (M := 2000) (M' := 800000) ev _ x3
    (Cert.ReferenceIdeal.Read.val_main_v64 (F := Ideal) x0 x1 x2 x4 x5 x6 x7 x8 x9 x18 x19 x20 x21) _ _ _ _ _ p e hev (fun d => ?_) q _ _
  unfold Cert.ReferenceIdeal.Read.val_main_v64 Cert.ReferenceIdeal.Read.val_main_v63 Cert.ReferenceIdeal.Read.val_main_v62
    Cert.ReferenceIdeal.Read.val_main_v61 Cert.ReferenceIdeal.Read.val_main_v60 Cert.ReferenceIdeal.Read.val_main_call3_v5
    Cert.ReferenceIdeal.Read.val_main_call3_v4 Cert.ReferenceIdeal.Read.val_main_call3_cst_0
    Cert.ReferenceIdeal.Read.val_main_call3_v3 Cert.ReferenceIdeal.Read.val_main_call3_v2
    Cert.ReferenceIdeal.Read.val_main_call3_cst Cert.ReferenceIdeal.Read.val_main_call3_v1
    Cert.ReferenceIdeal.Read.val_main_call3_v0 Cert.ReferenceIdeal.Read.val_main_v59 Cert.ReferenceIdeal.Read.val_main_v58
    Cert.ReferenceIdeal.Read.val_main_v57 Cert.ReferenceIdeal.Read.val_main_v56
  exact mlp2_congr (M := 2000) (M' := 800000) (K := 192) (H := 64) (N := 64)
    (Cert.KernelIdeal.Gen.k1_pay3 x0t xi xj w1 b1 w2 b2) wv1 bv1 wv2 bv2
    (Cert.ReferenceIdeal.Read.val_main_v31 (F := Ideal) x0 x1 x2 x4 x5 x6 x7 x8 x9) x18 x19 x20 x21
    _ _ _ _ _ _ _ _ _ _ p e
    (cat_rows x0t xi xj w1 b1 w2 b2 x0 x1 x2 x4 x5 x6 x7 x8 x9 p e h0 hi hj hw1 hb1 hw2 hb2)
    hwv1 hbv1 hwv2 hbv2 d

end Cert.Stage

end
-- ==== Proof.LibScatterRows.lean ====
/-
  The host's accumulating scatter of ROWS, read at an index at the ideal instance.

  An operand of N rows, E update rows, and an [E, 1] array of row numbers: update row e is added
  onto operand row (row number of e). At the ideal instance the result at (n, c) is the operand's
  element plus the exact sum of the update elements (e, c) over the e whose row number is n.
  Stated for any dimension-numbers record whose fields are the row scatter's (window axes all
  but the first, first operand axis inserted and named by the one-component index vector), at
  rank 2 and rank 3, for row numbers known to be in range (given as a function into Fin N).
-/
import Idealize.ShloMosaic.PureOps
import Idealize.ShloMosaic.PureOps.Ideal
import Idealize.ShloMosaic.Lib.ValueIdx

open scoped BigOperators
open Idealize.ShloMosaic Idealize.ShloMosaic.ValueIdx

namespace Cert.Att.Lib

/-! ## Rank 2 -/

/-- The row scatter's window start and window coordinate on each operand axis, rank 2: the start
    on axis 0 is the row number read at (u 0, 0) and the window coordinate there is 0; on axis 1
    the start is 0 and the window coordinate is u's second coordinate. -/
theorem start_window_rows2 {N E C w : Nat} (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hivd : d.indexVectorDim = 1)
    (idx : IVec ⟨2, ![E, 1]⟩ w) (u : (⟨2, ![E, C]⟩ : Shape).Idx) :
    d.start u idx 0 = (idx (ix2 (u 0) 0)).toInt ∧ d.start u idx 1 = 0
    ∧ d.window u 0 = 0 ∧ d.window u 1 = (u 1).val := by
  obtain ⟨uw, iw, sd, ivd, wf⟩ := d
  dsimp only at huw hiw hsd hivd
  subst huw hiw hsd hivd
  refine ⟨?_, ?_, ?_, ?_⟩
  · unfold ScatterDims.start
    rw [dif_pos (show (0 : Fin 2) ∈ ([0] : List (Fin 2)) by decide)]
    congr 2
    funext b
    match b with
    | ⟨0, _⟩ => rfl
    | ⟨1, _⟩ => rfl
  · unfold ScatterDims.start
    rw [dif_neg (show (1 : Fin 2) ∉ ([0] : List (Fin 2)) by decide)]
  · unfold ScatterDims.window
    split
    · rename_i ha
      exact absurd ha (show (0 : Fin 2) ∉ (List.finRange 2).filter (fun a => a ∉ ([0] : List (Fin 2))) by decide)
    · rfl
  · unfold ScatterDims.window
    split
    · rfl
    · rename_i ha
      exact absurd (show (1 : Fin 2) ∈ (List.finRange 2).filter (fun a => a ∉ ([0] : List (Fin 2))) by decide) ha

/-- Under the row scatter's dimension numbers and in-range row numbers, update index u lands at
    (row number of u's row, u's column): never dropped. -/
theorem resultIdx?_rows2 {N E C w : Nat} (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hivd : d.indexVectorDim = 1)
    (idx : IVec ⟨2, ![E, 1]⟩ w) (dst : Fin E → Fin N)
    (hdst : ∀ e, (idx (ix2 e 0)).toInt = ((dst e).val : ℤ)) (u : (⟨2, ![E, C]⟩ : Shape).Idx) :
    d.resultIdx? u idx = some (ix2 (dst (u 0)) (u 1)) := by
  obtain ⟨h0, h1, hw0, hw1⟩ := start_window_rows2 d huw hiw hsd hivd idx u
  have hd : d.start u idx 0 = ((dst (u 0)).val : ℤ) := h0.trans (hdst (u 0))
  have hlt0 : (dst (u 0)).val < N := (dst (u 0)).isLt
  have hlt1 : (u 1).val < C := idx2_lt1 u
  have hcond : ∀ a, 0 ≤ d.start u idx a + d.window u a ∧
      d.start u idx a + d.window u a < (⟨2, ![N, C]⟩ : Shape).size a := by
    intro a
    match a with
    | ⟨0, _⟩ =>
      show 0 ≤ d.start u idx 0 + (d.window u 0 : ℤ) ∧ d.start u idx 0 + (d.window u 0 : ℤ) < (N : ℤ)
      rw [hd, hw0]
      omega
    | ⟨1, _⟩ =>
      show 0 ≤ d.start u idx 1 + (d.window u 1 : ℤ) ∧ d.start u idx 1 + (d.window u 1 : ℤ) < (C : ℤ)
      rw [h1, hw1]
      omega
  unfold ScatterDims.resultIdx?
  rw [dif_pos hcond]
  congr 1
  funext a
  match a with
  | ⟨0, _⟩ =>
    apply Fin.ext
    show (d.start u idx 0 + (d.window u 0 : ℤ)).toNat = (dst (u 0)).val
    rw [hd, hw0]
    omega
  | ⟨1, _⟩ =>
    apply Fin.ext
    show (d.start u idx 1 + (d.window u 1 : ℤ)).toNat = (u 1).val
    rw [h1, hw1]
    omega

/-- THE ROW SCATTER AT AN INDEX, rank 2. An accumulating scatter of E update rows of width C
    into an operand of N rows, row e going to the row whose number the [E, 1] index array holds
    at (e, 0) — numbers in range, `dst e` —, is at the ideal instance, at (n, c), the operand's
    element plus the exact sum of `upd (e, c)` over the rows e sent to n. -/
theorem scatterAdd_rows2 {N E C w : Nat} (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hivd : d.indexVectorDim = 1)
    (x : (⟨2, ![N, C]⟩ : Shape).Idx → EReal) (idx : IVec ⟨2, ![E, 1]⟩ w)
    (upd : (⟨2, ![E, C]⟩ : Shape).Idx → EReal)
    (dst : Fin E → Fin N) (hdst : ∀ e, (idx (ix2 e 0)).toInt = ((dst e).val : ℤ))
    (n : Fin N) (c : Fin C) :
    Ideal.hostScatterAdd d x idx upd (ix2 n c) =
      x (ix2 n c) + ∑ e ∈ Finset.univ.filter (fun e => dst e = n), upd (ix2 e c) := by
  unfold Ideal.hostScatterAdd
  congr 1
  symm
  refine Finset.sum_bij (fun e _ => ix2 e c) ?_ ?_ ?_ ?_
  · intro e he
    rw [Finset.mem_filter] at he ⊢
    refine ⟨Finset.mem_univ _, ?_⟩
    rw [resultIdx?_rows2 d huw hiw hsd hivd idx dst hdst]
    show some (ix2 (dst e) c) = some (ix2 n c)
    rw [he.2]
  · intro a _ b _ h
    exact congrFun h 0
  · intro u hu
    rw [Finset.mem_filter, resultIdx?_rows2 d huw hiw hsd hivd idx dst hdst] at hu
    have hu' := Option.some.inj hu.2
    have e0 : dst (u 0) = n := congrFun hu' 0
    have e1 : u 1 = c := congrFun hu' 1
    refine ⟨u 0, Finset.mem_filter.2 ⟨Finset.mem_univ _, e0⟩, ?_⟩
    rw [← e1]
    exact (eq_ix2 u).symm
  · intro e _
    rfl

/-! ## Rank 3 -/

/-- The row scatter's window start and window coordinate on each operand axis, rank 3: the start
    on axis 0 is the row number read at (u 0, 0) and the window coordinate there is 0; on axes 1
    and 2 the start is 0 and the window coordinate is u's coordinate on that axis. -/
theorem start_window_rows3 {N H D E w : Nat}
    (d : ScatterDims ⟨3, ![N, H, D]⟩ ⟨2, ![E, 1]⟩ ⟨3, ![E, H, D]⟩)
    (huw : d.updateWindowDims = [1, 2]) (hiw : d.insertedWindowDims = [0])
    (hsd : d.scatterDimsToOperandDims = [0]) (hivd : d.indexVectorDim = 1)
    (idx : IVec ⟨2, ![E, 1]⟩ w) (u : (⟨3, ![E, H, D]⟩ : Shape).Idx) :
    d.start u idx 0 = (idx (ix2 (u 0) 0)).toInt ∧ d.start u idx 1 = 0 ∧ d.start u idx 2 = 0
    ∧ d.window u 0 = 0 ∧ d.window u 1 = (u 1).val ∧ d.window u 2 = (u 2).val := by
  obtain ⟨uw, iw, sd, ivd, wf⟩ := d
  dsimp only at huw hiw hsd hivd
  subst huw hiw hsd hivd
  refine ⟨?_, ?_, ?_, ?_, ?_, ?_⟩
  · unfold ScatterDims.start
    rw [dif_pos (show (0 : Fin 3) ∈ ([0] : List (Fin 3)) by decide)]
    congr 2
    funext b
    match b with
    | ⟨0, _⟩ => rfl
    | ⟨1, _⟩ => rfl
  · unfold ScatterDims.start
    rw [dif_neg (show (1 : Fin 3) ∉ ([0] : List (Fin 3)) by decide)]
  · unfold ScatterDims.start
    rw [dif_neg (show (2 : Fin 3) ∉ ([0] : List (Fin 3)) by decide)]
  · unfold ScatterDims.window
    split
    · rename_i ha
      exact absurd ha (show (0 : Fin 3) ∉ (List.finRange 3).filter (fun a => a ∉ ([0] : List (Fin 3))) by decide)
    · rfl
  · unfold ScatterDims.window
    split
    · rfl
    · rename_i ha
      exact absurd (show (1 : Fin 3) ∈ (List.finRange 3).filter (fun a => a ∉ ([0] : List (Fin 3))) by decide) ha
  · unfold ScatterDims.window
    split
    · rfl
    · rename_i ha
      exact absurd (show (2 : Fin 3) ∈ (List.finRange 3).filter (fun a => a ∉ ([0] : List (Fin 3))) by decide) ha

/-- Under the row scatter's dimension numbers and in-range row numbers, rank 3, update index u
    lands at (row number of u's row, u's second coordinate, u's third): never dropped. -/
theorem resultIdx?_rows3 {N H D E w : Nat}
    (d : ScatterDims ⟨3, ![N, H, D]⟩ ⟨2, ![E, 1]⟩ ⟨3, ![E, H, D]⟩)
    (huw : d.updateWindowDims = [1, 2]) (hiw : d.insertedWindowDims = [0])
    (hsd : d.scatterDimsToOperandDims = [0]) (hivd : d.indexVectorDim = 1)
    (idx : IVec ⟨2, ![E, 1]⟩ w) (dst : Fin E → Fin N)
    (hdst : ∀ e, (idx (ix2 e 0)).toInt = ((dst e).val : ℤ)) (u : (⟨3, ![E, H, D]⟩ : Shape).Idx) :
    d.resultIdx? u idx = some (ix3 (dst (u 0)) (u 1) (u 2)) := by
  obtain ⟨h0, h1, h2, hw0, hw1, hw2⟩ := start_window_rows3 d huw hiw hsd hivd idx u
  have hd : d.start u idx 0 = ((dst (u 0)).val : ℤ) := h0.trans (hdst (u 0))
  have hlt0 : (dst (u 0)).val < N := (dst (u 0)).isLt
  have hlt1 : (u 1).val < H := (u 1).isLt
  have hlt2 : (u 2).val < D := (u 2).isLt
  have hcond : ∀ a, 0 ≤ d.start u idx a + d.window u a ∧
      d.start u idx a + d.window u a < (⟨3, ![N, H, D]⟩ : Shape).size a := by
    intro a
    match a with
    | ⟨0, _⟩ =>
      show 0 ≤ d.start u idx 0 + (d.window u 0 : ℤ) ∧ d.start u idx 0 + (d.window u 0 : ℤ) < (N : ℤ)
      rw [hd, hw0]
      omega
    | ⟨1, _⟩ =>
      show 0 ≤ d.start u idx 1 + (d.window u 1 : ℤ) ∧ d.start u idx 1 + (d.window u 1 : ℤ) < (H : ℤ)
      rw [h1, hw1]
      omega
    | ⟨2, _⟩ =>
      show 0 ≤ d.start u idx 2 + (d.window u 2 : ℤ) ∧ d.start u idx 2 + (d.window u 2 : ℤ) < (D : ℤ)
      rw [h2, hw2]
      omega
  unfold ScatterDims.resultIdx?
  rw [dif_pos hcond]
  congr 1
  funext a
  match a with
  | ⟨0, _⟩ =>
    apply Fin.ext
    show (d.start u idx 0 + (d.window u 0 : ℤ)).toNat = (dst (u 0)).val
    rw [hd, hw0]
    omega
  | ⟨1, _⟩ =>
    apply Fin.ext
    show (d.start u idx 1 + (d.window u 1 : ℤ)).toNat = (u 1).val
    rw [h1, hw1]
    omega
  | ⟨2, _⟩ =>
    apply Fin.ext
    show (d.start u idx 2 + (d.window u 2 : ℤ)).toNat = (u 2).val
    rw [h2, hw2]
    omega

/-- THE ROW SCATTER AT AN INDEX, rank 3. An accumulating scatter of E update rows, each an H by D
    block, into an operand of N such rows, row e going to the row whose number the [E, 1] index
    array holds at (e, 0) — numbers in range, `dst e` —, is at the ideal instance, at (n, h, j),
    the operand's element plus the exact sum of `upd (e, h, j)` over the rows e sent to n. -/
theorem scatterAdd_rows3 {N H D E w : Nat}
    (d : ScatterDims ⟨3, ![N, H, D]⟩ ⟨2, ![E, 1]⟩ ⟨3, ![E, H, D]⟩)
    (huw : d.updateWindowDims = [1, 2]) (hiw : d.insertedWindowDims = [0])
    (hsd : d.scatterDimsToOperandDims = [0]) (hivd : d.indexVectorDim = 1)
    (x : (⟨3, ![N, H, D]⟩ : Shape).Idx → EReal) (idx : IVec ⟨2, ![E, 1]⟩ w)
    (upd : (⟨3, ![E, H, D]⟩ : Shape).Idx → EReal)
    (dst : Fin E → Fin N) (hdst : ∀ e, (idx (ix2 e 0)).toInt = ((dst e).val : ℤ))
    (n : Fin N) (h : Fin H) (j : Fin D) :
    Ideal.hostScatterAdd d x idx upd (ix3 n h j) =
      x (ix3 n h j) + ∑ e ∈ Finset.univ.filter (fun e => dst e = n), upd (ix3 e h j) := by
  unfold Ideal.hostScatterAdd
  congr 1
  symm
  refine Finset.sum_bij (fun e _ => ix3 e h j) ?_ ?_ ?_ ?_
  · intro e he
    rw [Finset.mem_filter] at he ⊢
    refine ⟨Finset.mem_univ _, ?_⟩
    rw [resultIdx?_rows3 d huw hiw hsd hivd idx dst hdst]
    show some (ix3 (dst e) h j) = some (ix3 n h j)
    rw [he.2]
  · intro a _ b _ hab
    exact congrFun hab 0
  · intro u hu
    rw [Finset.mem_filter, resultIdx?_rows3 d huw hiw hsd hivd idx dst hdst] at hu
    have hu' := Option.some.inj hu.2
    have e0 : dst (u 0) = n := congrFun hu' 0
    have e1 : u 1 = h := congrFun hu' 1
    have e2 : u 2 = j := congrFun hu' 2
    refine ⟨u 0, Finset.mem_filter.2 ⟨Finset.mem_univ _, e0⟩, ?_⟩
    rw [← e1, ← e2]
    exact (eq_ix3 u).symm
  · intro e _
    rfl

end Cert.Att.Lib
-- ==== Proof.LibScatterDrop.lean ====
/-
  The host's accumulating scatter of ROWS, read at an index at the ideal instance, for ARBITRARY row numbers.

  An operand of N rows of C entries, E update rows, and an [E, 1] array of row numbers, each any machine word read as a
  signed integer. Update row e is added onto the operand row whose number it carries when that number lies in
  [0, N − 1]; an update whose row number lies outside that range lands outside the operand and is dropped. So the
  result at (n, c) is the operand's element plus the exact sum of the update elements (e, c) over exactly those e whose
  row number, read signed, equals n: no range hypothesis is needed, the equality with n < N already carries it.
-/
import Idealize.ShloMosaic.PureOps
import Idealize.ShloMosaic.PureOps.Ideal
import Idealize.ShloMosaic.Lib.ValueIdx
import proofs.«123328_j6777458393829_1_alg».proof.Proof.LibScatterRows

open scoped BigOperators
open Idealize.ShloMosaic Idealize.ShloMosaic.ValueIdx

namespace Cert.Lib

/-- WHERE AN UPDATE LANDS, for any row number. Under the row scatter's dimension numbers (window axis 1 of the
    updates, operand axis 0 inserted and named by the one-component index vector on axis 1 of the index array), update
    index u lands at operand index (n, c) exactly when the row number read signed at (u 0, 0) is n and u's column is c.
    A row number that is negative or at least N makes the left side `none` (the update is dropped) and the right side
    false, since n < N. -/
theorem resultIdx?_rows2_any {N E C w : ℕ} (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hivd : d.indexVectorDim = 1)
    (idx : IVec ⟨2, ![E, 1]⟩ w) (u : (⟨2, ![E, C]⟩ : Shape).Idx) (n : Fin N) (c : Fin C) :
    d.resultIdx? u idx = some (ix2 n c) ↔ ((idx (ix2 (u 0) 0)).toInt = (n.val : ℤ) ∧ u 1 = c) := by
  -- start and window coordinate on each operand axis: (row number, 0) and (0, column)
  obtain ⟨h0, h1, hw0, hw1⟩ := Cert.Att.Lib.start_window_rows2 d huw hiw hsd hivd idx u
  have hlt0 : n.val < N := n.isLt
  have hlt1 : (u 1).val < C := idx2_lt1 u
  have hltc : c.val < C := c.isLt
  unfold ScatterDims.resultIdx?
  by_cases hcond : ∀ a, 0 ≤ d.start u idx a + d.window u a ∧
      d.start u idx a + d.window u a < (⟨2, ![N, C]⟩ : Shape).size a
  · -- the update lands inside the operand: compare the landing index with (n, c) coordinate by coordinate
    rw [dif_pos hcond]
    have hc0 : 0 ≤ d.start u idx 0 + (d.window u 0 : ℤ) ∧ d.start u idx 0 + (d.window u 0 : ℤ) < (N : ℤ) := hcond 0
    rw [h0, hw0] at hc0
    constructor
    · intro h
      have h' := Option.some.inj h
      have e0 : (d.start u idx 0 + (d.window u 0 : ℤ)).toNat = n.val := congrArg Fin.val (congrFun h' 0)
      have e1 : (d.start u idx 1 + (d.window u 1 : ℤ)).toNat = c.val := congrArg Fin.val (congrFun h' 1)
      rw [h0, hw0] at e0
      rw [h1, hw1] at e1
      exact ⟨by omega, Fin.ext (by omega)⟩
    · rintro ⟨e0, e1⟩
      congr 1
      funext a
      match a with
      | ⟨0, _⟩ =>
        apply Fin.ext
        show (d.start u idx 0 + (d.window u 0 : ℤ)).toNat = n.val
        rw [h0, hw0, e0]
        omega
      | ⟨1, _⟩ =>
        apply Fin.ext
        show (d.start u idx 1 + (d.window u 1 : ℤ)).toNat = c.val
        rw [h1, hw1, ← e1]
        omega
  · -- the update is dropped: then its row number cannot be n, for n < N would put it inside
    rw [dif_neg hcond]
    constructor
    · intro h
      exact absurd h (by simp)
    · rintro ⟨e0, _⟩
      exfalso
      apply hcond
      intro a
      match a with
      | ⟨0, _⟩ =>
        show 0 ≤ d.start u idx 0 + (d.window u 0 : ℤ) ∧ d.start u idx 0 + (d.window u 0 : ℤ) < (N : ℤ)
        rw [h0, hw0, e0]
        omega
      | ⟨1, _⟩ =>
        show 0 ≤ d.start u idx 1 + (d.window u 1 : ℤ) ∧ d.start u idx 1 + (d.window u 1 : ℤ) < (C : ℤ)
        rw [h1, hw1]
        omega

/-- THE ROW SCATTER AT AN INDEX, for any row numbers. An accumulating scatter of E update rows of width C into an
    operand of N rows, row e aimed at the row whose number the [E, 1] index array holds at (e, 0), is at the ideal
    instance, at (n, c), the operand's element plus the exact sum of `upd (e, c)` over the rows e whose number, read
    signed, is n. Rows aimed outside [0, N − 1] appear in no such sum: they are dropped. -/
theorem scatterAdd_rows2_any {N E C w : ℕ} (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hivd : d.indexVectorDim = 1)
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd d x idx upd (ix2 n c) =
      x (ix2 n c) + ∑ e ∈ Finset.univ.filter (fun e : Fin E => (idx (ix2 e 0)).toInt = (n.val : ℤ)),
        upd (ix2 e c) := by
  unfold Ideal.hostScatterAdd
  congr 1
  symm
  -- the update indices landing at (n, c) are the (e, c) with e aimed at n: a bijection e ↦ (e, c)
  refine Finset.sum_bij (fun e _ => ix2 e c) ?_ ?_ ?_ ?_
  · intro e he
    rw [Finset.mem_filter] at he ⊢
    exact ⟨Finset.mem_univ _, (resultIdx?_rows2_any d huw hiw hsd hivd idx (ix2 e c) n c).2 ⟨he.2, rfl⟩⟩
  · intro a _ b _ h
    exact congrFun h 0
  · intro u hu
    rw [Finset.mem_filter] at hu
    obtain ⟨e0, e1⟩ := (resultIdx?_rows2_any d huw hiw hsd hivd idx u n c).1 hu.2
    refine ⟨u 0, Finset.mem_filter.2 ⟨Finset.mem_univ _, e0⟩, ?_⟩
    rw [← e1]
    exact (eq_ix2 u).symm
  · intro e _
    rfl

/-- The accumulating scatter as a program spells it is, at the ideal instance, the exact-sum scatter above (the
    schedule key plays no part there). -/
theorem scatterAdd_ideal {φ : FTy} {s si u : Shape} {w : ℕ} (d : ScatterDims s si u) (x : FVec Ideal s φ)
    (idx : IVec si w) (upd : FVec Ideal u φ) :
    Host.scatterAdd (F := Ideal) d x idx upd = Ideal.hostScatterAdd d x idx upd := rfl

end Cert.Lib
-- ==== Proof.LibVectorAggregate.lean ====
/-
  Vector messages added up at their destination nodes, in two layouts of the message components.

  Every edge e carries H * D numbers, component (a, b) for a < H and b < D, and a destination row number, an arbitrary
  machine word read as a signed integer. For a node n < N the aggregate is, per component, zero plus the exact sum of
  that component over the edges whose row number equals n; an edge whose row number is negative or at least N is
  counted for no node. One program keeps the components of an edge as a [D, H] block and accumulates into an
  [N, D, H] array. The other keeps them as one flat row of length H * D, component (a, b) in column a * D + b, regroups
  the row into an [H, D] block (same row-major position), accumulates into an [N, H, D] array and exchanges the last
  two axes of the result. When the two update arrays hold the same numbers, flat column a * D + b against block entry
  (b, a), the two aggregates agree at every (n, b, a): both are zero plus a sum over the same set of edges of equal
  terms. The sums are exact sums of extended reals, so nothing beyond naming the summation set and the terms is needed.

  The steps. (1) An update of an accumulating scatter lands at an operand index exactly when, on every operand axis,
  window start plus window coordinate equals that index's coordinate (an update leaving the operand on some axis lands
  nowhere). (2) For the row scatter with two window axes this says: update (e, a', b') lands at (n, a, b) iff the row
  number of e read signed is n, a' = a and b' = b; no range assumption on row numbers is used, since n < N already
  bounds the row number when the equality holds. (3) Hence the scatter's value at (n, a, b) is the operand's entry plus
  the sum of update entries (e, a, b) over the edges e aimed at n. (4) Regrouping a flat row, exchanging the last two
  axes, and a broadcast zero, each read at an index. (5) The two aggregates compared.
-/
import Idealize.ShloMosaic.PureOps
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«123328_j6777458393829_1_alg».proof.Proof.LibScatterDrop
import proofs.«123328_j6777458393829_1_alg».proof.Proof.LibRowBias

open scoped BigOperators
open Idealize.ShloMosaic Idealize.ShloMosaic.ValueIdx

namespace Cert.VectorAggregate

/-! ## Where an update lands -/

/-- An update index j of an accumulating scatter lands at operand index i exactly when window start plus window
    coordinate is i's coordinate on every operand axis. If the sums leave the operand on some axis the update lands
    nowhere, and then they cannot all be coordinates of an operand index. -/
theorem resultIdx?_eq_some_iff {s si su : Shape} (d : ScatterDims s si su) {w : ℕ} (j : su.Idx) (idx : IVec si w)
    (i : s.Idx) :
    d.resultIdx? j idx = some i ↔ ∀ c, d.start j idx c + (d.window j c : ℤ) = ((i c).val : ℤ) := by
  unfold ScatterDims.resultIdx?
  by_cases hin : ∀ c, 0 ≤ d.start j idx c + d.window j c ∧ d.start j idx c + d.window j c < s.size c
  · rw [dif_pos hin]
    constructor
    · intro h c
      have hv : (d.start j idx c + (d.window j c : ℤ)).toNat = (i c).val :=
        congrArg Fin.val (congrFun (Option.some.inj h) c)
      have h0 := (hin c).1
      omega
    · intro h
      refine congrArg some (funext fun c => Fin.ext ?_)
      show (d.start j idx c + (d.window j c : ℤ)).toNat = (i c).val
      rw [h c]
      exact Int.toNat_natCast _
  · rw [dif_neg hin]
    constructor
    · intro h
      exact absurd h.symm (Option.some_ne_none i)
    · intro h
      refine absurd (fun c => ?_) hin
      have hlt : (i c).val < s.size c := (i c).isLt
      rw [h c]
      omega

/-- THE ROW SCATTER WITH TWO WINDOW AXES, where an update lands, for any row number. Update index u = (e, a', b')
    lands at (n, a, b) exactly when the row number read signed at (e, 0) is n, a' = a and b' = b. On the operand's row
    axis the window starts at the row number and the window coordinate is 0; on the other two axes the window starts at
    0 and the window coordinate is u's. A row number outside [0, N − 1] makes both sides false. -/
theorem resultIdx?_rows3_any {N H D E w : ℕ}
    (d : ScatterDims ⟨3, ![N, H, D]⟩ ⟨2, ![E, 1]⟩ ⟨3, ![E, H, D]⟩)
    (huw : d.updateWindowDims = [1, 2]) (hiw : d.insertedWindowDims = [0])
    (hsd : d.scatterDimsToOperandDims = [0]) (hivd : d.indexVectorDim = 1)
    (idx : IVec ⟨2, ![E, 1]⟩ w) (u : (⟨3, ![E, H, D]⟩ : Shape).Idx) (n : Fin N) (a : Fin H) (b : Fin D) :
    d.resultIdx? u idx = some (ix3 n a b) ↔
      ((idx (ix2 (u 0) 0)).toInt = (n.val : ℤ) ∧ u 1 = a ∧ u 2 = b) := by
  obtain ⟨s0, s1, s2, w0, w1, w2⟩ := Cert.Att.Lib.start_window_rows3 d huw hiw hsd hivd idx u
  rw [resultIdx?_eq_some_iff]
  constructor
  · intro h
    have e0 : d.start u idx 0 + (d.window u 0 : ℤ) = (n.val : ℤ) := h 0
    have e1 : d.start u idx 1 + (d.window u 1 : ℤ) = (a.val : ℤ) := h 1
    have e2 : d.start u idx 2 + (d.window u 2 : ℤ) = (b.val : ℤ) := h 2
    rw [s0, w0] at e0
    rw [s1, w1] at e1
    rw [s2, w2] at e2
    exact ⟨by omega, Fin.ext (by omega), Fin.ext (by omega)⟩
  · rintro ⟨e0, e1, e2⟩ c
    have v1 : (u 1).val = a.val := congrArg Fin.val e1
    have v2 : (u 2).val = b.val := congrArg Fin.val e2
    match c with
    | ⟨0, _⟩ =>
      show d.start u idx 0 + (d.window u 0 : ℤ) = (n.val : ℤ)
      rw [s0, w0, e0]
      omega
    | ⟨1, _⟩ =>
      show d.start u idx 1 + (d.window u 1 : ℤ) = (a.val : ℤ)
      rw [s1, w1]
      omega
    | ⟨2, _⟩ =>
      show d.start u idx 2 + (d.window u 2 : ℤ) = (b.val : ℤ)
      rw [s2, w2]
      omega

/-! ## The scatter's value at an index -/

/-- THE ROW SCATTER WITH TWO WINDOW AXES AT AN INDEX, for any row numbers. Accumulating E update blocks of shape
    [H, D] into an operand of N such blocks, block e aimed at the row whose number the [E, 1] index array holds at
    (e, 0), gives at the ideal instance, at (n, a, b), the operand's entry plus the exact sum of upd (e, a, b) over the
    e whose row number read signed is n. The updates landing at (n, a, b) correspond one to one to those e, by
    e ↦ (e, a, b) with inverse u ↦ u's first coordinate. -/
theorem scatterAdd_rows3_any {N H D E w : ℕ}
    (d : ScatterDims ⟨3, ![N, H, D]⟩ ⟨2, ![E, 1]⟩ ⟨3, ![E, H, D]⟩)
    (huw : d.updateWindowDims = [1, 2]) (hiw : d.insertedWindowDims = [0])
    (hsd : d.scatterDimsToOperandDims = [0]) (hivd : d.indexVectorDim = 1)
    (x : (⟨3, ![N, H, D]⟩ : Shape).Idx → EReal) (idx : IVec ⟨2, ![E, 1]⟩ w)
    (upd : (⟨3, ![E, H, D]⟩ : Shape).Idx → EReal) (n : Fin N) (a : Fin H) (b : Fin D) :
    Ideal.hostScatterAdd d x idx upd (ix3 n a b) =
      x (ix3 n a b) + ∑ e ∈ Finset.univ.filter (fun e : Fin E => (idx (ix2 e 0)).toInt = (n.val : ℤ)),
        upd (ix3 e a b) := by
  unfold Ideal.hostScatterAdd
  refine congrArg (fun t => x (ix3 n a b) + t) (Eq.symm ?_)
  refine Finset.sum_nbij' (fun e => ix3 e a b) (fun u => u 0) ?_ ?_ ?_ ?_ ?_
  · intro e he
    have he' := (Finset.mem_filter.1 he).2
    exact Finset.mem_filter.2 ⟨Finset.mem_univ _,
      (resultIdx?_rows3_any d huw hiw hsd hivd idx (ix3 e a b) n a b).2 ⟨he', rfl, rfl⟩⟩
  · intro u hu
    have hu' := (resultIdx?_rows3_any d huw hiw hsd hivd idx u n a b).1 (Finset.mem_filter.1 hu).2
    exact Finset.mem_filter.2 ⟨Finset.mem_univ _, hu'.1⟩
  · intro e _
    rfl
  · intro u hu
    obtain ⟨_, e1, e2⟩ := (resultIdx?_rows3_any d huw hiw hsd hivd idx u n a b).1 (Finset.mem_filter.1 hu).2
    show ix3 (u 0) a b = u
    rw [← e1, ← e2]
    exact (eq_ix3 u).symm
  · intro e _
    rfl

/-! ## Layout operations read at an index -/

/-- Column a * D + b of a row of length H * D exists: a < H and b < D. -/
theorem flat_lt {H D T : ℕ} (hT : T = H * D) (a : Fin H) (b : Fin D) : a.val * D + b.val < T := by
  rw [hT]
  calc a.val * D + b.val < a.val * D + D := Nat.add_lt_add_left b.isLt _
    _ = (a.val + 1) * D := (Nat.succ_mul _ _).symm
    _ ≤ H * D := Nat.mul_le_mul_right D a.isLt

/-- A flat row of length H * D regrouped as an [H, D] block: entry (a, b) of row e is the flat row's column
    a * D + b, the two indices having the same row-major position (e * H + a) * D + b = e * (H * D) + (a * D + b). -/
theorem unflatten_apply {E H D T : ℕ} (hT : T = H * D) {α : Type} (U : (⟨2, ![E, T]⟩ : Shape).Idx → α)
    (h : (⟨2, ![E, T]⟩ : Shape).ShapeCasts ⟨3, ![E, H, D]⟩) (e : Fin E) (a : Fin H) (b : Fin D) :
    shapeCast ⟨3, ![E, H, D]⟩ U h (ix3 e a b) = U (ix2 e ⟨a.val * D + b.val, flat_lt hT a b⟩) :=
  shapeCast_apply U h (ix3 e a b) (ix2 e ⟨a.val * D + b.val, flat_lt hT a b⟩) (by
    rw [Shape.rowMajor_val_two, Shape.rowMajor_val_three]
    show e.val * T + (a.val * D + b.val) = (e.val * H + a.val) * D + b.val
    rw [hT, Nat.add_mul, Nat.mul_assoc, Nat.add_assoc])

/-- The last two axes exchanged: the result at (n, b, a) is the operand at (n, a, b). -/
theorem swap_last_apply {N H D : ℕ} {α : Type} (Y : (⟨3, ![N, H, D]⟩ : Shape).Idx → α)
    (h : (⟨3, ![N, H, D]⟩ : Shape).Transposes [0, 2, 1] ⟨3, ![N, D, H]⟩) (n : Fin N) (b : Fin D) (a : Fin H) :
    transpose ⟨3, ![N, D, H]⟩ [0, 2, 1] Y h (ix3 n b a) = Y (ix3 n a b) :=
  transpose_apply [0, 2, 1] Y h (ix3 n b a) (ix3 n a b) fun c =>
    match c with
    | ⟨0, _⟩ => rfl
    | ⟨1, _⟩ => rfl
    | ⟨2, _⟩ => rfl

/-- The f32 zero broadcast to any shape is 0 at every index. -/
theorem zeros_apply {s : Shape} (h : (⟨0, ![]⟩ : Shape).BroadcastsInDim s ![]) (i : s.Idx) :
    broadcastInDim s ![] h (constant (F := Ideal) ⟨0, ![]⟩ .f32 0x00000000#32) i = 0 :=
  (Cert.RowBias.splat_apply _ h i).trans Ideal.ofBits_zero_f32

/-! ## The two aggregates -/

/-- THE RESULT. Scattering the flat updates, regrouped to [E, H, D], into zeros of shape [N, H, D] and exchanging
    the last two axes gives the same array as scattering the [E, D, H] updates into zeros of shape [N, D, H], the row
    numbers being the same arbitrary words on both sides and the updates agreeing entry by entry (flat column
    a * D + b against block entry (b, a)). At (n, b, a) both sides are 0 plus a sum over the edges aimed at n, and the
    terms agree edge by edge. -/
theorem aggregate_eq {N E H D T w : ℕ} (hT : T = H * D)
    (dk : ScatterDims ⟨3, ![N, H, D]⟩ ⟨2, ![E, 1]⟩ ⟨3, ![E, H, D]⟩)
    (hk1 : dk.updateWindowDims = [1, 2]) (hk2 : dk.insertedWindowDims = [0])
    (hk3 : dk.scatterDimsToOperandDims = [0]) (hk4 : dk.indexVectorDim = 1)
    (dr : ScatterDims ⟨3, ![N, D, H]⟩ ⟨2, ![E, 1]⟩ ⟨3, ![E, D, H]⟩)
    (hr1 : dr.updateWindowDims = [1, 2]) (hr2 : dr.insertedWindowDims = [0])
    (hr3 : dr.scatterDimsToOperandDims = [0]) (hr4 : dr.indexVectorDim = 1)
    (idx : IVec ⟨2, ![E, 1]⟩ w) (U : FVec Ideal ⟨2, ![E, T]⟩ .f32) (Ur : FVec Ideal ⟨3, ![E, D, H]⟩ .f32)
    (hsc : (⟨2, ![E, T]⟩ : Shape).ShapeCasts ⟨3, ![E, H, D]⟩)
    (htr : (⟨3, ![N, H, D]⟩ : Shape).Transposes [0, 2, 1] ⟨3, ![N, D, H]⟩)
    (hzk : (⟨0, ![]⟩ : Shape).BroadcastsInDim ⟨3, ![N, H, D]⟩ ![])
    (hzr : (⟨0, ![]⟩ : Shape).BroadcastsInDim ⟨3, ![N, D, H]⟩ ![])
    (hU : ∀ (e : Fin E) (a : Fin H) (b : Fin D) (hab : a.val * D + b.val < T),
      U (ix2 e ⟨a.val * D + b.val, hab⟩) = Ur (ix3 e b a)) :
    transpose ⟨3, ![N, D, H]⟩ [0, 2, 1]
        (Host.scatterAdd (F := Ideal) dk
          (broadcastInDim ⟨3, ![N, H, D]⟩ ![] hzk (constant ⟨0, ![]⟩ .f32 0x00000000#32)) idx
          (shapeCast ⟨3, ![E, H, D]⟩ U hsc)) htr
      = Host.scatterAdd (F := Ideal) dr
          (broadcastInDim ⟨3, ![N, D, H]⟩ ![] hzr (constant ⟨0, ![]⟩ .f32 0x00000000#32)) idx Ur := by
  funext i
  obtain ⟨n, b, a, rfl⟩ : ∃ n b a, i = ix3 n b a := ⟨i 0, i 1, i 2, eq_ix3 i⟩
  -- each side at its index: zero plus the sum over the edges aimed at n
  have hk := scatterAdd_rows3_any dk hk1 hk2 hk3 hk4
    (broadcastInDim ⟨3, ![N, H, D]⟩ ![] hzk (constant (F := Ideal) ⟨0, ![]⟩ .f32 0x00000000#32)) idx
    (shapeCast ⟨3, ![E, H, D]⟩ U hsc) n a b
  have hr := scatterAdd_rows3_any dr hr1 hr2 hr3 hr4
    (broadcastInDim ⟨3, ![N, D, H]⟩ ![] hzr (constant (F := Ideal) ⟨0, ![]⟩ .f32 0x00000000#32)) idx Ur n b a
  rw [zeros_apply] at hk hr
  refine (swap_last_apply _ htr n b a).trans (hk.trans (Eq.trans ?_ hr.symm))
  -- the same edges on both sides; term by term, the regrouped flat entry is the block entry
  refine congrArg (fun t => (0 : EReal) + t) (Finset.sum_congr rfl fun e _ => ?_)
  exact (unflatten_apply hT U hsc e a b).trans (hU e a b _)

end Cert.VectorAggregate
-- ==== Proof.Bridge.lean ====
/-
  What the kernel program leaves in its three result buffers, as the reference's stages of the kernel's own arguments.

  Region by region: a region's output array is one whole-array function when, at every grid point, the body's result
  on the point's blocks is that function on the block's rows; a block's rows are rows of the array the region found;
  what it found is what the host operations before it made of the launch memory and of the earlier regions' outputs. So
  the node embedding is the reference's, hence so are the two gathered arrays (the same gather of equal tables at equal
  row numbers); hence the edge embedding and both messages are the reference's, row by row; hence the summed scalar
  messages (the same scatter of equal updates) and the node update; and the summed vector messages, whose two layouts hold
  the same exact sums.
-/
import proofs.«123328_j6777458393829_1_alg».proof.Proof.Gen.KernelIdeal.Frame
import proofs.«123328_j6777458393829_1_alg».proof.Proof.Gen.ReferenceIdeal.Read
import proofs.«123328_j6777458393829_1_alg».proof.Proof.NodeRegions
import proofs.«123328_j6777458393829_1_alg».proof.Proof.EdgeRegion
import proofs.«123328_j6777458393829_1_alg».proof.Proof.NodeEntry
import proofs.«123328_j6777458393829_1_alg».proof.Proof.EdgeEntry
import proofs.«123328_j6777458393829_1_alg».proof.Proof.NodeStages
import proofs.«123328_j6777458393829_1_alg».proof.Proof.MessageStages
import proofs.«123328_j6777458393829_1_alg».proof.Proof.LibVectorAggregate

set_option maxRecDepth 16384

noncomputable section

namespace Cert.Bridge

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ) (ρ : Dev nD → PrngReg) (c : Dev nD)

/-! ## Region 0: the node embedding -/

/-- Region 0 leaves the reference's node embedding of the kernel's arguments. -/
theorem embed_value :
    (dat0 (V1 m ρ) c).arrAt 3 cfg0.N = Cert.ReferenceIdeal.Read.val_main_v7 (F := Ideal) (m ((c.tc : Thread nD τ).loc main_arg0)) (m ((c.tc : Thread nD τ).loc main_arg4)) (m ((c.tc : Thread nD τ).loc main_arg5)) :=
  Cert.KernelIdeal.NodeRegions.embed_final (V1 m ρ) c _ fun t p q h =>
    Cert.Stage.embed_rows _ _ _ _ _ _ p ⟨_, h⟩
      (fun k => (Cert.KernelIdeal.NodeRegions.embed_rows (V1 m ρ) c t p k).trans (congrFun (Cert.KernelIdeal.NodeEntry.embed_arg0 m ρ c) _))
      (fun k j => (Cert.KernelIdeal.NodeRegions.embed_whole1 (V1 m ρ) c t (ix2 k j)).trans (congrFun (Cert.KernelIdeal.NodeEntry.embed_arg4 m ρ c) _))
      (fun j => (Cert.KernelIdeal.NodeRegions.embed_whole2 (V1 m ρ) c t (ix2 0 j)).trans
        ((congrFun (Cert.KernelIdeal.NodeEntry.embed_bias m ρ c) _).trans (Cert.MlpRows.row_of_vec _ _ j)))
      q

/-! ## The gathers between regions 0 and 1 -/

theorem src_value : V3 m ρ c main_v12 = Cert.ReferenceIdeal.Read.val_main_v23 (F := Ideal) (m ((c.tc : Thread nD τ).loc main_arg0)) (m ((c.tc : Thread nD τ).loc main_arg1)) (m ((c.tc : Thread nD τ).loc main_arg4)) (m ((c.tc : Thread nD τ).loc main_arg5)) :=
  (Cert.KernelIdeal.EdgeEntry.entry_src m ρ c).trans (by rw [embed_value m ρ c]; rfl)

theorem dst_value : V3 m ρ c main_v19 = Cert.ReferenceIdeal.Read.val_main_v30 (F := Ideal) (m ((c.tc : Thread nD τ).loc main_arg0)) (m ((c.tc : Thread nD τ).loc main_arg1)) (m ((c.tc : Thread nD τ).loc main_arg4)) (m ((c.tc : Thread nD τ).loc main_arg5)) :=
  (Cert.KernelIdeal.EdgeEntry.entry_dst m ρ c).trans (by rw [embed_value m ρ c]; rfl)

/-! ## Region 1: the edge embedding and the two messages -/

/-- Region 1's first output is the reference's edge embedding. -/
theorem ea_value :
    (dat1 (V3 m ρ) c).arrAt 16 cfg1.N = Cert.ReferenceIdeal.Read.val_main_v16 (F := Ideal) (m ((c.tc : Thread nD τ).loc main_arg2)) (m ((c.tc : Thread nD τ).loc main_arg6)) (m ((c.tc : Thread nD τ).loc main_arg7)) (m ((c.tc : Thread nD τ).loc main_arg8)) (m ((c.tc : Thread nD τ).loc main_arg9)) :=
  Cert.KernelIdeal.EdgeRegion.ea_final (V3 m ρ) c _ fun t p q h =>
    Cert.Stage.ea_rows _ _ _ _ _ _ _ _ _ _ p ⟨_, h⟩
      (fun k => (Cert.KernelIdeal.EdgeRegion.rows0 (V3 m ρ) c t p k).trans (congrFun (Cert.KernelIdeal.EdgeEntry.entry_arg2 m ρ c) _))
      (fun k j => (Cert.KernelIdeal.EdgeRegion.whole4 (V3 m ρ) c t (ix2 k j)).trans (congrFun (Cert.KernelIdeal.EdgeEntry.entry_arg6 m ρ c) _)) (fun j => (Cert.KernelIdeal.EdgeRegion.whole5 (V3 m ρ) c t (ix2 0 j)).trans ((congrFun (Cert.KernelIdeal.EdgeEntry.entry_v20 m ρ c) _).trans (Cert.MlpRows.row_of_vec _ _ j)))
      (fun k j => (Cert.KernelIdeal.EdgeRegion.whole6 (V3 m ρ) c t (ix2 k j)).trans (congrFun (Cert.KernelIdeal.EdgeEntry.entry_arg8 m ρ c) _)) (fun j => (Cert.KernelIdeal.EdgeRegion.whole7 (V3 m ρ) c t (ix2 0 j)).trans ((congrFun (Cert.KernelIdeal.EdgeEntry.entry_v21 m ρ c) _).trans (Cert.MlpRows.row_of_vec _ _ j))) q

/-- Region 1's second output is the reference's scalar message. -/
theorem msgs_value :
    (dat1 (V3 m ρ) c).arrAt 17 cfg1.N = Cert.ReferenceIdeal.Read.val_main_v41 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  Cert.KernelIdeal.EdgeRegion.msgs_final (V3 m ρ) c _ fun t p q h =>
    Cert.Stage.msgs_rows _ _ _ _ _ _ _ _ _ _ _ (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) p ⟨_, h⟩
      (fun k => (Cert.KernelIdeal.EdgeRegion.rows0 (V3 m ρ) c t p k).trans (congrFun (Cert.KernelIdeal.EdgeEntry.entry_arg2 m ρ c) _))
      (fun k => (Cert.KernelIdeal.EdgeRegion.rows1 (V3 m ρ) c t p k).trans (congrFun (src_value m ρ c) _))
      (fun k => (Cert.KernelIdeal.EdgeRegion.rows2 (V3 m ρ) c t p k).trans (congrFun (dst_value m ρ c) _))
      (fun k j => (Cert.KernelIdeal.EdgeRegion.whole4 (V3 m ρ) c t (ix2 k j)).trans (congrFun (Cert.KernelIdeal.EdgeEntry.entry_arg6 m ρ c) _)) (fun j => (Cert.KernelIdeal.EdgeRegion.whole5 (V3 m ρ) c t (ix2 0 j)).trans ((congrFun (Cert.KernelIdeal.EdgeEntry.entry_v20 m ρ c) _).trans (Cert.MlpRows.row_of_vec _ _ j)))
      (fun k j => (Cert.KernelIdeal.EdgeRegion.whole6 (V3 m ρ) c t (ix2 k j)).trans (congrFun (Cert.KernelIdeal.EdgeEntry.entry_arg8 m ρ c) _)) (fun j => (Cert.KernelIdeal.EdgeRegion.whole7 (V3 m ρ) c t (ix2 0 j)).trans ((congrFun (Cert.KernelIdeal.EdgeEntry.entry_v21 m ρ c) _).trans (Cert.MlpRows.row_of_vec _ _ j)))
      (fun k j => (Cert.KernelIdeal.EdgeRegion.whole8 (V3 m ρ) c t (ix2 k j)).trans (congrFun (Cert.KernelIdeal.EdgeEntry.entry_arg10 m ρ c) _)) (fun j => (Cert.KernelIdeal.EdgeRegion.whole9 (V3 m ρ) c t (ix2 0 j)).trans ((congrFun (Cert.KernelIdeal.EdgeEntry.entry_v22 m ρ c) _).trans (Cert.MlpRows.row_of_vec _ _ j)))
      (fun k j => (Cert.KernelIdeal.EdgeRegion.whole10 (V3 m ρ) c t (ix2 k j)).trans (congrFun (Cert.KernelIdeal.EdgeEntry.entry_arg12 m ρ c) _)) (fun j => (Cert.KernelIdeal.EdgeRegion.whole11 (V3 m ρ) c t (ix2 0 j)).trans ((congrFun (Cert.KernelIdeal.EdgeEntry.entry_v23 m ρ c) _).trans (Cert.MlpRows.row_of_vec _ _ j))) q

/-- Region 1's third output is the reference's vector message, flattened: column 64 k + d of row e holds
    component k times coefficient d. -/
theorem msgv_value :
    (dat1 (V3 m ρ) c).arrAt 18 cfg1.N = Cert.Stage.flatMessage (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg18)) (m ((c.tc : Thread nD τ).loc main_arg19)) (m ((c.tc : Thread nD τ).loc main_arg20)) (m ((c.tc : Thread nD τ).loc main_arg21)) :=
  Cert.KernelIdeal.EdgeRegion.msgv_final (V3 m ρ) c _ fun t p q h =>
    Cert.Stage.msgv_rows _ _ _ _ _ _ _ _ _ _ _ _ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg18)) (m ((c.tc : Thread nD τ).loc main_arg19)) (m ((c.tc : Thread nD τ).loc main_arg20)) (m ((c.tc : Thread nD τ).loc main_arg21)) p ⟨_, h⟩
      (fun k => (Cert.KernelIdeal.EdgeRegion.rows0 (V3 m ρ) c t p k).trans (congrFun (Cert.KernelIdeal.EdgeEntry.entry_arg2 m ρ c) _))
      (fun k => (Cert.KernelIdeal.EdgeRegion.rows1 (V3 m ρ) c t p k).trans (congrFun (src_value m ρ c) _))
      (fun k => (Cert.KernelIdeal.EdgeRegion.rows2 (V3 m ρ) c t p k).trans (congrFun (dst_value m ρ c) _))
      (fun k => (Cert.KernelIdeal.EdgeRegion.rows3 (V3 m ρ) c t p k).trans (congrFun (Cert.KernelIdeal.EdgeEntry.entry_arg3 m ρ c) _))
      (fun k j => (Cert.KernelIdeal.EdgeRegion.whole4 (V3 m ρ) c t (ix2 k j)).trans (congrFun (Cert.KernelIdeal.EdgeEntry.entry_arg6 m ρ c) _)) (fun j => (Cert.KernelIdeal.EdgeRegion.whole5 (V3 m ρ) c t (ix2 0 j)).trans ((congrFun (Cert.KernelIdeal.EdgeEntry.entry_v20 m ρ c) _).trans (Cert.MlpRows.row_of_vec _ _ j)))
      (fun k j => (Cert.KernelIdeal.EdgeRegion.whole6 (V3 m ρ) c t (ix2 k j)).trans (congrFun (Cert.KernelIdeal.EdgeEntry.entry_arg8 m ρ c) _)) (fun j => (Cert.KernelIdeal.EdgeRegion.whole7 (V3 m ρ) c t (ix2 0 j)).trans ((congrFun (Cert.KernelIdeal.EdgeEntry.entry_v21 m ρ c) _).trans (Cert.MlpRows.row_of_vec _ _ j)))
      (fun k j => (Cert.KernelIdeal.EdgeRegion.whole12 (V3 m ρ) c t (ix2 k j)).trans (congrFun (Cert.KernelIdeal.EdgeEntry.entry_arg18 m ρ c) _)) (fun j => (Cert.KernelIdeal.EdgeRegion.whole13 (V3 m ρ) c t (ix2 0 j)).trans ((congrFun (Cert.KernelIdeal.EdgeEntry.entry_v24 m ρ c) _).trans (Cert.MlpRows.row_of_vec _ _ j)))
      (fun k j => (Cert.KernelIdeal.EdgeRegion.whole14 (V3 m ρ) c t (ix2 k j)).trans (congrFun (Cert.KernelIdeal.EdgeEntry.entry_arg20 m ρ c) _)) (fun j => (Cert.KernelIdeal.EdgeRegion.whole15 (V3 m ρ) c t (ix2 0 j)).trans ((congrFun (Cert.KernelIdeal.EdgeEntry.entry_v25 m ρ c) _).trans (Cert.MlpRows.row_of_vec _ _ j))) q

/-! ## The sum of scalar messages, and region 2: the node update -/

/-- The same accumulating scatter of equal updates at the same row numbers. -/
theorem agg_value : V5 m ρ c main_v29 = Cert.ReferenceIdeal.Read.val_main_v44 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  (Cert.KernelIdeal.NodeEntry.update_agg m ρ c).trans (by rw [msgs_value m ρ c]; rfl)

/-- Region 2 leaves the reference's node update. -/
theorem h0_value :
    (dat2 (V5 m ρ) c).arrAt 6 cfg2.N = Cert.ReferenceIdeal.Read.val_main_v54 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) :=
  Cert.KernelIdeal.NodeRegions.update_final (V5 m ρ) c _ fun t p q h =>
    Cert.Stage.update_rows _ _ _ _ _ _ (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) p ⟨_, h⟩
      (fun k => (Cert.KernelIdeal.NodeRegions.update_rows0 (V5 m ρ) c t p k).trans (congrFun ((Cert.KernelIdeal.NodeEntry.update_f m ρ c).trans (embed_value m ρ c)) _))
      (fun k => (Cert.KernelIdeal.NodeRegions.update_rows1 (V5 m ρ) c t p k).trans (congrFun (agg_value m ρ c) _))
      (fun k j => (Cert.KernelIdeal.NodeRegions.update_whole2 (V5 m ρ) c t (ix2 k j)).trans (congrFun (Cert.KernelIdeal.NodeEntry.update_arg14 m ρ c) _))
      (fun j => (Cert.KernelIdeal.NodeRegions.update_whole3 (V5 m ρ) c t (ix2 0 j)).trans ((congrFun (Cert.KernelIdeal.NodeEntry.update_bias35 m ρ c) _).trans (Cert.MlpRows.row_of_vec _ _ j)))
      (fun k j => (Cert.KernelIdeal.NodeRegions.update_whole4 (V5 m ρ) c t (ix2 k j)).trans (congrFun (Cert.KernelIdeal.NodeEntry.update_arg16 m ρ c) _))
      (fun j => (Cert.KernelIdeal.NodeRegions.update_whole5 (V5 m ρ) c t (ix2 0 j)).trans ((congrFun (Cert.KernelIdeal.NodeEntry.update_bias36 m ρ c) _).trans (Cert.MlpRows.row_of_vec _ _ j)))
      q

/-! ## The three results -/

theorem result_h0 : W6 m ρ c (Proc.devRef .tc main_v37) = Cert.ReferenceIdeal.Read.val_main_v54 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) :=
  (Cert.KernelIdeal.NodeEntry.result_h0 m ρ c).trans (h0_value m ρ c)

theorem result_ea : W6 m ρ c (Proc.devRef .tc main_v26_0) = Cert.ReferenceIdeal.Read.val_main_v16 (F := Ideal) (m ((c.tc : Thread nD τ).loc main_arg2)) (m ((c.tc : Thread nD τ).loc main_arg6)) (m ((c.tc : Thread nD τ).loc main_arg7)) (m ((c.tc : Thread nD τ).loc main_arg8)) (m ((c.tc : Thread nD τ).loc main_arg9)) :=
  (Cert.KernelIdeal.NodeEntry.result_ea m ρ c).trans (ea_value m ρ c)

/-- The summed vector messages: the kernel's layout [node, component, feature] with the last two axes swapped against
    the reference's [node, feature, component]; the same exact sums. -/
theorem result_v0 : W6 m ρ c (Proc.devRef .tc main_v34) = Cert.ReferenceIdeal.Read.val_main_v71 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg18)) (m ((c.tc : Thread nD τ).loc main_arg19)) (m ((c.tc : Thread nD τ).loc main_arg20)) (m ((c.tc : Thread nD τ).loc main_arg21)) := by
  refine (Cert.KernelIdeal.NodeEntry.result_v0 m ρ c).trans ?_
  rw [msgv_value m ρ c]
  exact Cert.VectorAggregate.aggregate_eq (N := 50000) (E := 800000) (H := 3) (D := 64) (T := 192) rfl
    scatter_S50000x3x64_S800000x1_S800000x3x64_12_0_0_1 rfl rfl rfl rfl
    Cert.ReferenceIdeal.scatter_S50000x64x3_S800000x1_S800000x64x3_12_0_0_1 rfl rfl rfl rfl
    _ _ _ _ _ _ _
    (fun e a b hab => Cert.Stage.flat_message_apply (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg18)) (m ((c.tc : Thread nD τ).loc main_arg19)) (m ((c.tc : Thread nD τ).loc main_arg20)) (m ((c.tc : Thread nD τ).loc main_arg21)) e a b hab)

end Cert.Bridge

end
-- ==== Proof.lean ====
/-
  The idealized kernel program and the idealized reference compute the same three arrays, as extended reals, element by
  element, from memories that agree on the twenty-two argument arrays.

  The network. A node embedding f = species · Wa + ba; for every edge e with endpoints (i, j) an edge embedding
  ea(e) = mlp(edge_attr(e)), the row cat(e) = [f(i) | f(j) | ea(e)], a scalar message mlp(cat(e)) ⊙ f(i) and a vector message
  edge_vec(e)[k] · mlp(cat(e))[d]; for every node n the sums of the scalar and of the vector messages over the edges whose
  second endpoint is n; and the node update h0(n) = mlp([f(n) | sum of scalar messages]). Each mlp is a dense layer, SiLU,
  a dense layer. The results are h0, the summed vector messages laid out [node, feature, component], and ea.

  The kernel computes f, the three edge arrays and h0 in three pipelined regions, tile of rows by tile of rows, and the
  gathers f(i), f(j) and the two sums on the host between them; the reference computes everything on the host over whole
  arrays. On the extended reals a change of float format is the identity, the vector unit's matrix product into a zero
  accumulator and the host's product are the same sum, the two spellings of SiLU (y · logistic y; y · (1 / (1 + e^(−y))))
  are one function, and a dense layer, SiLU, a concatenation along the feature axis and an entrywise product act on each
  row by itself: so every tile row holds what the reference's whole array holds in that row. The gathers and the sum of
  scalar messages are the same host operation of equal operands. The sum of vector messages differs in layout only — the
  kernel sums rows laid out [component, feature] and swaps the two axes afterwards —, and an accumulating scatter is, at
  each index, the exact sum of the updates whose row number is that node's, whatever the other row numbers are. No
  distributive law is used anywhere, so nothing is asked of the inputs.

  The three frames are the generated ones (the reference's is its generated run with the results dropped); the kernel's
  sanctioned idealization changed nothing that needs a statement.
-/
import proofs.«123328_j6777458393829_1_alg».proof.Defs
import proofs.«123328_j6777458393829_1_alg».proof.Proof.Gen.Kernel
import proofs.«123328_j6777458393829_1_alg».proof.Proof.Gen.Kernel.Frame
import proofs.«123328_j6777458393829_1_alg».proof.Proof.Gen.KernelIdeal
import proofs.«123328_j6777458393829_1_alg».proof.Proof.Gen.KernelIdeal.Frame
import proofs.«123328_j6777458393829_1_alg».proof.Proof.Gen.ReferenceIdeal
import proofs.«123328_j6777458393829_1_alg».proof.Proof.Gen.Pre_finite_inputs
import proofs.«123328_j6777458393829_1_alg».proof.Proof.Gen.ReferenceIdeal.Run
import proofs.«123328_j6777458393829_1_alg».proof.Proof.Gen.ReferenceIdeal.Read
import proofs.«123328_j6777458393829_1_alg».proof.Proof.ValueRun
import proofs.«123328_j6777458393829_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run ends with every argument array as launched: its generated run, the results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- Both runs end, the kernel's with each result buffer at the last boundary's contents, the reference's at its stages
    of its own arguments; the arguments agree, and the boundary's contents are the stages of the kernel's arguments. -/
theorem algebraic : Cert.algebraic_KernelIdeal_ReferenceIdeal := by
  intro m ρ m' ρ' _ hagree
  refine ⟨fun c => Cert.KernelIdeal.Gen.W6 m ρ c (Proc.devRef .tc Cert.KernelIdeal.main_v37),
    fun c => Cert.KernelIdeal.Gen.W6 m ρ c (Proc.devRef .tc Cert.KernelIdeal.main_v34),
    fun c => Cert.KernelIdeal.Gen.W6 m ρ c (Proc.devRef .tc Cert.KernelIdeal.main_v26_0),
    Cert.KernelIdeal.ValueRun.run_named (F := Ideal) m ρ, ?_⟩
  refine (θ_run Cert.ReferenceIdeal.defs _ _).mono (fun r h c => ?_) (Cert.ReferenceIdeal.Value.run (F := Ideal) m' ρ')
  obtain ⟨h1, h2, h3, hargs⟩ := h c
  obtain ⟨e0, e1, e2, e3, e4, e5, e6, e7, e8, e9, e10, e11, e12, e13, e14, e15, e16, e17, e18, e19, e20, e21⟩ := hagree c
  refine ⟨h1.trans ?_, h2.trans ?_, h3.trans ?_, hargs⟩
  · rw [Cert.ReferenceIdeal.Read.val_main_v54_eq, e0, e1, e2, e4, e5, e6, e7, e8, e9, e10, e11, e12, e13, e14, e15, e16, e17]
    exact (Cert.Bridge.result_h0 m ρ c).symm
  · rw [Cert.ReferenceIdeal.Read.val_main_v71_eq, e0, e1, e2, e3, e4, e5, e6, e7, e8, e9, e18, e19, e20, e21]
    exact (Cert.Bridge.result_v0 m ρ c).symm
  · refine (Cert.ReferenceIdeal.Read.val_main_v16_eq _ _ _ _ _).trans ?_
    rw [e2, e6, e7, e8, e9]
    exact (Cert.Bridge.result_ea m ρ c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
